-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S65536x768 : Shape := ⟨2, ![65536, 768]⟩
abbrev S65536 : Shape := ⟨1, ![65536]⟩
abbrev S1315x32 : Shape := ⟨2, ![1315, 32]⟩
abbrev S32x32 : Shape := ⟨2, ![32, 32]⟩
abbrev S32 : Shape := ⟨1, ![32]⟩
abbrev S32x832 : Shape := ⟨2, ![32, 832]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S65536x768 : S_.BroadcastsInDim S65536x768 (![] : Fin 0 → Fin S65536x768.rank)
  reducesTo_S65536x768_S_d0_1 : S65536x768.ReducesTo [0, 1] S_
  bcast_S_S1315x32 : S_.BroadcastsInDim S1315x32 (![] : Fin 0 → Fin S1315x32.rank)
  reducesTo_S1315x32_S_d0_1 : S1315x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x832 : S_.BroadcastsInDim S32x832 (![] : Fin 0 → Fin S32x832.rank)
  reducesTo_S32x832_S_d0_1 : S32x832.ReducesTo [0, 1] S_

variable [Facts]

def fn_part8 {F : FTy → Type} [FloatOps F] (main_arg17 : IVec S1048576 32) (main_v132 : IVec S_ 1) (main_c_56 : IVec S_ 32) : IVec S_ 1 :=
  let main_v133 : IVec S1048576 32 := broadcastInDim S1048576 ![] bcast_S_S1048576 main_c_56
  let main_v134 : IVec S1048576 1 := cmpi .slt main_arg17 main_v133
  let main_c_57 : IVec S_ 1 := constantI S_ 1 1#1
  let main_v135 : IVec S_ 1 := (fun x v => Host.reduce IntOp.andi x v reducesTo_S1048576_S_d0 h_S_) main_v134 main_c_57
  let main_v136 : IVec S_ 1 := andi main_v132 main_v135
  main_v136

def fn_part7 {F : FTy → Type} [FloatOps F] (main_arg10 : IVec S1048576 32) (main_arg14 : IVec S1048576 32) (main_arg17 : IVec S1048576 32) (main_v116 : IVec S_ 1) (main_c_48 : IVec S_ 32) : IVec S_ 1 :=
  let main_v117 : IVec S1048576 32 := broadcastInDim S1048576 ![] bcast_S_S1048576 main_c_48
  let main_v118 : IVec S1048576 1 := cmpi .slt main_arg10 main_v117
  let main_c_49 : IVec S_ 1 := constantI S_ 1 1#1
  let main_v119 : IVec S_ 1 := (fun x v => Host.reduce IntOp.andi x v reducesTo_S1048576_S_d0 h_S_) main_v118 main_c_49
  let main_v120 : IVec S_ 1 := andi main_v116 main_v119
  let main_c_50 : IVec S_ 32 := constantI S_ 32 0#32
  let main_v121 : IVec S1048576 32 := broadcastInDim S1048576 ![] bcast_S_S1048576 main_c_50
  let main_v122 : IVec S1048576 1 := cmpi .sge main_arg14 main_v121
  let main_c_51 : IVec S_ 1 := constantI S_ 1 1#1
  let main_v123 : IVec S_ 1 := (fun x v => Host.reduce IntOp.andi x v reducesTo_S1048576_S_d0 h_S_) main_v122 main_c_51
  let main_v124 : IVec S_ 1 := andi main_v120 main_v123
  let main_c_52 : IVec S_ 32 := constantI S_ 32 65536#32
  let main_v125 : IVec S1048576 32 := broadcastInDim S1048576 ![] bcast_S_S1048576 main_c_52
  let main_v126 : IVec S1048576 1 := cmpi .slt main_arg14 main_v125
  let main_c_53 : IVec S_ 1 := constantI S_ 1 1#1
  let main_v127 : IVec S_ 1 := (fun x v => Host.reduce IntOp.andi x v reducesTo_S1048576_S_d0 h_S_) main_v126 main_c_53
  let main_v128 : IVec S_ 1 := andi main_v124 main_v127
  let main_c_54 : IVec S_ 32 := constantI S_ 32 0#32
  let main_v129 : IVec S1048576 32 := broadcastInDim S1048576 ![] bcast_S_S1048576 main_c_54
  let main_v130 : IVec S1048576 1 := cmpi .sge main_arg17 main_v129
  let main_c_55 : IVec S_ 1 := constantI S_ 1 1#1
  let main_v131 : IVec S_ 1 := (fun x v => Host.reduce IntOp.andi x v reducesTo_S1048576_S_d0 h_S_) main_v130 main_c_55
  let main_v132 : IVec S_ 1 := andi main_v128 main_v131
  let main_c_56 : IVec S_ 32 := constantI S_ 32 65536#32
  fn_part8 (F := F) main_arg17 main_v132 main_c_56

def fn_part6 {F : FTy → Type} [FloatOps F] (main_arg3 : IVec S1048576 32) (main_arg7 : IVec S1048576 32) (main_arg10 : IVec S1048576 32) (main_arg14 : IVec S1048576 32) (main_arg17 : IVec S1048576 32) (main_v100 : IVec S_ 1) (main_c_40 : IVec S_ 32) : IVec S_ 1 :=
  let main_v101 : IVec S1048576 32 := broadcastInDim S1048576 ![] bcast_S_S1048576 main_c_40
  let main_v102 : IVec S1048576 1 := cmpi .slt main_arg3 main_v101
  let main_c_41 : IVec S_ 1 := constantI S_ 1 1#1
  let main_v103 : IVec S_ 1 := (fun x v => Host.reduce IntOp.andi x v reducesTo_S1048576_S_d0 h_S_) main_v102 main_c_41
  let main_v104 : IVec S_ 1 := andi main_v100 main_v103
  let main_c_42 : IVec S_ 32 := constantI S_ 32 0#32
  let main_v105 : IVec S1048576 32 := broadcastInDim S1048576 ![] bcast_S_S1048576 main_c_42
  let main_v106 : IVec S1048576 1 := cmpi .sge main_arg7 main_v105
  let main_c_43 : IVec S_ 1 := constantI S_ 1 1#1
  let main_v107 : IVec S_ 1 := (fun x v => Host.reduce IntOp.andi x v reducesTo_S1048576_S_d0 h_S_) main_v106 main_c_43
  let main_v108 : IVec S_ 1 := andi main_v104 main_v107
  let main_c_44 : IVec S_ 32 := constantI S_ 32 65536#32
  let main_v109 : IVec S1048576 32 := broadcastInDim S1048576 ![] bcast_S_S1048576 main_c_44
  let main_v110 : IVec S1048576 1 := cmpi .slt main_arg7 main_v109
  let main_c_45 : IVec S_ 1 := constantI S_ 1 1#1
  let main_v111 : IVec S_ 1 := (fun x v => Host.reduce IntOp.andi x v reducesTo_S1048576_S_d0 h_S_) main_v110 main_c_45
  let main_v112 : IVec S_ 1 := andi main_v108 main_v111
  let main_c_46 : IVec S_ 32 := constantI S_ 32 0#32
  let main_v113 : IVec S1048576 32 := broadcastInDim S1048576 ![] bcast_S_S1048576 main_c_46
  let main_v114 : IVec S1048576 1 := cmpi .sge main_arg10 main_v113
  let main_c_47 : IVec S_ 1 := constantI S_ 1 1#1
  let main_v115 : IVec S_ 1 := (fun x v => Host.reduce IntOp.andi x v reducesTo_S1048576_S_d0 h_S_) main_v114 main_c_47
  let main_v116 : IVec S_ 1 := andi main_v112 main_v115
  let main_c_48 : IVec S_ 32 := constantI S_ 32 65536#32
  fn_part7 (F := F) main_arg10 main_arg14 main_arg17 main_v116 main_c_48

def fn_part5 {F : FTy → Type} [FloatOps F] (main_arg0 : IVec S1048576 32) (main_arg3 : IVec S1048576 32) (main_arg7 : IVec S1048576 32) (main_arg10 : IVec S1048576 32) (main_arg14 : IVec S1048576 32) (main_arg17 : IVec S1048576 32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_c_34 : IVec S_ 32 := constantI S_ 32 0#32
  let main_v89 : IVec S1048576 32 := broadcastInDim S1048576 ![] bcast_S_S1048576 main_c_34
  let main_v90 : IVec S1048576 1 := cmpi .sge main_arg0 main_v89
  let main_c_35 : IVec S_ 1 := constantI S_ 1 1#1
  let main_v91 : IVec S_ 1 := (fun x v => Host.reduce IntOp.andi x v reducesTo_S1048576_S_d0 h_S_) main_v90 main_c_35
  let main_v92 : IVec S_ 1 := andi main_v88 main_v91
  let main_c_36 : IVec S_ 32 := constantI S_ 32 65536#32
  let main_v93 : IVec S1048576 32 := broadcastInDim S1048576 ![] bcast_S_S1048576 main_c_36
  let main_v94 : IVec S1048576 1 := cmpi .slt main_arg0 main_v93
  let main_c_37 : IVec S_ 1 := constantI S_ 1 1#1
  let main_v95 : IVec S_ 1 := (fun x v => Host.reduce IntOp.andi x v reducesTo_S1048576_S_d0 h_S_) main_v94 main_c_37
  let main_v96 : IVec S_ 1 := andi main_v92 main_v95
  let main_c_38 : IVec S_ 32 := constantI S_ 32 0#32
  let main_v97 : IVec S1048576 32 := broadcastInDim S1048576 ![] bcast_S_S1048576 main_c_38
  let main_v98 : IVec S1048576 1 := cmpi .sge main_arg3 main_v97
  let main_c_39 : IVec S_ 1 := constantI S_ 1 1#1
  let main_v99 : IVec S_ 1 := (fun x v => Host.reduce IntOp.andi x v reducesTo_S1048576_S_d0 h_S_) main_v98 main_c_39
  let main_v100 : IVec S_ 1 := andi main_v96 main_v99
  let main_c_40 : IVec S_ 32 := constantI S_ 32 65536#32
  fn_part6 (F := F) main_arg3 main_arg7 main_arg10 main_arg14 main_arg17 main_v100 main_c_40

def fn_part4 {F : FTy → Type} [FloatOps F] (main_arg0 : IVec S1048576 32) (main_arg3 : IVec S1048576 32) (main_arg7 : IVec S1048576 32) (main_arg10 : IVec S1048576 32) (main_arg14 : IVec S1048576 32) (main_arg17 : IVec S1048576 32) (main_arg27 : FVec F S32x832 .f32) (main_arg28 : FVec F S32 .f32) (main_arg29 : FVec F S32x32 .f32) (main_arg30 : FVec F S32 .f32) (main_v63 : IVec S_ 1) (main_v67 : IVec S_ 1) : IVec S_ 1 :=
  let main_v68 : IVec S_ 1 := andi main_v63 main_v67
  let main_v69 : FVec F S32x832 .f32 := Host.absf main_arg27
  let main_cst_26 : FVec F S_ .f32 := constant S_ .f32 0x7F800000#32
  let main_v70 : FVec F S32x832 .f32 := broadcastInDim S32x832 ![] bcast_S_S32x832 main_cst_26
  let main_v71 : IVec S32x832 1 := cmpf .olt main_v69 main_v70
  let main_c_27 : IVec S_ 1 := constantI S_ 1 1#1
  let main_v72 : IVec S_ 1 := (fun x v => Host.reduce IntOp.andi x v reducesTo_S32x832_S_d0_1 h_S_) main_v71 main_c_27
  let main_v73 : IVec S_ 1 := andi main_v68 main_v72
  let main_v74 : FVec F S32 .f32 := Host.absf main_arg28
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg29
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg30
  let main_cst_32 : FVec F S_ .f32 := constant S_ .f32 0x7F800000#32
  fn_part5 (F := F) main_arg0 main_arg3 main_arg7 main_arg10 main_arg14 main_arg17 main_v83 main_v84 main_cst_32

def fn_part3 {F : FTy → Type} [FloatOps F] (main_arg0 : IVec S1048576 32) (main_arg3 : IVec S1048576 32) (main_arg7 : IVec S1048576 32) (main_arg10 : IVec S1048576 32) (main_arg14 : IVec S1048576 32) (main_arg17 : IVec S1048576 32) (main_arg24 : FVec F S32 .f32) (main_arg25 : FVec F S32x32 .f32) (main_arg26 : FVec F S32 .f32) (main_arg27 : FVec F S32x832 .f32) (main_arg28 : FVec F S32 .f32) (main_arg29 : FVec F S32x32 .f32) (main_arg30 : FVec F S32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg24
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg25
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg26
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg0 main_arg3 main_arg7 main_arg10 main_arg14 main_arg17 main_arg27 main_arg28 main_arg29 main_arg30 main_v63 main_v67

def fn_part2 {F : FTy → Type} [FloatOps F] (main_arg0 : IVec S1048576 32) (main_arg3 : IVec S1048576 32) (main_arg7 : IVec S1048576 32) (main_arg10 : IVec S1048576 32) (main_arg14 : IVec S1048576 32) (main_arg17 : IVec S1048576 32) (main_arg19 : FVec F S1048576 .f32) (main_arg20 : FVec F S65536x768 .f32) (main_arg22 : FVec F S1315x32 .f32) (main_arg23 : FVec F S32x32 .f32) (main_arg24 : FVec F S32 .f32) (main_arg25 : FVec F S32x32 .f32) (main_arg26 : FVec F S32 .f32) (main_arg27 : FVec F S32x832 .f32) (main_arg28 : FVec F S32 .f32) (main_arg29 : FVec F S32x32 .f32) (main_arg30 : FVec F S32 .f32) (main_v33 : IVec S_ 1) : IVec S_ 1 :=
  let main_v34 : FVec F S1048576 .f32 := Host.absf main_arg19
  let main_cst_12 : FVec F S_ .f32 := constant S_ .f32 0x7F800000#32
  let main_v35 : FVec F S1048576 .f32 := broadcastInDim S1048576 ![] bcast_S_S1048576 main_cst_12
  let main_v36 : IVec S1048576 1 := cmpf .olt main_v34 main_v35
  let main_c_13 : IVec S_ 1 := constantI S_ 1 1#1
  let main_v37 : IVec S_ 1 := (fun x v => Host.reduce IntOp.andi x v reducesTo_S1048576_S_d0 h_S_) main_v36 main_c_13
  let main_v38 : IVec S_ 1 := andi main_v33 main_v37
  let main_v39 : FVec F S65536x768 .f32 := Host.absf main_arg20
  let main_cst_14 : FVec F S_ .f32 := constant S_ .f32 0x7F800000#32
  let main_v40 : FVec F S65536x768 .f32 := broadcastInDim S65536x768 ![] bcast_S_S65536x768 main_cst_14
  let main_v41 : IVec S65536x768 1 := cmpf .olt main_v39 main_v40
  let main_c_15 : IVec S_ 1 := constantI S_ 1 1#1
  let main_v42 : IVec S_ 1 := (fun x v => Host.reduce IntOp.andi x v reducesTo_S65536x768_S_d0_1 h_S_) main_v41 main_c_15
  let main_v43 : IVec S_ 1 := andi main_v38 main_v42
  let main_v44 : FVec F S1315x32 .f32 := Host.absf main_arg22
  let main_cst_16 : FVec F S_ .f32 := constant S_ .f32 0x7F800000#32
  let main_v45 : FVec F S1315x32 .f32 := broadcastInDim S1315x32 ![] bcast_S_S1315x32 main_cst_16
  let main_v46 : IVec S1315x32 1 := cmpf .olt main_v44 main_v45
  let main_c_17 : IVec S_ 1 := constantI S_ 1 1#1
  let main_v47 : IVec S_ 1 := (fun x v => Host.reduce IntOp.andi x v reducesTo_S1315x32_S_d0_1 h_S_) main_v46 main_c_17
  let main_v48 : IVec S_ 1 := andi main_v43 main_v47
  let main_v49 : FVec F S32x32 .f32 := Host.absf main_arg23
  let main_cst_18 : FVec F S_ .f32 := constant S_ .f32 0x7F800000#32
  let main_v50 : FVec F S32x32 .f32 := broadcastInDim S32x32 ![] bcast_S_S32x32 main_cst_18
  fn_part3 (F := F) main_arg0 main_arg3 main_arg7 main_arg10 main_arg14 main_arg17 main_arg24 main_arg25 main_arg26 main_arg27 main_arg28 main_arg29 main_arg30 main_v48 main_v49 main_v50

def fn_part1 {F : FTy → Type} [FloatOps F] (main_arg0 : IVec S1048576 32) (main_arg3 : IVec S1048576 32) (main_arg7 : IVec S1048576 32) (main_arg10 : IVec S1048576 32) (main_arg12 : FVec F S1048576 .f32) (main_arg13 : FVec F S65536x768 .f32) (main_arg14 : IVec S1048576 32) (main_arg16 : FVec F S1048576 .f32) (main_arg17 : IVec S1048576 32) (main_arg19 : FVec F S1048576 .f32) (main_arg20 : FVec F S65536x768 .f32) (main_arg22 : FVec F S1315x32 .f32) (main_arg23 : FVec F S32x32 .f32) (main_arg24 : FVec F S32 .f32) (main_arg25 : FVec F S32x32 .f32) (main_arg26 : FVec F S32 .f32) (main_arg27 : FVec F S32x832 .f32) (main_arg28 : FVec F S32 .f32) (main_arg29 : FVec F S32x32 .f32) (main_arg30 : FVec F S32 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S1048576 .f32 := Host.absf main_arg12
  let main_cst_6 : FVec F S_ .f32 := constant S_ .f32 0x7F800000#32
  let main_v20 : FVec F S1048576 .f32 := broadcastInDim S1048576 ![] bcast_S_S1048576 main_cst_6
  let main_v21 : IVec S1048576 1 := cmpf .olt main_v19 main_v20
  let main_c_7 : IVec S_ 1 := constantI S_ 1 1#1
  let main_v22 : IVec S_ 1 := (fun x v => Host.reduce IntOp.andi x v reducesTo_S1048576_S_d0 h_S_) main_v21 main_c_7
  let main_v23 : IVec S_ 1 := andi main_v18 main_v22
  let main_v24 : FVec F S65536x768 .f32 := Host.absf main_arg13
  let main_cst_8 : FVec F S_ .f32 := constant S_ .f32 0x7F800000#32
  let main_v25 : FVec F S65536x768 .f32 := broadcastInDim S65536x768 ![] bcast_S_S65536x768 main_cst_8
  let main_v26 : IVec S65536x768 1 := cmpf .olt main_v24 main_v25
  let main_c_9 : IVec S_ 1 := constantI S_ 1 1#1
  let main_v27 : IVec S_ 1 := (fun x v => Host.reduce IntOp.andi x v reducesTo_S65536x768_S_d0_1 h_S_) main_v26 main_c_9
  let main_v28 : IVec S_ 1 := andi main_v23 main_v27
  let main_v29 : FVec F S1048576 .f32 := Host.absf main_arg16
  let main_cst_10 : FVec F S_ .f32 := constant S_ .f32 0x7F800000#32
  let main_v30 : FVec F S1048576 .f32 := broadcastInDim S1048576 ![] bcast_S_S1048576 main_cst_10
  let main_v31 : IVec S1048576 1 := cmpf .olt main_v29 main_v30
  let main_c_11 : IVec S_ 1 := constantI S_ 1 1#1
  let main_v32 : IVec S_ 1 := (fun x v => Host.reduce IntOp.andi x v reducesTo_S1048576_S_d0 h_S_) main_v31 main_c_11
  let main_v33 : IVec S_ 1 := andi main_v28 main_v32
  fn_part2 (F := F) main_arg0 main_arg3 main_arg7 main_arg10 main_arg14 main_arg17 main_arg19 main_arg20 main_arg22 main_arg23 main_arg24 main_arg25 main_arg26 main_arg27 main_arg28 main_arg29 main_arg30 main_v33

def fn {F : FTy → Type} [FloatOps F] (main_arg0 : IVec S1048576 32) (main_arg1 : IVec S1048576 32) (main_arg2 : FVec F S1048576 .f32) (main_arg3 : IVec S1048576 32) (main_arg4 : IVec S1048576 32) (main_arg5 : FVec F S1048576 .f32) (main_arg6 : FVec F S65536x768 .f32) (main_arg7 : IVec S1048576 32) (main_arg8 : IVec S1048576 32) (main_arg9 : FVec F S1048576 .f32) (main_arg10 : IVec S1048576 32) (main_arg11 : IVec S1048576 32) (main_arg12 : FVec F S1048576 .f32) (main_arg13 : FVec F S65536x768 .f32) (main_arg14 : IVec S1048576 32) (main_arg15 : IVec S1048576 32) (main_arg16 : FVec F S1048576 .f32) (main_arg17 : IVec S1048576 32) (main_arg18 : IVec S1048576 32) (main_arg19 : FVec F S1048576 .f32) (main_arg20 : FVec F S65536x768 .f32) (main_arg21 : IVec S65536 32) (main_arg22 : FVec F S1315x32 .f32) (main_arg23 : FVec F S32x32 .f32) (main_arg24 : FVec F S32 .f32) (main_arg25 : FVec F S32x32 .f32) (main_arg26 : FVec F S32 .f32) (main_arg27 : FVec F S32x832 .f32) (main_arg28 : FVec F S32 .f32) (main_arg29 : FVec F S32x32 .f32) (main_arg30 : FVec F S32 .f32) : IVec S_ 1 :=
  let main_v0 : FVec F S1048576 .f32 := Host.absf main_arg2
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576 .f32 := Host.absf main_arg5
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S65536x768 .f32 := Host.absf main_arg6
  let main_cst_2 : FVec F S_ .f32 := constant S_ .f32 0x7F800000#32
  let main_v10 : FVec F S65536x768 .f32 := broadcastInDim S65536x768 ![] bcast_S_S65536x768 main_cst_2
  let main_v11 : IVec S65536x768 1 := cmpf .olt main_v9 main_v10
  let main_c_3 : IVec S_ 1 := constantI S_ 1 1#1
  let main_v12 : IVec S_ 1 := (fun x v => Host.reduce IntOp.andi x v reducesTo_S65536x768_S_d0_1 h_S_) main_v11 main_c_3
  let main_v13 : IVec S_ 1 := andi main_v8 main_v12
  let main_v14 : FVec F S1048576 .f32 := Host.absf main_arg9
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg0 main_arg3 main_arg7 main_arg10 main_arg12 main_arg13 main_arg14 main_arg16 main_arg17 main_arg19 main_arg20 main_arg22 main_arg23 main_arg24 main_arg25 main_arg26 main_arg27 main_arg28 main_arg29 main_arg30 main_v13 main_v16
-- ==== Kernel.lean ====
abbrev S1048576 : Shape := ⟨1, ![1048576]⟩
abbrev S65536x768 : Shape := ⟨2, ![65536, 768]⟩
abbrev S65536 : Shape := ⟨1, ![65536]⟩
abbrev S1315x32 : Shape := ⟨2, ![1315, 32]⟩
abbrev S32x32 : Shape := ⟨2, ![32, 32]⟩
abbrev S32 : Shape := ⟨1, ![32]⟩
abbrev S32x832 : Shape := ⟨2, ![32, 832]⟩
abbrev S_ : Shape := ⟨0, ![]⟩
abbrev S6291456 : Shape := ⟨1, ![6291456]⟩
abbrev S6291456x1 : Shape := ⟨2, ![6291456, 1]⟩
abbrev S6291456x32 : Shape := ⟨2, ![6291456, 32]⟩
abbrev S393216x32 : Shape := ⟨2, ![393216, 32]⟩
abbrev S6x65536x32 : Shape := ⟨3, ![6, 65536, 32]⟩
abbrev S1x65536x32 : Shape := ⟨3, ![1, 65536, 32]⟩
abbrev S65536x32 : Shape := ⟨2, ![65536, 32]⟩
abbrev S65536x64 : Shape := ⟨2, ![65536, 64]⟩
abbrev S1x32 : Shape := ⟨2, ![1, 32]⟩
abbrev S1315 : Shape := ⟨1, ![1315]⟩
abbrev S1315x1 : Shape := ⟨2, ![1315, 1]⟩
abbrev S65536x1 : Shape := ⟨2, ![65536, 1]⟩
abbrev S32x768 : Shape := ⟨2, ![32, 768]⟩
abbrev S768x32 : Shape := ⟨2, ![768, 32]⟩
abbrev S1024x768 : Shape := ⟨2, ![1024, 768]⟩
abbrev S1024x64 : Shape := ⟨2, ![1024, 64]⟩
abbrev S1024x32 : Shape := ⟨2, ![1024, 32]⟩
abbrev S1024 : Shape := ⟨1, ![1024]⟩
abbrev S1024x1 : Shape := ⟨2, ![1024, 1]⟩

abbrev nBuf : Space → Nat
  | .hbm => 126
  | .vmem => 26
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1048576, .f32⟩
  | .hbm, ⟨3, _⟩ => ⟨S1048576, .i32⟩
  | .hbm, ⟨4, _⟩ => ⟨S1048576, .i32⟩
  | .hbm, ⟨5, _⟩ => ⟨S1048576, .f32⟩
  | .hbm, ⟨6, _⟩ => ⟨S65536x768, .f32⟩
  | .hbm, ⟨7, _⟩ => ⟨S1048576, .i32⟩
  | .hbm, ⟨8, _⟩ => ⟨S1048576, .i32⟩
  | .hbm, ⟨9, _⟩ => ⟨S1048576, .f32⟩
  | .hbm, ⟨10, _⟩ => ⟨S1048576, .i32⟩
  | .hbm, ⟨11, _⟩ => ⟨S1048576, .i32⟩
  | .hbm, ⟨12, _⟩ => ⟨S1048576, .f32⟩
  | .hbm, ⟨13, _⟩ => ⟨S65536x768, .f32⟩
  | .hbm, ⟨14, _⟩ => ⟨S1048576, .i32⟩
  | .hbm, ⟨15, _⟩ => ⟨S1048576, .i32⟩
  | .hbm, ⟨16, _⟩ => ⟨S1048576, .f32⟩
  | .hbm, ⟨17, _⟩ => ⟨S1048576, .i32⟩
  | .hbm, ⟨18, _⟩ => ⟨S1048576, .i32⟩
  | .hbm, ⟨19, _⟩ => ⟨S1048576, .f32⟩
  | .hbm, ⟨20, _⟩ => ⟨S65536x768, .f32⟩
  | .hbm, ⟨21, _⟩ => ⟨S65536, .i32⟩
  | .hbm, ⟨22, _⟩ => ⟨S1315x32, .f32⟩
  | .hbm, ⟨23, _⟩ => ⟨S32x32, .f32⟩
  | .hbm, ⟨24, _⟩ => ⟨S32, .f32⟩
  | .hbm, ⟨25, _⟩ => ⟨S32x32, .f32⟩
  | .hbm, ⟨26, _⟩ => ⟨S32, .f32⟩
  | .hbm, ⟨27, _⟩ => ⟨S32x832, .f32⟩
  | .hbm, ⟨28, _⟩ => ⟨S32, .f32⟩
  | .hbm, ⟨29, _⟩ => ⟨S32x32, .f32⟩
  | .hbm, ⟨30, _⟩ => ⟨S32, .f32⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S_, .i32⟩
  | .hbm, ⟨38, _⟩ => ⟨S1048576, .i32⟩
  | .hbm, ⟨39, _⟩ => ⟨S1048576, .i32⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S6291456, .i32⟩
  | .hbm, ⟨50, _⟩ => ⟨S6291456, .i32⟩
  | .hbm, ⟨51, _⟩ => ⟨S6291456, .f32⟩
  | .hbm, ⟨52, _⟩ => ⟨S6291456x1, .f32⟩
  | .hbm, ⟨53, _⟩ => ⟨S_, .i32⟩
  | .hbm, ⟨54, _⟩ => ⟨S6291456, .i32⟩
  | .hbm, ⟨55, _⟩ => ⟨S6291456, .i1⟩
  | .hbm, ⟨56, _⟩ => ⟨S_, .i32⟩
  | .hbm, ⟨57, _⟩ => ⟨S6291456, .i32⟩
  | .hbm, ⟨58, _⟩ => ⟨S6291456, .i32⟩
  | .hbm, ⟨59, _⟩ => ⟨S6291456, .i32⟩
  | .hbm, ⟨60, _⟩ => ⟨S6291456x1, .i32⟩
  | .hbm, ⟨61, _⟩ => ⟨S6291456x32, .f32⟩
  | .hbm, ⟨62, _⟩ => ⟨S6291456x32, .f32⟩
  | .hbm, ⟨63, _⟩ => ⟨S6291456x32, .f32⟩
  | .hbm, ⟨64, _⟩ => ⟨S_, .f32⟩
  | .hbm, ⟨65, _⟩ => ⟨S393216x32, .f32⟩
  | .hbm, ⟨66, _⟩ => ⟨S6291456x1, .i32⟩
  | .hbm, ⟨67, _⟩ => ⟨S393216x32, .f32⟩
  | .hbm, ⟨68, _⟩ => ⟨S6x65536x32, .f32⟩
  | .hbm, ⟨69, _⟩ => ⟨S1x65536x32, .f32⟩
  | .hbm, ⟨70, _⟩ => ⟨S65536x32, .f32⟩
  | .hbm, ⟨71, _⟩ => ⟨S1x65536x32, .f32⟩
  | .hbm, ⟨72, _⟩ => ⟨S65536x32, .f32⟩
  | .hbm, ⟨73, _⟩ => ⟨S1x65536x32, .f32⟩
  | .hbm, ⟨74, _⟩ => ⟨S65536x32, .f32⟩
  | .hbm, ⟨75, _⟩ => ⟨S1x65536x32, .f32⟩
  | .hbm, ⟨76, _⟩ => ⟨S65536x32, .f32⟩
  | .hbm, ⟨77, _⟩ => ⟨S1x65536x32, .f32⟩
  | .hbm, ⟨78, _⟩ => ⟨S65536x32, .f32⟩
  | .hbm, ⟨79, _⟩ => ⟨S1x65536x32, .f32⟩
  | .hbm, ⟨80, _⟩ => ⟨S65536x32, .f32⟩
  | .hbm, ⟨81, _⟩ => ⟨S65536x64, .f32⟩
  | .hbm, ⟨82, _⟩ => ⟨S65536x64, .f32⟩
  | .hbm, ⟨83, _⟩ => ⟨S65536x64, .f32⟩
  | .hbm, ⟨84, _⟩ => ⟨S32x32, .f32⟩
  | .hbm, ⟨85, _⟩ => ⟨S1315x32, .f32⟩
  | .hbm, ⟨86, _⟩ => ⟨S1x32, .f32⟩
  | .hbm, ⟨87, _⟩ => ⟨S1315x32, .f32⟩
  | .hbm, ⟨88, _⟩ => ⟨S1315x32, .f32⟩
  | .hbm, ⟨89, _⟩ => ⟨S1315x32, .f32⟩
  | .hbm, ⟨90, _⟩ => ⟨S_, .f32⟩
  | .hbm, ⟨91, _⟩ => ⟨S1315, .f32⟩
  | .hbm, ⟨92, _⟩ => ⟨S1315x1, .f32⟩
  | .hbm, ⟨93, _⟩ => ⟨S1315x1, .f32⟩
  | .hbm, ⟨94, _⟩ => ⟨S_, .f32⟩
  | .hbm, ⟨95, _⟩ => ⟨S1315x1, .f32⟩
  | .hbm, ⟨96, _⟩ => ⟨S1315x1, .f32⟩
  | .hbm, ⟨97, _⟩ => ⟨S1315x32, .f32⟩
  | .hbm, ⟨98, _⟩ => ⟨S1315x32, .f32⟩
  | .hbm, ⟨99, _⟩ => ⟨S_, .i32⟩
  | .hbm, ⟨100, _⟩ => ⟨S65536, .i32⟩
  | .hbm, ⟨101, _⟩ => ⟨S65536, .i1⟩
  | .hbm, ⟨102, _⟩ => ⟨S_, .i32⟩
  | .hbm, ⟨103, _⟩ => ⟨S65536, .i32⟩
  | .hbm, ⟨104, _⟩ => ⟨S65536, .i32⟩
  | .hbm, ⟨105, _⟩ => ⟨S65536, .i32⟩
  | .hbm, ⟨106, _⟩ => ⟨S65536x1, .i32⟩
  | .hbm, ⟨107, _⟩ => ⟨S65536x32, .f32⟩
  | .hbm, ⟨108, _⟩ => ⟨S32x32, .f32⟩
  | .hbm, ⟨109, _⟩ => ⟨S32x32, .bf16⟩
  | .hbm, ⟨110, _⟩ => ⟨S32x32, .f32⟩
  | .hbm, ⟨111, _⟩ => ⟨S32x32, .bf16⟩
  | .hbm, ⟨112, _⟩ => ⟨S32x768, .f32⟩
  | .hbm, ⟨113, _⟩ => ⟨S768x32, .f32⟩
  | .hbm, ⟨114, _⟩ => ⟨S768x32, .bf16⟩
  | .hbm, ⟨115, _⟩ => ⟨S32x32, .f32⟩
  | .hbm, ⟨116, _⟩ => ⟨S32x32, .f32⟩
  | .hbm, ⟨117, _⟩ => ⟨S32x32, .bf16⟩
  | .hbm, ⟨118, _⟩ => ⟨S32x32, .f32⟩
  | .hbm, ⟨119, _⟩ => ⟨S32x32, .f32⟩
  | .hbm, ⟨120, _⟩ => ⟨S32x32, .bf16⟩
  | .hbm, ⟨121, _⟩ => ⟨S1x32, .f32⟩
  | .hbm, ⟨122, _⟩ => ⟨S1x32, .f32⟩
  | .hbm, ⟨123, _⟩ => ⟨S1x32, .f32⟩
  | .hbm, ⟨124, _⟩ => ⟨S65536, .f32⟩
  | .hbm, ⟨125, _⟩ => ⟨S65536, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x32, .f32⟩
  | .local _ .vmem, ⟨13, _⟩ => ⟨S1024x32, .f32⟩
  | .local _ .vmem, ⟨14, _⟩ => ⟨S32x32, .bf16⟩
  | .local _ .vmem, ⟨15, _⟩ => ⟨S1x32, .f32⟩
  | .local _ .vmem, ⟨16, _⟩ => ⟨S32x32, .bf16⟩
  | .local _ .vmem, ⟨17, _⟩ => ⟨S1x32, .f32⟩
  | .local _ .vmem, ⟨18, _⟩ => ⟨S768x32, .bf16⟩
  | .local _ .vmem, ⟨19, _⟩ => ⟨S32x32, .bf16⟩
  | .local _ .vmem, ⟨20, _⟩ => ⟨S32x32, .bf16⟩
  | .local _ .vmem, ⟨21, _⟩ => ⟨S1x32, .f32⟩
  | .local _ .vmem, ⟨22, _⟩ => ⟨S1024, .f32⟩
  | .local _ .vmem, ⟨23, _⟩ => ⟨S1024, .f32⟩
  | .local _ .vmem, ⟨24, _⟩ => ⟨S1024, .f32⟩
  | .local _ .vmem, ⟨25, _⟩ => ⟨S1024, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_c_1 : Ref sig .tc := ⟨.hbm, 37, rfl⟩
abbrev main_v4 : Ref sig .tc := ⟨.hbm, 38, rfl⟩
abbrev main_v5 : Ref sig .tc := ⟨.hbm, 39, rfl⟩
abbrev main_c_2 : Ref sig .tc := ⟨.hbm, 40, rfl⟩
abbrev main_v6 : Ref sig .tc := ⟨.hbm, 41, rfl⟩
abbrev main_v7 : Ref sig .tc := ⟨.hbm, 42, rfl⟩
abbrev main_c_3 : Ref sig .tc := ⟨.hbm, 43, rfl⟩
abbrev main_v8 : Ref sig .tc := ⟨.hbm, 44, rfl⟩
abbrev main_v9 : Ref sig .tc := ⟨.hbm, 45, rfl⟩
abbrev main_c_4 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_5 : Ref sig .tc := ⟨.hbm, 53, rfl⟩
abbrev main_v16 : Ref sig .tc := ⟨.hbm, 54, rfl⟩
abbrev main_v17 : Ref sig .tc := ⟨.hbm, 55, rfl⟩
abbrev main_c_6 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_7 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_8 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_9 : Ref sig .tc := ⟨.hbm, 99, rfl⟩
abbrev main_v57 : Ref sig .tc := ⟨.hbm, 100, rfl⟩
abbrev main_v58 : Ref sig .tc := ⟨.hbm, 101, rfl⟩
abbrev main_c_10 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80_0 : Ref sig .tc := ⟨.hbm, 124, rfl⟩
abbrev main_v80_1 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  ![arg0.toNat]

def cc0_transform_16 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S1048576 : S_.BroadcastsInDim S1048576 (![] : Fin 0 → Fin S1048576.rank)
  concatenates_S1048576_S1048576_S1048576_S1048576_S1048576_S1048576_S6291456_d0 : Shape.Concatenates [S1048576, S1048576, S1048576, S1048576, S1048576, S1048576] S6291456 0
  bcast_S6291456_S6291456x1_0 : S6291456.BroadcastsInDim S6291456x1 (![0] : Fin 1 → Fin S6291456x1.rank)
  bcast_S_S6291456 : S_.BroadcastsInDim S6291456 (![] : Fin 0 → Fin S6291456.rank)
  bcast_S6291456x1_S6291456x32_0_1 : S6291456x1.BroadcastsInDim S6291456x32 (![0, 1] : Fin 2 → Fin S6291456x32.rank)
  bcast_S_S393216x32 : S_.BroadcastsInDim S393216x32 (![] : Fin 0 → Fin S393216x32.rank)
  shapeCasts_S393216x32_S6x65536x32 : S393216x32.ShapeCasts S6x65536x32
  slices_S6x65536x32_S1x65536x32_0_0_0 : S6x65536x32.Slices ![0, 0, 0] S1x65536x32
  shapeCasts_S1x65536x32_S65536x32 : S1x65536x32.ShapeCasts S65536x32
  slices_S6x65536x32_S1x65536x32_1_0_0 : S6x65536x32.Slices ![1, 0, 0] S1x65536x32
  slices_S6x65536x32_S1x65536x32_2_0_0 : S6x65536x32.Slices ![2, 0, 0] S1x65536x32
  slices_S6x65536x32_S1x65536x32_3_0_0 : S6x65536x32.Slices ![3, 0, 0] S1x65536x32
  slices_S6x65536x32_S1x65536x32_4_0_0 : S6x65536x32.Slices ![4, 0, 0] S1x65536x32
  slices_S6x65536x32_S1x65536x32_5_0_0 : S6x65536x32.Slices ![5, 0, 0] S1x65536x32
  concatenates_S65536x32_S65536x32_S65536x64_d1 : Shape.Concatenates [S65536x32, S65536x32] S65536x64 1
  transposes_S32x32_S32x32_1_0 : S32x32.Transposes [1, 0] S32x32
  bcast_S32_S1x32_1 : S32.BroadcastsInDim S1x32 (![1] : Fin 1 → Fin S1x32.rank)
  bcast_S1x32_S1315x32_0_1 : S1x32.BroadcastsInDim S1315x32 (![0, 1] : Fin 2 → Fin S1315x32.rank)
  reducesTo_S1315x32_S1315_d1 : S1315x32.ReducesTo [1] S1315
  h_S_ : 0 < S_.numel
  bcast_S1315_S1315x1_0 : S1315.BroadcastsInDim S1315x1 (![0] : Fin 1 → Fin S1315x1.rank)
  bcast_S_S1315x1 : S_.BroadcastsInDim S1315x1 (![] : Fin 0 → Fin S1315x1.rank)
  bcast_S1315x1_S1315x32_0_1 : S1315x1.BroadcastsInDim S1315x32 (![0, 1] : Fin 2 → Fin S1315x32.rank)
  bcast_S_S65536 : S_.BroadcastsInDim S65536 (![] : Fin 0 → Fin S65536.rank)
  bcast_S65536_S65536x1_0 : S65536.BroadcastsInDim S65536x1 (![0] : Fin 1 → Fin S65536x1.rank)
  bitsLt_bf16_f32 : FTy.bits .bf16 < FTy.bits .f32
  slices_S32x832_S32x768_0_0 : S32x832.Slices ![0, 0] S32x768
  transposes_S32x768_S768x32_1_0 : S32x768.Transposes [1, 0] S768x32
  slices_S32x832_S32x32_0_768 : S32x832.Slices ![0, 768] S32x32
  slices_S32x832_S32x32_0_800 : S32x832.Slices ![0, 800] S32x32
  shapeCasts_S32_S1x32 : S32.ShapeCasts S1x32
  inb_S1024x768_S1024x768_0_0 : ∀ a, (![0, 0] : Fin 2 → Nat) a + S1024x768.size a ≤ S1024x768.size a
  h_S1024x768 : 0 < S1024x768.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_0_S1024x32 : S1024x64.Slices ![0, 0] S1024x32
  slices_S1024x64_o0_32_S1024x32 : S1024x64.Slices ![0, 32] S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S768x32_S768x32_0_0 : ∀ a, (![0, 0] : Fin 2 → Nat) a + S768x32.size a ≤ S768x32.size a
  h_S768x32 : 0 < S768x32.numel
  shapeCasts_S768x32_S768x32 : S768x32.ShapeCasts S768x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024_S1024_0 : ∀ a, (![0] : Fin 1 → Nat) a + S1024.size a ≤ S1024.size a
  h_S1024 : 0 < S1024.numel
  gather_S1315x32_S6291456x1_S6291456x32_1_0_n_n_0_1_132_wf : GatherDims.WF S1315x32 S6291456x1 S6291456x32 [1] [0] [] [0] [] 1 ![1, 32]
  scatter_S393216x32_S6291456x1_S6291456x32_1_0_0_1_wf : ScatterDims.WF S393216x32 S6291456x1 S6291456x32 [1] [0] [0] 1
  dot_S1315x32_S32x32_S1315x32_1_0_0_1_n_n_wf : DotDims.WF S1315x32 S32x32 S1315x32 [1] [0] [0] [1] [] []
  gather_S1315x32_S65536x1_S65536x32_1_0_n_n_0_1_132_wf : GatherDims.WF S1315x32 S65536x1 S65536x32 [1] [0] [] [0] [] 1 ![1, 32]
  dot_S1024x32_S32x32_S1024x32_1_0_0_1_n_n_wf : DotDims.WF S1024x32 S32x32 S1024x32 [1] [0] [0] [1] [] []
  dot_S1024x768_S768x32_S1024x32_1_0_0_1_n_n_wf : DotDims.WF S1024x768 S768x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S65536x768.size a
  hwx0_1 : ∀ i : grid0.Coords, EltTy.bits .f32 = 32 ∨ (Rect.block (s := S65536x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S65536x768.size a
  hwx0_2 : ∀ i : grid0.Coords, EltTy.bits .f32 = 32 ∨ (Rect.block (s := S65536x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S65536x64.size a
  hwx0_3 : ∀ i : grid0.Coords, EltTy.bits .f32 = 32 ∨ (Rect.block (s := S65536x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S65536x64.size a
  hwx0_5 : ∀ i : grid0.Coords, EltTy.bits .f32 = 32 ∨ (Rect.block (s := S65536x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S65536x32.size a
  hwx0_6 : ∀ i : grid0.Coords, EltTy.bits .f32 = 32 ∨ (Rect.block (s := S65536x32) S1024x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .bf16 = 32 ∨ (Rect.block (s := S32x32) S32x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x32.size a ≤ S768x32.size a
  hwx0_11 : ∀ i : grid0.Coords, EltTy.bits .bf16 = 32 ∨ (Rect.block (s := S768x32) S768x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x32.size a ≤ S32x32.size a
  hwx0_12 : ∀ i : grid0.Coords, EltTy.bits .bf16 = 32 ∨ (Rect.block (s := S32x32) S32x32.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x32.size a ≤ S32x32.size a
  hwx0_13 : ∀ i : grid0.Coords, EltTy.bits .bf16 = 32 ∨ (Rect.block (s := S32x32) S32x32.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S65536.size a
  hwx0_15 : ∀ i : grid0.Coords, EltTy.bits .f32 = 32 ∨ (Rect.block (s := S65536) S1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024.size a ≤ S65536.size a
  hwx0_16 : ∀ i : grid0.Coords, EltTy.bits .f32 = 32 ∨ (Rect.block (s := S65536) S1024.size (cc0_transform_16 i) (hinb0_16 i)).WholeWords (EltTy.packing .f32)

variable [Facts₀]

def gather_S1315x32_S6291456x1_S6291456x32_1_0_n_n_0_1_132 : GatherDims S1315x32 S6291456x1 S6291456x32 where
  offsetDims := [1]
  collapsedSliceDims := [0]
  operandBatchingDims := []
  startIndicesBatchingDims := []
  startIndexMap := [0]
  indexVectorDim := 1
  sliceSizes := ![1, 32]
  wf := gather_S1315x32_S6291456x1_S6291456x32_1_0_n_n_0_1_132_wf
def scatter_S393216x32_S6291456x1_S6291456x32_1_0_0_1 : ScatterDims S393216x32 S6291456x1 S6291456x32 where
  updateWindowDims := [1]
  insertedWindowDims := [0]
  scatterDimsToOperandDims := [0]
  indexVectorDim := 1
  wf := scatter_S393216x32_S6291456x1_S6291456x32_1_0_0_1_wf
def dot_S1315x32_S32x32_S1315x32_1_0_0_1_n_n : DotDims S1315x32 S32x32 S1315x32 where
  lhsContracting := [1]
  rhsContracting := [0]
  lhsNonContracting := [0]
  rhsNonContracting := [1]
  lhsBatch := []
  rhsBatch := []
  wf := dot_S1315x32_S32x32_S1315x32_1_0_0_1_n_n_wf
def gather_S1315x32_S65536x1_S65536x32_1_0_n_n_0_1_132 : GatherDims S1315x32 S65536x1 S65536x32 where
  offsetDims := [1]
  collapsedSliceDims := [0]
  operandBatchingDims := []
  startIndicesBatchingDims := []
  startIndexMap := [0]
  indexVectorDim := 1
  sliceSizes := ![1, 32]
  wf := gather_S1315x32_S65536x1_S65536x32_1_0_n_n_0_1_132_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x768_S768x32_S1024x32_1_0_0_1_n_n : DotDims S1024x768 S768x32 S1024x32 where
  lhsContracting := [1]
  rhsContracting := [0]
  lhsNonContracting := [0]
  rhsNonContracting := [1]
  lhsBatch := []
  rhsBatch := []
  wf := dot_S1024x768_S768x32_S1024x32_1_0_0_1_n_n_wf

abbrev win0_0 : Pipeline.Window sig grid0 :=
  Pipeline.Window.ofSpec (Memref.whole main_arg6) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg20) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v65) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v77) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v67) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v78) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v70) S768x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v73) S32x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v76) S32x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v79) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v80_0) S1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v80_1) S1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1048576 : Shape := ⟨1, ![1048576]⟩
abbrev S65536x768 : Shape := ⟨2, ![65536, 768]⟩
abbrev S65536 : Shape := ⟨1, ![65536]⟩
abbrev S1315x32 : Shape := ⟨2, ![1315, 32]⟩
abbrev S32x32 : Shape := ⟨2, ![32, 32]⟩
abbrev S32 : Shape := ⟨1, ![32]⟩
abbrev S32x832 : Shape := ⟨2, ![32, 832]⟩
abbrev S_ : Shape := ⟨0, ![]⟩
abbrev S65536x1 : Shape := ⟨2, ![65536, 1]⟩
abbrev S65536x32 : Shape := ⟨2, ![65536, 32]⟩
abbrev S1x32 : Shape := ⟨2, ![1, 32]⟩
abbrev S1048576x1 : Shape := ⟨2, ![1048576, 1]⟩
abbrev S1048576x32 : Shape := ⟨2, ![1048576, 32]⟩
abbrev S65536x832 : Shape := ⟨2, ![65536, 832]⟩
abbrev S832x32 : Shape := ⟨2, ![832, 32]⟩

abbrev nBuf : Space → Nat
  | .hbm => 241
  | .vmem => 0
  | .smem => 0
  | _ => 0

abbrev hbmTy0_0 (i : Nat) : BufTy := match i % 128 with
  | 0 => ⟨S1048576, .i32⟩
  | 1 => ⟨S1048576, .i32⟩
  | 2 => ⟨S1048576, .f32⟩
  | 3 => ⟨S1048576, .i32⟩
  | 4 => ⟨S1048576, .i32⟩
  | 5 => ⟨S1048576, .f32⟩
  | 6 => ⟨S65536x768, .f32⟩
  | 7 => ⟨S1048576, .i32⟩
  | 8 => ⟨S1048576, .i32⟩
  | 9 => ⟨S1048576, .f32⟩
  | 10 => ⟨S1048576, .i32⟩
  | 11 => ⟨S1048576, .i32⟩
  | 12 => ⟨S1048576, .f32⟩
  | 13 => ⟨S65536x768, .f32⟩
  | 14 => ⟨S1048576, .i32⟩
  | 15 => ⟨S1048576, .i32⟩
  | 16 => ⟨S1048576, .f32⟩
  | 17 => ⟨S1048576, .i32⟩
  | 18 => ⟨S1048576, .i32⟩
  | 19 => ⟨S1048576, .f32⟩
  | 20 => ⟨S65536x768, .f32⟩
  | 21 => ⟨S65536, .i32⟩
  | 22 => ⟨S1315x32, .f32⟩
  | 23 => ⟨S32x32, .f32⟩
  | 24 => ⟨S32, .f32⟩
  | 25 => ⟨S32x32, .f32⟩
  | 26 => ⟨S32, .f32⟩
  | 27 => ⟨S32x832, .f32⟩
  | 28 => ⟨S32, .f32⟩
  | 29 => ⟨S32x32, .f32⟩
  | 30 => ⟨S32, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x32, .f32⟩
  | 40 => ⟨S32x32, .f32⟩
  | 41 => ⟨S65536x32, .f32⟩
  | 42 => ⟨S1x32, .f32⟩
  | 43 => ⟨S65536x32, .f32⟩
  | 44 => ⟨S65536x32, .f32⟩
  | 45 => ⟨S65536x32, .f32⟩
  | 46 => ⟨S_, .f32⟩
  | 47 => ⟨S65536, .f32⟩
  | 48 => ⟨S65536x1, .f32⟩
  | 49 => ⟨S65536x1, .f32⟩
  | 50 => ⟨S_, .f32⟩
  | 51 => ⟨S65536x1, .f32⟩
  | 52 => ⟨S65536x1, .f32⟩
  | 53 => ⟨S65536x32, .f32⟩
  | 54 => ⟨S65536x32, .f32⟩
  | 55 => ⟨S1048576x1, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x32, .f32⟩
  | 65 => ⟨S1048576x32, .f32⟩
  | 66 => ⟨S1048576x32, .f32⟩
  | 67 => ⟨S_, .f32⟩
  | 68 => ⟨S65536x32, .f32⟩
  | 69 => ⟨S1048576x1, .i32⟩
  | 70 => ⟨S65536x32, .f32⟩
  | 71 => ⟨S32x32, .f32⟩
  | 72 => ⟨S65536x32, .f32⟩
  | 73 => ⟨S1x32, .f32⟩
  | 74 => ⟨S65536x32, .f32⟩
  | 75 => ⟨S65536x32, .f32⟩
  | 76 => ⟨S1048576x1, .f32⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S1048576x1, .i32⟩
  | 85 => ⟨S1048576x32, .f32⟩
  | 86 => ⟨S1048576x32, .f32⟩
  | 87 => ⟨S1048576x32, .f32⟩
  | 88 => ⟨S_, .f32⟩
  | 89 => ⟨S65536x32, .f32⟩
  | 90 => ⟨S1048576x1, .i32⟩
  | 91 => ⟨S65536x32, .f32⟩
  | 92 => ⟨S32x32, .f32⟩
  | 93 => ⟨S65536x32, .f32⟩
  | 94 => ⟨S1x32, .f32⟩
  | 95 => ⟨S65536x32, .f32⟩
  | 96 => ⟨S65536x32, .f32⟩
  | 97 => ⟨S65536x832, .f32⟩
  | 98 => ⟨S832x32, .f32⟩
  | 99 => ⟨S65536x32, .f32⟩
  | 100 => ⟨S1x32, .f32⟩
  | 101 => ⟨S65536x32, .f32⟩
  | 102 => ⟨S65536x32, .f32⟩
  | 103 => ⟨S65536x32, .f32⟩
  | 104 => ⟨S_, .f32⟩
  | 105 => ⟨S65536, .f32⟩
  | 106 => ⟨S65536x1, .f32⟩
  | 107 => ⟨S65536x1, .f32⟩
  | 108 => ⟨S_, .f32⟩
  | 109 => ⟨S65536x1, .f32⟩
  | 110 => ⟨S65536x1, .f32⟩
  | 111 => ⟨S65536x32, .f32⟩
  | 112 => ⟨S65536x32, .f32⟩
  | 113 => ⟨S1048576x1, .f32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S1048576x1, .i32⟩
  | 122 => ⟨S1048576x32, .f32⟩
  | 123 => ⟨S1048576x32, .f32⟩
  | 124 => ⟨S1048576x32, .f32⟩
  | 125 => ⟨S_, .f32⟩
  | 126 => ⟨S65536x32, .f32⟩
  | 127 => ⟨S1048576x1, .i32⟩
  | _ => ⟨S1048576, .i32⟩

abbrev hbmTy0_1 (i : Nat) : BufTy := match i % 128 with
  | 0 => ⟨S65536x32, .f32⟩
  | 1 => ⟨S32x32, .f32⟩
  | 2 => ⟨S65536x32, .f32⟩
  | 3 => ⟨S1x32, .f32⟩
  | 4 => ⟨S65536x32, .f32⟩
  | 5 => ⟨S65536x32, .f32⟩
  | 6 => ⟨S1048576x1, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S1048576x32, .f32⟩
  | 16 => ⟨S1048576x32, .f32⟩
  | 17 => ⟨S1048576x32, .f32⟩
  | 18 => ⟨S_, .f32⟩
  | 19 => ⟨S65536x32, .f32⟩
  | 20 => ⟨S1048576x1, .i32⟩
  | 21 => ⟨S65536x32, .f32⟩
  | 22 => ⟨S32x32, .f32⟩
  | 23 => ⟨S65536x32, .f32⟩
  | 24 => ⟨S1x32, .f32⟩
  | 25 => ⟨S65536x32, .f32⟩
  | 26 => ⟨S65536x32, .f32⟩
  | 27 => ⟨S65536x832, .f32⟩
  | 28 => ⟨S832x32, .f32⟩
  | 29 => ⟨S65536x32, .f32⟩
  | 30 => ⟨S1x32, .f32⟩
  | 31 => ⟨S65536x32, .f32⟩
  | 32 => ⟨S65536x32, .f32⟩
  | 33 => ⟨S65536x32, .f32⟩
  | 34 => ⟨S_, .f32⟩
  | 35 => ⟨S65536, .f32⟩
  | 36 => ⟨S65536x1, .f32⟩
  | 37 => ⟨S65536x1, .f32⟩
  | 38 => ⟨S_, .f32⟩
  | 39 => ⟨S65536x1, .f32⟩
  | 40 => ⟨S65536x1, .f32⟩
  | 41 => ⟨S65536x32, .f32⟩
  | 42 => ⟨S65536x32, .f32⟩
  | 43 => ⟨S1048576x1, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x32, .f32⟩
  | 53 => ⟨S1048576x32, .f32⟩
  | 54 => ⟨S1048576x32, .f32⟩
  | 55 => ⟨S_, .f32⟩
  | 56 => ⟨S65536x32, .f32⟩
  | 57 => ⟨S1048576x1, .i32⟩
  | 58 => ⟨S65536x32, .f32⟩
  | 59 => ⟨S32x32, .f32⟩
  | 60 => ⟨S65536x32, .f32⟩
  | 61 => ⟨S1x32, .f32⟩
  | 62 => ⟨S65536x32, .f32⟩
  | 63 => ⟨S65536x32, .f32⟩
  | 64 => ⟨S1048576x1, .f32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x32, .f32⟩
  | 74 => ⟨S1048576x32, .f32⟩
  | 75 => ⟨S1048576x32, .f32⟩
  | 76 => ⟨S_, .f32⟩
  | 77 => ⟨S65536x32, .f32⟩
  | 78 => ⟨S1048576x1, .i32⟩
  | 79 => ⟨S65536x32, .f32⟩
  | 80 => ⟨S32x32, .f32⟩
  | 81 => ⟨S65536x32, .f32⟩
  | 82 => ⟨S1x32, .f32⟩
  | 83 => ⟨S65536x32, .f32⟩
  | 84 => ⟨S65536x32, .f32⟩
  | 85 => ⟨S65536x832, .f32⟩
  | 86 => ⟨S832x32, .f32⟩
  | 87 => ⟨S65536x32, .f32⟩
  | 88 => ⟨S1x32, .f32⟩
  | 89 => ⟨S65536x32, .f32⟩
  | 90 => ⟨S65536x32, .f32⟩
  | 91 => ⟨S65536x32, .f32⟩
  | 92 => ⟨S_, .f32⟩
  | 93 => ⟨S65536, .f32⟩
  | 94 => ⟨S65536x1, .f32⟩
  | 95 => ⟨S65536x1, .f32⟩
  | 96 => ⟨S_, .f32⟩
  | 97 => ⟨S65536x1, .f32⟩
  | 98 => ⟨S65536x1, .f32⟩
  | 99 => ⟨S65536x32, .f32⟩
  | 100 => ⟨S65536x32, .f32⟩
  | 101 => ⟨S65536x32, .f32⟩
  | 102 => ⟨S65536x32, .f32⟩
  | 103 => ⟨S65536x32, .f32⟩
  | 104 => ⟨S_, .f32⟩
  | 105 => ⟨S65536, .f32⟩
  | 106 => ⟨S65536, .f32⟩
  | 107 => ⟨S65536x32, .f32⟩
  | 108 => ⟨S65536x32, .f32⟩
  | 109 => ⟨S65536x32, .f32⟩
  | 110 => ⟨S_, .f32⟩
  | 111 => ⟨S65536, .f32⟩
  | 112 => ⟨S65536, .f32⟩
  | _ => ⟨S1048576, .i32⟩

abbrev hbmTy (i : Nat) : BufTy := match i / 128 with
  | 0 => hbmTy0_0 i
  | 1 => hbmTy0_1 i
  | _ => ⟨S1048576, .i32⟩

abbrev bufTy : (tb : Table) → Fin (tcTables nBuf tb) → BufTy
  | .hbm, ⟨i, _⟩ => hbmTy i
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v12 : Ref sig .tc := ⟨.hbm, 49, rfl⟩
abbrev main_cst : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_1 : Ref sig .tc := ⟨.hbm, 56, rfl⟩
abbrev main_v18 : Ref sig .tc := ⟨.hbm, 57, rfl⟩
abbrev main_v19 : Ref sig .tc := ⟨.hbm, 58, rfl⟩
abbrev main_c_2 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_3 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_4 : Ref sig .tc := ⟨.hbm, 77, rfl⟩
abbrev main_v36 : Ref sig .tc := ⟨.hbm, 78, rfl⟩
abbrev main_v37 : Ref sig .tc := ⟨.hbm, 79, rfl⟩
abbrev main_c_5 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_6 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call1_v0 : Ref sig .tc := ⟨.hbm, 103, rfl⟩
abbrev main_call1_cst : Ref sig .tc := ⟨.hbm, 104, rfl⟩
abbrev main_call1_v1 : Ref sig .tc := ⟨.hbm, 105, rfl⟩
abbrev main_call1_v2 : Ref sig .tc := ⟨.hbm, 106, rfl⟩
abbrev main_v59 : Ref sig .tc := ⟨.hbm, 107, rfl⟩
abbrev main_cst_7 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_8 : Ref sig .tc := ⟨.hbm, 114, rfl⟩
abbrev main_v65 : Ref sig .tc := ⟨.hbm, 115, rfl⟩
abbrev main_v66 : Ref sig .tc := ⟨.hbm, 116, rfl⟩
abbrev main_c_9 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_10 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_11 : Ref sig .tc := ⟨.hbm, 135, rfl⟩
abbrev main_v83 : Ref sig .tc := ⟨.hbm, 136, rfl⟩
abbrev main_v84 : Ref sig .tc := ⟨.hbm, 137, rfl⟩
abbrev main_c_12 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_13 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_call2_v0 : Ref sig .tc := ⟨.hbm, 161, rfl⟩
abbrev main_call2_cst : Ref sig .tc := ⟨.hbm, 162, rfl⟩
abbrev main_call2_v1 : Ref sig .tc := ⟨.hbm, 163, rfl⟩
abbrev main_call2_v2 : Ref sig .tc := ⟨.hbm, 164, rfl⟩
abbrev main_v106 : Ref sig .tc := ⟨.hbm, 165, rfl⟩
abbrev main_cst_14 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_15 : Ref sig .tc := ⟨.hbm, 172, rfl⟩
abbrev main_v112 : Ref sig .tc := ⟨.hbm, 173, rfl⟩
abbrev main_v113 : Ref sig .tc := ⟨.hbm, 174, rfl⟩
abbrev main_c_16 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_17 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_c_18 : Ref sig .tc := ⟨.hbm, 193, rfl⟩
abbrev main_v130 : Ref sig .tc := ⟨.hbm, 194, rfl⟩
abbrev main_v131 : Ref sig .tc := ⟨.hbm, 195, rfl⟩
abbrev main_c_19 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_20 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_call3_v0 : Ref sig .tc := ⟨.hbm, 219, rfl⟩
abbrev main_call3_cst : Ref sig .tc := ⟨.hbm, 220, rfl⟩
abbrev main_call3_v1 : Ref sig .tc := ⟨.hbm, 221, rfl⟩
abbrev main_call3_v2 : Ref sig .tc := ⟨.hbm, 222, rfl⟩
abbrev main_v153 : Ref sig .tc := ⟨.hbm, 223, rfl⟩
abbrev main_cst_21 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_call4_v0 : Ref sig .tc := ⟨.hbm, 231, rfl⟩
abbrev main_call4_cst : Ref sig .tc := ⟨.hbm, 232, rfl⟩
abbrev main_call4_v1 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_call5_v0 : Ref sig .tc := ⟨.hbm, 237, rfl⟩
abbrev main_call5_cst : Ref sig .tc := ⟨.hbm, 238, rfl⟩
abbrev main_call5_v1 : Ref sig .tc := ⟨.hbm, 239, rfl⟩
abbrev main_v163 : Ref sig .tc := ⟨.hbm, 240, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  transposes_S32x32_S32x32_1_0 : S32x32.Transposes [1, 0] S32x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  reducesTo_S65536x32_S65536_d1 : S65536x32.ReducesTo [1] S65536
  h_S_ : 0 < S_.numel
  bcast_S_S65536x1 : S_.BroadcastsInDim S65536x1 (![] : Fin 0 → Fin S65536x1.rank)
  bcast_S65536x1_S65536x32_0_1 : S65536x1.BroadcastsInDim S65536x32 (![0, 1] : Fin 2 → Fin S65536x32.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x32_0_1 : S1048576x1.BroadcastsInDim S1048576x32 (![0, 1] : Fin 2 → Fin S1048576x32.rank)
  bcast_S_S65536x32 : S_.BroadcastsInDim S65536x32 (![] : Fin 0 → Fin S65536x32.rank)
  concatenates_S65536x768_S65536x32_S65536x32_S65536x832_d1 : Shape.Concatenates [S65536x768, S65536x32, S65536x32] S65536x832 1
  transposes_S32x832_S832x32_1_0 : S32x832.Transposes [1, 0] S832x32
  gather_S1315x32_S65536x1_S65536x32_1_0_n_n_0_1_132_wf : GatherDims.WF S1315x32 S65536x1 S65536x32 [1] [0] [] [0] [] 1 ![1, 32]
  dot_S65536x32_S32x32_S65536x32_1_0_0_1_n_n_wf : DotDims.WF S65536x32 S32x32 S65536x32 [1] [0] [0] [1] [] []
  gather_S1315x32_S1048576x1_S1048576x32_1_0_n_n_0_1_132_wf : GatherDims.WF S1315x32 S1048576x1 S1048576x32 [1] [0] [] [0] [] 1 ![1, 32]
  scatter_S65536x32_S1048576x1_S1048576x32_1_0_0_1_wf : ScatterDims.WF S65536x32 S1048576x1 S1048576x32 [1] [0] [0] 1
  dot_S65536x832_S832x32_S65536x32_1_0_0_1_n_n_wf : DotDims.WF S65536x832 S832x32 S65536x32 [1] [0] [0] [1] [] []

variable [Facts₀]

def gather_S1315x32_S65536x1_S65536x32_1_0_n_n_0_1_132 : GatherDims S1315x32 S65536x1 S65536x32 where
  offsetDims := [1]
  collapsedSliceDims := [0]
  operandBatchingDims := []
  startIndicesBatchingDims := []
  startIndexMap := [0]
  indexVectorDim := 1
  sliceSizes := ![1, 32]
  wf := gather_S1315x32_S65536x1_S65536x32_1_0_n_n_0_1_132_wf
def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf
def gather_S1315x32_S1048576x1_S1048576x32_1_0_n_n_0_1_132 : GatherDims S1315x32 S1048576x1 S1048576x32 where
  offsetDims := [1]
  collapsedSliceDims := [0]
  operandBatchingDims := []
  startIndicesBatchingDims := []
  startIndexMap := [0]
  indexVectorDim := 1
  sliceSizes := ![1, 32]
  wf := gather_S1315x32_S1048576x1_S1048576x32_1_0_n_n_0_1_132_wf
def scatter_S65536x32_S1048576x1_S1048576x32_1_0_0_1 : ScatterDims S65536x32 S1048576x1 S1048576x32 where
  updateWindowDims := [1]
  insertedWindowDims := [0]
  scatterDimsToOperandDims := [0]
  indexVectorDim := 1
  wf := scatter_S65536x32_S1048576x1_S1048576x32_1_0_0_1_wf
def dot_S65536x832_S832x32_S65536x32_1_0_0_1_n_n : DotDims S65536x832 S832x32 S65536x32 where
  lhsContracting := [1]
  rhsContracting := [0]
  lhsNonContracting := [0]
  rhsNonContracting := [1]
  lhsBatch := []
  rhsBatch := []
  wf := dot_S65536x832_S832x32_S65536x32_1_0_0_1_n_n_wf

class Facts : Prop extends Facts₀ where

variable [Facts]
-- ==== Proof.KDefs.lean ====
/-
  The pipelined region of the program, as data. Before the region the host has computed the seven per-entity arrays
  and the eight small weight arrays the region's windows stage; the region visits 64 grid points, point `t` reading
  rows `1024 t … 1024 t + 1023` of the per-entity arrays and the whole of each weight array, and writing entries
  `1024 t … 1024 t + 1023` of the two score arrays. What a point stores is a fixed function of the blocks it reads:
  the head embedding of the block, the positive tail's, the negative tail's, and the two norms of
  (head + relation) - tail. This module names those functions and the proof data of the region; it proves nothing.
-/
import proofs.«402564_j1056561954978_2_alg».proof.Proof.Gen.Kernel.Launch
import proofs.«402564_j1056561954978_2_alg».proof.Proof.Gen.Kernel.Skeleton
import proofs.«402564_j1056561954978_2_alg».proof.Proof.Gen.Kernel.Points
import Idealize.ShloMosaic.Lib.Pipeline.FrameBody

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch contents after the host operations. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 1024-entry score block. -/
abbrev rAll : Rect S1024 := Rect.unit (s := S1024) ![0] S1024.size inb_S1024_S1024_0

/-- The head embedding of a block: features `x0`, packed aggregates `x3`, the eight weight blocks. -/
def headBlk (x0 : Vec F S1024x768 .f32) (x3 : Vec F S1024x64 .f32) (x7 : Vec F S32x32 .bf16) (x8 : Vec F S1x32 .f32)
    (x9 : Vec F S32x32 .bf16) (x10 : Vec F S1x32 .f32) (x11 : Vec F S768x32 .bf16) (x12 x13 : Vec F S32x32 .bf16)
    (x14 : Vec F S1x32 .f32) : FVec F S1024x32 .f32 :=
  k0_pay3 (k0_pay2 x0 x3 x7 x9 x11 x12 x13 x8 x10) x14

/-- The positive tail's embedding of a block: features `x1`, packed aggregates `x4`. -/
def posTailBlk (x1 : Vec F S1024x768 .f32) (x4 : Vec F S1024x64 .f32) (x7 : Vec F S32x32 .bf16) (x8 : Vec F S1x32 .f32)
    (x9 : Vec F S32x32 .bf16) (x10 : Vec F S1x32 .f32) (x11 : Vec F S768x32 .bf16) (x12 x13 : Vec F S32x32 .bf16)
    (x14 : Vec F S1x32 .f32) : FVec F S1024x32 .f32 :=
  k0_pay11 (k0_pay4 x1) (k0_pay6 x11) (k0_pay7 x12) (k0_pay8 x13) (k0_pay9 x4 x7 x8) (k0_pay10 x4 x9) x10 x14

/-- The positive scores of a block: the norm of (head + relation `x6`) - positive tail. -/
def posBlk (x0 x1 : Vec F S1024x768 .f32) (x3 x4 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024 .f32 :=
  k0_pay21 (headBlk x0 x3 x7 x8 x9 x10 x11 x12 x13 x14) (posTailBlk x1 x4 x7 x8 x9 x10 x11 x12 x13 x14) x6

/-- The squares whose row sums are the negative scores' squares: (head + relation - negative tail) squared, the negative
    tail from features `x2` and packed aggregates `x5`. -/
def negSqBlk (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024x32 .f32 :=
  k0_pay22 (headBlk x0 x3 x7 x8 x9 x10 x11 x12 x13 x14) (k0_pay12 x2) (k0_pay14 x5) (k0_pay15 x5) (k0_pay16 x7) (k0_pay17 x9)
    (k0_pay18 x11) (k0_pay19 x12) x13 x8 x10 x14 x6

/-- The negative scores of a block. -/
def negBlk (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024 .f32 :=
  k0_pay1 (negSqBlk x0 x2 x3 x5 x6 x7 x8 x9 x10 x11 x12 x13 x14)

/-- The positive-score window's staging buffer after the body: its one store, covering it. -/
def out15 (x0 x1 : Vec F S1024x768 .f32) (x3 x4 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : Vec F S1024 .f32 :=
  View.canon [⟨rAll, posBlk x0 x1 x3 x4 x6 x7 x8 x9 x10 x11 x12 x13 x14⟩]

/-- The negative-score window's staging buffer after the body. -/
def out16 (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : Vec F S1024 .f32 :=
  View.canon [⟨rAll, negBlk x0 x2 x3 x5 x6 x7 x8 x9 x10 x11 x12 x13 x14⟩]

/-- The region's proof data on core `c`: the arrays as the region finds them; after the body at point `t` each input's
    buffer at its block and each score buffer at the body's store over the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 3 t) (iblk m c 4 t) (iblk m c 6 t) (iblk m c 7 t) (iblk m c 8 t)
        (iblk m c 9 t) (iblk m c 10 t) (iblk m c 11 t) (iblk m c 12 t) (iblk m c 13 t) (iblk m c 14 t)
    | ⟨16, _⟩ => out16 (iblk m c 0 t) (iblk m c 2 t) (iblk m c 3 t) (iblk m c 5 t) (iblk m c 6 t) (iblk m c 7 t) (iblk m c 8 t)
        (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after15 (c : Dev nD) (t : Fin cfg0.N) : (dats m 0 c).after 15 t
    = out15 (iblk m c 0 t) (iblk m c 1 t) (iblk m c 3 t) (iblk m c 4 t) (iblk m c 6 t) (iblk m c 7 t) (iblk m c 8 t)
        (iblk m c 9 t) (iblk m c 10 t) (iblk m c 11 t) (iblk m c 12 t) (iblk m c 13 t) (iblk m c 14 t) := by dsimp only [dats]
theorem after16 (c : Dev nD) (t : Fin cfg0.N) : (dats m 0 c).after 16 t
    = out16 (iblk m c 0 t) (iblk m c 2 t) (iblk m c 3 t) (iblk m c 5 t) (iblk m c 6 t) (iblk m c 7 t) (iblk m c 8 t)
        (iblk m c 9 t) (iblk m c 10 t) (iblk m c 11 t) (iblk m c 12 t) (iblk m c 13 t) (iblk m c 14 t) := by dsimp only [dats]

end Cert.Kernel.Fr

end
-- ==== Proof.KKept.lean ====
/-
  None of the host operations before the region writes an argument array, so the region finds each argument as it was
  launched.
-/
import proofs.«402564_j1056561954978_2_alg».proof.Proof.KDefs

set_option maxRecDepth 16384

noncomputable section

namespace Cert.Kernel.Fr

open Cert.Kernel Cert.Kernel.Gen
open Idealize.ShloMosaic Idealize.ShloMosaic.TcCoe
open Idealize.SL.Sem

variable {F : FTy → Type} [FloatOps F]
variable (m : (ℓ : Loc nD τ sig) → Buf (Elt F) ℓ)

/-- The references the host operations before the region write: each operation writes one, its result, listed here in
    the operations' order. None of them is an argument. -/
def written : List (Ref sig .tc) :=
  [
    main_c, main_v0, main_v1, main_c_0, main_v2, main_v3, main_c_1, main_v4, main_v5, main_c_2,
    main_v6, main_v7, main_c_3, main_v8, main_v9, main_c_4, main_v10, main_v11, main_v12, main_v13,
    main_v14, main_v15, main_c_5, main_v16, main_v17, main_c_6, main_v18, main_v19, main_v20, main_v21,
    main_v22, main_v23, main_v24, main_cst, main_v25, main_v26, main_v27, main_v28, main_v29, main_v30,
    main_v31, main_v32, main_v33, main_v34, main_v35, main_v36, main_v37, main_v38, main_v39, main_v40,
    main_v41, main_v42, main_v43, main_v44, main_v45, main_v46, main_v47, main_v48, main_v49, main_cst_7,
    main_v50, main_v51, main_v52, main_cst_8, main_v53, main_v54, main_v55, main_v56, main_c_9, main_v57,
    main_v58, main_c_10, main_v59, main_v60, main_v61, main_v62, main_v63, main_v64, main_v65, main_v66,
    main_v67, main_v68, main_v69, main_v70, main_v71, main_v72, main_v73, main_v74, main_v75, main_v76,
    main_v77, main_v78, main_v79
  ]

/-- An operation whose one written buffer is a reference of the list writes inside the list. -/
theorem writes_sub_written {op : HloOp τ sig (Elt F)} (y : Ref sig .tc) (h : op.writes = {Proc.devRef .tc y})
    (hy : y ∈ written) : op.writes ⊆ (written.map (Proc.devRef (τ := τ) .tc)).toFinset := by
  rw [h]
  exact Finset.singleton_subset_iff.mpr (List.mem_toFinset.mpr (List.mem_map.mpr ⟨y, hy, rfl⟩))

set_option maxHeartbeats 4000000 in
/-- Every host operation before the region writes inside the list: its one result. -/
theorem hostOps0_writes : (hostOps0 : List (HloOp τ sig (Elt F))).Forall fun op =>
    op.writes ⊆ (written.map (Proc.devRef (τ := τ) .tc)).toFinset :=
  ⟨
    writes_sub_written main_c rfl (by decide), writes_sub_written main_v0 rfl (by decide), writes_sub_written main_v1 rfl (by decide),
    writes_sub_written main_c_0 rfl (by decide), writes_sub_written main_v2 rfl (by decide), writes_sub_written main_v3 rfl (by decide),
    writes_sub_written main_c_1 rfl (by decide), writes_sub_written main_v4 rfl (by decide), writes_sub_written main_v5 rfl (by decide),
    writes_sub_written main_c_2 rfl (by decide), writes_sub_written main_v6 rfl (by decide), writes_sub_written main_v7 rfl (by decide),
    writes_sub_written main_c_3 rfl (by decide), writes_sub_written main_v8 rfl (by decide), writes_sub_written main_v9 rfl (by decide),
    writes_sub_written main_c_4 rfl (by decide), writes_sub_written main_v10 rfl (by decide), writes_sub_written main_v11 rfl (by decide),
    writes_sub_written main_v12 rfl (by decide), writes_sub_written main_v13 rfl (by decide), writes_sub_written main_v14 rfl (by decide),
    writes_sub_written main_v15 rfl (by decide), writes_sub_written main_c_5 rfl (by decide), writes_sub_written main_v16 rfl (by decide),
    writes_sub_written main_v17 rfl (by decide), writes_sub_written main_c_6 rfl (by decide), writes_sub_written main_v18 rfl (by decide),
    writes_sub_written main_v19 rfl (by decide), writes_sub_written main_v20 rfl (by decide), writes_sub_written main_v21 rfl (by decide),
    writes_sub_written main_v22 rfl (by decide), writes_sub_written main_v23 rfl (by decide), writes_sub_written main_v24 rfl (by decide),
    writes_sub_written main_cst rfl (by decide), writes_sub_written main_v25 rfl (by decide), writes_sub_written main_v26 rfl (by decide),
    writes_sub_written main_v27 rfl (by decide), writes_sub_written main_v28 rfl (by decide), writes_sub_written main_v29 rfl (by decide),
    writes_sub_written main_v30 rfl (by decide), writes_sub_written main_v31 rfl (by decide), writes_sub_written main_v32 rfl (by decide),
    writes_sub_written main_v33 rfl (by decide), writes_sub_written main_v34 rfl (by decide), writes_sub_written main_v35 rfl (by decide),
    writes_sub_written main_v36 rfl (by decide), writes_sub_written main_v37 rfl (by decide), writes_sub_written main_v38 rfl (by decide),
    writes_sub_written main_v39 rfl (by decide), writes_sub_written main_v40 rfl (by decide), writes_sub_written main_v41 rfl (by decide),
    writes_sub_written main_v42 rfl (by decide), writes_sub_written main_v43 rfl (by decide), writes_sub_written main_v44 rfl (by decide),
    writes_sub_written main_v45 rfl (by decide), writes_sub_written main_v46 rfl (by decide), writes_sub_written main_v47 rfl (by decide),
    writes_sub_written main_v48 rfl (by decide), writes_sub_written main_v49 rfl (by decide), writes_sub_written main_cst_7 rfl (by decide),
    writes_sub_written main_v50 rfl (by decide), writes_sub_written main_v51 rfl (by decide), writes_sub_written main_v52 rfl (by decide),
    writes_sub_written main_cst_8 rfl (by decide), writes_sub_written main_v53 rfl (by decide), writes_sub_written main_v54 rfl (by decide),
    writes_sub_written main_v55 rfl (by decide), writes_sub_written main_v56 rfl (by decide), writes_sub_written main_c_9 rfl (by decide),
    writes_sub_written main_v57 rfl (by decide), writes_sub_written main_v58 rfl (by decide), writes_sub_written main_c_10 rfl (by decide),
    writes_sub_written main_v59 rfl (by decide), writes_sub_written main_v60 rfl (by decide), writes_sub_written main_v61 rfl (by decide),
    writes_sub_written main_v62 rfl (by decide), writes_sub_written main_v63 rfl (by decide), writes_sub_written main_v64 rfl (by decide),
    writes_sub_written main_v65 rfl (by decide), writes_sub_written main_v66 rfl (by decide), writes_sub_written main_v67 rfl (by decide),
    writes_sub_written main_v68 rfl (by decide), writes_sub_written main_v69 rfl (by decide), writes_sub_written main_v70 rfl (by decide),
    writes_sub_written main_v71 rfl (by decide), writes_sub_written main_v72 rfl (by decide), writes_sub_written main_v73 rfl (by decide),
    writes_sub_written main_v74 rfl (by decide), writes_sub_written main_v75 rfl (by decide), writes_sub_written main_v76 rfl (by decide),
    writes_sub_written main_v77 rfl (by decide), writes_sub_written main_v78 rfl (by decide), writes_sub_written main_v79 rfl (by decide)
  ⟩

/-- A reference outside the list is found by the region as it was launched: no operation writes it. -/
theorem V_of_not_written (c : Dev nD) (r : Ref sig .tc) (hr : r ∉ written) :
    V m c r = m ((c : Thread nD τ).loc r) :=
  StableHlo.after_of_writes_sub hostOps0 _ hostOps0_writes hr

/-- The region finds every argument array as launched. -/
theorem V_main_arg (c : Dev nD) :
    V m c main_arg0 = m ((c : Thread nD τ).loc main_arg0) ∧
    V m c main_arg1 = m ((c : Thread nD τ).loc main_arg1) ∧
    V m c main_arg2 = m ((c : Thread nD τ).loc main_arg2) ∧
    V m c main_arg3 = m ((c : Thread nD τ).loc main_arg3) ∧
    V m c main_arg4 = m ((c : Thread nD τ).loc main_arg4) ∧
    V m c main_arg5 = m ((c : Thread nD τ).loc main_arg5) ∧
    V m c main_arg6 = m ((c : Thread nD τ).loc main_arg6) ∧
    V m c main_arg7 = m ((c : Thread nD τ).loc main_arg7) ∧
    V m c main_arg8 = m ((c : Thread nD τ).loc main_arg8) ∧
    V m c main_arg9 = m ((c : Thread nD τ).loc main_arg9) ∧
    V m c main_arg10 = m ((c : Thread nD τ).loc main_arg10) ∧
    V m c main_arg11 = m ((c : Thread nD τ).loc main_arg11) ∧
    V m c main_arg12 = m ((c : Thread nD τ).loc main_arg12) ∧
    V m c main_arg13 = m ((c : Thread nD τ).loc main_arg13) ∧
    V m c main_arg14 = m ((c : Thread nD τ).loc main_arg14) ∧
    V m c main_arg15 = m ((c : Thread nD τ).loc main_arg15) ∧
    V m c main_arg16 = m ((c : Thread nD τ).loc main_arg16) ∧
    V m c main_arg17 = m ((c : Thread nD τ).loc main_arg17) ∧
    V m c main_arg18 = m ((c : Thread nD τ).loc main_arg18) ∧
    V m c main_arg19 = m ((c : Thread nD τ).loc main_arg19) ∧
    V m c main_arg20 = m ((c : Thread nD τ).loc main_arg20) ∧
    V m c main_arg21 = m ((c : Thread nD τ).loc main_arg21) ∧
    V m c main_arg22 = m ((c : Thread nD τ).loc main_arg22) ∧
    V m c main_arg23 = m ((c : Thread nD τ).loc main_arg23) ∧
    V m c main_arg24 = m ((c : Thread nD τ).loc main_arg24) ∧
    V m c main_arg25 = m ((c : Thread nD τ).loc main_arg25) ∧
    V m c main_arg26 = m ((c : Thread nD τ).loc main_arg26) ∧
    V m c main_arg27 = m ((c : Thread nD τ).loc main_arg27) ∧
    V m c main_arg28 = m ((c : Thread nD τ).loc main_arg28) ∧
    V m c main_arg29 = m ((c : Thread nD τ).loc main_arg29) ∧
    V m c main_arg30 = m ((c : Thread nD τ).loc main_arg30) :=
  ⟨
    V_of_not_written m c main_arg0 (by decide), V_of_not_written m c main_arg1 (by decide),
    V_of_not_written m c main_arg2 (by decide), V_of_not_written m c main_arg3 (by decide),
    V_of_not_written m c main_arg4 (by decide), V_of_not_written m c main_arg5 (by decide),
    V_of_not_written m c main_arg6 (by decide), V_of_not_written m c main_arg7 (by decide),
    V_of_not_written m c main_arg8 (by decide), V_of_not_written m c main_arg9 (by decide),
    V_of_not_written m c main_arg10 (by decide), V_of_not_written m c main_arg11 (by decide),
    V_of_not_written m c main_arg12 (by decide), V_of_not_written m c main_arg13 (by decide),
    V_of_not_written m c main_arg14 (by decide), V_of_not_written m c main_arg15 (by decide),
    V_of_not_written m c main_arg16 (by decide), V_of_not_written m c main_arg17 (by decide),
    V_of_not_written m c main_arg18 (by decide), V_of_not_written m c main_arg19 (by decide),
    V_of_not_written m c main_arg20 (by decide), V_of_not_written m c main_arg21 (by decide),
    V_of_not_written m c main_arg22 (by decide), V_of_not_written m c main_arg23 (by decide),
    V_of_not_written m c main_arg24 (by decide), V_of_not_written m c main_arg25 (by decide),
    V_of_not_written m c main_arg26 (by decide), V_of_not_written m c main_arg27 (by decide),
    V_of_not_written m c main_arg28 (by decide), V_of_not_written m c main_arg29 (by decide),
    V_of_not_written m c main_arg30 (by decide)
  ⟩

end Cert.Kernel.Fr

end
-- ==== Proof.KFrame.lean ====
/-
  The region runs: every weakly fair execution of the program terminates without a fault, the two score arrays end
  holding what the grid points stored, and every other array the host or the launch produced ends as the region found it;
  in particular the thirty-one argument arrays end unchanged. The body of a grid point only loads whole input blocks,
  computes, and stores each whole score block once, so its triple is one symbolic run; the rest is the pipeline library's
  frame theorem over the proof data of the definitions module.
-/
import proofs.«402564_j1056561954978_2_alg».proof.Proof.KKept
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is its host operations, then the region; the region finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body finds in the input windows' buffers

The body leaves every input block in place, so an input's buffer holds its block at every point, whether the block
was fetched there or at an earlier point with the same block index (the weight windows' index never moves). -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)

/-! ## The score blocks' one store covers them -/

/-- The one store of a score block is through the whole block, so it covers it. -/
theorem cover (p : Vec F S1024 .f32) (y : S1024.Idx) :
    ∃ pc ∈ ([⟨rAll, p⟩] : List (View.Piece (Elt F) S1024 .f32)), y ∈ pc.1.set :=
  View.cover_of_tiled [⟨rAll, p⟩] S1024.size (by rfl) y

/-- The zero offsets of a rank-two block, however spelt. -/
theorem hz2 : (![0, 0] : Fin 2 → Nat) = fun _ => 0 := funext fun a => by fin_cases a <;> rfl

/-! ## The body's triple -/

set_option maxHeartbeats 4000000 in
/-- The body on whole staging buffers, the fifteen inputs' at contents `x0 … x14` and the two score buffers' at anything,
    runs to the continuation with the inputs' as they were and the score buffers' at the one store each receives: the
    positive scores, then the negative scores, of the blocks read. Each load reads a whole buffer, so what is loaded is
    the buffer's contents; each store covers its buffer, so what it leaves is its payload whatever was there. -/
theorem sound_kernel (c : Dev nD) (E : Set ℕ) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x32 .f32) (harg7 : arg7.IsWhole) (arg8 : Memref sig .tc .vmem S32x32 .bf16) (harg8 : arg8.IsWhole) (arg9 : Memref sig .tc .vmem S1x32 .f32) (harg9 : arg9.IsWhole) (arg10 : Memref sig .tc .vmem S32x32 .bf16) (harg10 : arg10.IsWhole) (arg11 : Memref sig .tc .vmem S1x32 .f32) (harg11 : arg11.IsWhole) (arg12 : Memref sig .tc .vmem S768x32 .bf16) (harg12 : arg12.IsWhole) (arg13 : Memref sig .tc .vmem S32x32 .bf16) (harg13 : arg13.IsWhole) (arg14 : Memref sig .tc .vmem S32x32 .bf16) (harg14 : arg14.IsWhole) (arg15 : Memref sig .tc .vmem S1x32 .f32) (harg15 : arg15.IsWhole) (arg16 : Memref sig .tc .vmem S1024 .f32) (harg16 : arg16.IsWhole) (arg17 : Memref sig .tc .vmem S1024 .f32) (harg17 : arg17.IsWhole)
    (x0 : Vec F S1024x768 .f32) (x1 : Vec F S1024x768 .f32) (x2 : Vec F S1024x768 .f32) (x3 : Vec F S1024x64 .f32) (x4 : Vec F S1024x64 .f32) (x5 : Vec F S1024x64 .f32) (x6 : Vec F S1024x32 .f32) (x7 : Vec F S32x32 .bf16) (x8 : Vec F S1x32 .f32) (x9 : Vec F S32x32 .bf16) (x10 : Vec F S1x32 .f32) (x11 : Vec F S768x32 .bf16) (x12 : Vec F S32x32 .bf16) (x13 : Vec F S32x32 .bf16) (x14 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (out15 x0 x1 x3 x4 x6 x7 x8 x9 x10 x11 x12 x13 x14)
            ∗ owns (c : Thread nD τ) arg17 fullShare (out16 x0 x2 x3 x5 x6 x7 x8 x9 x10 x11 x12 x13 x14)) -∗ K ⟨⟩))
      ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__entity_kernel_eq_skeleton]; unfold cc0__entity_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [View.read_writes_eq_canon _ _ _ (cover _)]
    sl_unfold_run_names
    simp only [View.readAt_eq_ld, View.ld_unit_zero (S := S1024x768) hz2, View.ld_unit_zero (S := S1024x64) hz2, View.ld_unit_zero (S := S1024x32) hz2, View.ld_unit_zero (S := S32x32) hz2, View.ld_unit_zero (S := S1x32) hz2, View.ld_unit_zero (S := S768x32) hz2]
    rfl
  iexists _; isplitr
  swap; · iexact H16
  ipureintro
  rw [View.read_writes_eq_canon _ _ _ (cover _)]
  sl_unfold_run_names
  simp only [View.readAt_eq_ld, View.ld_unit_zero (S := S1024x768) hz2, View.ld_unit_zero (S := S1024x64) hz2, View.ld_unit_zero (S := S1024x32) hz2, View.ld_unit_zero (S := S32x32) hz2, View.ld_unit_zero (S := S1x32) hz2, View.ld_unit_zero (S := S768x32) hz2]
  rfl

/-! ## The body obligation, at a generic point -/

/-- What the body is called with at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
/-- The body at any point: each input's buffer holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/
set_option backward.isDefEq.respectTransparency.types false in
/-- The run to the pipeline library's frame post: each window's array at what the proof data computes, every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two score arrays named by the proof data and the arguments kept. -/
theorem run_named : θ_run defs (onTc (τ := τ) (main (F := F))) ⟨m, fun _ => 0, ρ⟩ (fun r => ∀ c : Dev nD,
      r.2.mem ((c.tc : Thread nD τ).loc main_v80_0) = (dats m 0 c).arrAt 15 cfg0.N
      ∧ r.2.mem ((c.tc : Thread nD τ).loc main_v80_1) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c =>
    have ⟨a0, a1, a2, a3, a4, a5, a6, a7, a8, a9, a10, a11, a12, a13, a14, a15, a16, a17, a18, a19, a20, a21, a22, a23, a24, a25, a26, a27, a28, a29, a30⟩ := V_main_arg m c
    ⟨(h c).1 15, (h c).1 16,
      ((h c).2 main_arg0 (Pipeline.mem_restRefs_of main_arg0 (by decide) (by decide))).trans a0,
      ((h c).2 main_arg1 (Pipeline.mem_restRefs_of main_arg1 (by decide) (by decide))).trans a1,
      ((h c).2 main_arg2 (Pipeline.mem_restRefs_of main_arg2 (by decide) (by decide))).trans a2,
      ((h c).2 main_arg3 (Pipeline.mem_restRefs_of main_arg3 (by decide) (by decide))).trans a3,
      ((h c).2 main_arg4 (Pipeline.mem_restRefs_of main_arg4 (by decide) (by decide))).trans a4,
      ((h c).2 main_arg5 (Pipeline.mem_restRefs_of main_arg5 (by decide) (by decide))).trans a5,
      ((h c).1 0).trans (((dats m 0 c).arrAt_in 0 rfl _).trans ((A_eq m c 0).trans a6)),
      ((h c).2 main_arg7 (Pipeline.mem_restRefs_of main_arg7 (by decide) (by decide))).trans a7,
      ((h c).2 main_arg8 (Pipeline.mem_restRefs_of main_arg8 (by decide) (by decide))).trans a8,
      ((h c).2 main_arg9 (Pipeline.mem_restRefs_of main_arg9 (by decide) (by decide))).trans a9,
      ((h c).2 main_arg10 (Pipeline.mem_restRefs_of main_arg10 (by decide) (by decide))).trans a10,
      ((h c).2 main_arg11 (Pipeline.mem_restRefs_of main_arg11 (by decide) (by decide))).trans a11,
      ((h c).2 main_arg12 (Pipeline.mem_restRefs_of main_arg12 (by decide) (by decide))).trans a12,
      ((h c).1 1).trans (((dats m 0 c).arrAt_in 1 rfl _).trans ((A_eq m c 1).trans a13)),
      ((h c).2 main_arg14 (Pipeline.mem_restRefs_of main_arg14 (by decide) (by decide))).trans a14,
      ((h c).2 main_arg15 (Pipeline.mem_restRefs_of main_arg15 (by decide) (by decide))).trans a15,
      ((h c).2 main_arg16 (Pipeline.mem_restRefs_of main_arg16 (by decide) (by decide))).trans a16,
      ((h c).2 main_arg17 (Pipeline.mem_restRefs_of main_arg17 (by decide) (by decide))).trans a17,
      ((h c).2 main_arg18 (Pipeline.mem_restRefs_of main_arg18 (by decide) (by decide))).trans a18,
      ((h c).2 main_arg19 (Pipeline.mem_restRefs_of main_arg19 (by decide) (by decide))).trans a19,
      ((h c).1 2).trans (((dats m 0 c).arrAt_in 2 rfl _).trans ((A_eq m c 2).trans a20)),
      ((h c).2 main_arg21 (Pipeline.mem_restRefs_of main_arg21 (by decide) (by decide))).trans a21,
      ((h c).2 main_arg22 (Pipeline.mem_restRefs_of main_arg22 (by decide) (by decide))).trans a22,
      ((h c).2 main_arg23 (Pipeline.mem_restRefs_of main_arg23 (by decide) (by decide))).trans a23,
      ((h c).2 main_arg24 (Pipeline.mem_restRefs_of main_arg24 (by decide) (by decide))).trans a24,
      ((h c).2 main_arg25 (Pipeline.mem_restRefs_of main_arg25 (by decide) (by decide))).trans a25,
      ((h c).2 main_arg26 (Pipeline.mem_restRefs_of main_arg26 (by decide) (by decide))).trans a26,
      ((h c).2 main_arg27 (Pipeline.mem_restRefs_of main_arg27 (by decide) (by decide))).trans a27,
      ((h c).2 main_arg28 (Pipeline.mem_restRefs_of main_arg28 (by decide) (by decide))).trans a28,
      ((h c).2 main_arg29 (Pipeline.mem_restRefs_of main_arg29 (by decide) (by decide))).trans a29,
      ((h c).2 main_arg30 (Pipeline.mem_restRefs_of main_arg30 (by decide) (by decide))).trans a30⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => (h c).2.2) (run_named m ρ)

end Cert.Kernel.Fr

end
-- ==== Proof.KIDefs.lean ====
/-
  The pipelined region of the program, as data. Before the region the host has computed the seven per-entity arrays
  and the eight small weight arrays the region's windows stage; the region visits 64 grid points, point `t` reading
  rows `1024 t … 1024 t + 1023` of the per-entity arrays and the whole of each weight array, and writing entries
  `1024 t … 1024 t + 1023` of the two score arrays. What a point stores is a fixed function of the blocks it reads:
  the head embedding of the block, the positive tail's, the negative tail's, and the two norms of
  (head + relation) - tail. This module names those functions and the proof data of the region; it proves nothing.
-/
import proofs.«402564_j1056561954978_2_alg».proof.Proof.Gen.KernelIdeal.Launch
import proofs.«402564_j1056561954978_2_alg».proof.Proof.Gen.KernelIdeal.Skeleton
import proofs.«402564_j1056561954978_2_alg».proof.Proof.Gen.KernelIdeal.Points
import Idealize.ShloMosaic.Lib.Pipeline.FrameBody

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch contents after the host operations. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of a 1024-entry score block. -/
abbrev rAll : Rect S1024 := Rect.unit (s := S1024) ![0] S1024.size inb_S1024_S1024_0

/-- The head embedding of a block: features `x0`, packed aggregates `x3`, the eight weight blocks. -/
def headBlk (x0 : Vec F S1024x768 .f32) (x3 : Vec F S1024x64 .f32) (x7 : Vec F S32x32 .bf16) (x8 : Vec F S1x32 .f32)
    (x9 : Vec F S32x32 .bf16) (x10 : Vec F S1x32 .f32) (x11 : Vec F S768x32 .bf16) (x12 x13 : Vec F S32x32 .bf16)
    (x14 : Vec F S1x32 .f32) : FVec F S1024x32 .f32 :=
  k0_pay3 (k0_pay2 x0 x3 x7 x9 x11 x12 x13 x8 x10) x14

/-- The positive tail's embedding of a block: features `x1`, packed aggregates `x4`. -/
def posTailBlk (x1 : Vec F S1024x768 .f32) (x4 : Vec F S1024x64 .f32) (x7 : Vec F S32x32 .bf16) (x8 : Vec F S1x32 .f32)
    (x9 : Vec F S32x32 .bf16) (x10 : Vec F S1x32 .f32) (x11 : Vec F S768x32 .bf16) (x12 x13 : Vec F S32x32 .bf16)
    (x14 : Vec F S1x32 .f32) : FVec F S1024x32 .f32 :=
  k0_pay11 (k0_pay4 x1) (k0_pay6 x11) (k0_pay7 x12) (k0_pay8 x13) (k0_pay9 x4 x7 x8) (k0_pay10 x4 x9) x10 x14

/-- The positive scores of a block: the norm of (head + relation `x6`) - positive tail. -/
def posBlk (x0 x1 : Vec F S1024x768 .f32) (x3 x4 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024 .f32 :=
  k0_pay21 (headBlk x0 x3 x7 x8 x9 x10 x11 x12 x13 x14) (posTailBlk x1 x4 x7 x8 x9 x10 x11 x12 x13 x14) x6

/-- The squares whose row sums are the negative scores' squares: (head + relation - negative tail) squared, the negative
    tail from features `x2` and packed aggregates `x5`. -/
def negSqBlk (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024x32 .f32 :=
  k0_pay22 (headBlk x0 x3 x7 x8 x9 x10 x11 x12 x13 x14) (k0_pay12 x2) (k0_pay14 x5) (k0_pay15 x5) (k0_pay16 x7) (k0_pay17 x9)
    (k0_pay18 x11) (k0_pay19 x12) x13 x8 x10 x14 x6

/-- The negative scores of a block. -/
def negBlk (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : FVec F S1024 .f32 :=
  k0_pay1 (negSqBlk x0 x2 x3 x5 x6 x7 x8 x9 x10 x11 x12 x13 x14)

/-- The positive-score window's staging buffer after the body: its one store, covering it. -/
def out15 (x0 x1 : Vec F S1024x768 .f32) (x3 x4 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : Vec F S1024 .f32 :=
  View.canon [⟨rAll, posBlk x0 x1 x3 x4 x6 x7 x8 x9 x10 x11 x12 x13 x14⟩]

/-- The negative-score window's staging buffer after the body. -/
def out16 (x0 x2 : Vec F S1024x768 .f32) (x3 x5 : Vec F S1024x64 .f32) (x6 : Vec F S1024x32 .f32)
    (x7 : Vec F S32x32 .bf16) (x8 : Vec F S1x32 .f32) (x9 : Vec F S32x32 .bf16) (x10 : Vec F S1x32 .f32)
    (x11 : Vec F S768x32 .bf16) (x12 x13 : Vec F S32x32 .bf16) (x14 : Vec F S1x32 .f32) : Vec F S1024 .f32 :=
  View.canon [⟨rAll, negBlk x0 x2 x3 x5 x6 x7 x8 x9 x10 x11 x12 x13 x14⟩]

/-- The region's proof data on core `c`: the arrays as the region finds them; after the body at point `t` each input's
    buffer at its block and each score buffer at the body's store over the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 3 t) (iblk m c 4 t) (iblk m c 6 t) (iblk m c 7 t) (iblk m c 8 t)
        (iblk m c 9 t) (iblk m c 10 t) (iblk m c 11 t) (iblk m c 12 t) (iblk m c 13 t) (iblk m c 14 t)
    | ⟨16, _⟩ => out16 (iblk m c 0 t) (iblk m c 2 t) (iblk m c 3 t) (iblk m c 5 t) (iblk m c 6 t) (iblk m c 7 t) (iblk m c 8 t)
        (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after15 (c : Dev nD) (t : Fin cfg0.N) : (dats m 0 c).after 15 t
    = out15 (iblk m c 0 t) (iblk m c 1 t) (iblk m c 3 t) (iblk m c 4 t) (iblk m c 6 t) (iblk m c 7 t) (iblk m c 8 t)
        (iblk m c 9 t) (iblk m c 10 t) (iblk m c 11 t) (iblk m c 12 t) (iblk m c 13 t) (iblk m c 14 t) := by dsimp only [dats]
theorem after16 (c : Dev nD) (t : Fin cfg0.N) : (dats m 0 c).after 16 t
    = out16 (iblk m c 0 t) (iblk m c 2 t) (iblk m c 3 t) (iblk m c 5 t) (iblk m c 6 t) (iblk m c 7 t) (iblk m c 8 t)
        (iblk m c 9 t) (iblk m c 10 t) (iblk m c 11 t) (iblk m c 12 t) (iblk m c 13 t) (iblk m c 14 t) := by dsimp only [dats]

end Cert.KernelIdeal.Fr

end
-- ==== Proof.KIKept.lean ====
/-
  None of the host operations before the region writes an argument array, so the region finds each argument as it was
  launched.
-/
import proofs.«402564_j1056561954978_2_alg».proof.Proof.KIDefs

set_option maxRecDepth 16384

noncomputable section

namespace Cert.KernelIdeal.Fr

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The references the host operations before the region write: each operation writes one, its result, listed here in
    the operations' order. None of them is an argument. -/
def written : List (Ref sig .tc) :=
  [
    main_c, main_v0, main_v1, main_c_0, main_v2, main_v3, main_c_1, main_v4, main_v5, main_c_2,
    main_v6, main_v7, main_c_3, main_v8, main_v9, main_c_4, main_v10, main_v11, main_v12, main_v13,
    main_v14, main_v15, main_c_5, main_v16, main_v17, main_c_6, main_v18, main_v19, main_v20, main_v21,
    main_v22, main_v23, main_v24, main_cst, main_v25, main_v26, main_v27, main_v28, main_v29, main_v30,
    main_v31, main_v32, main_v33, main_v34, main_v35, main_v36, main_v37, main_v38, main_v39, main_v40,
    main_v41, main_v42, main_v43, main_v44, main_v45, main_v46, main_v47, main_v48, main_v49, main_cst_7,
    main_v50, main_v51, main_v52, main_cst_8, main_v53, main_v54, main_v55, main_v56, main_c_9, main_v57,
    main_v58, main_c_10, main_v59, main_v60, main_v61, main_v62, main_v63, main_v64, main_v65, main_v66,
    main_v67, main_v68, main_v69, main_v70, main_v71, main_v72, main_v73, main_v74, main_v75, main_v76,
    main_v77, main_v78, main_v79
  ]

/-- An operation whose one written buffer is a reference of the list writes inside the list. -/
theorem writes_sub_written {op : HloOp τ sig (Elt F)} (y : Ref sig .tc) (h : op.writes = {Proc.devRef .tc y})
    (hy : y ∈ written) : op.writes ⊆ (written.map (Proc.devRef (τ := τ) .tc)).toFinset := by
  rw [h]
  exact Finset.singleton_subset_iff.mpr (List.mem_toFinset.mpr (List.mem_map.mpr ⟨y, hy, rfl⟩))

set_option maxHeartbeats 4000000 in
/-- Every host operation before the region writes inside the list: its one result. -/
theorem hostOps0_writes : (hostOps0 : List (HloOp τ sig (Elt F))).Forall fun op =>
    op.writes ⊆ (written.map (Proc.devRef (τ := τ) .tc)).toFinset :=
  ⟨
    writes_sub_written main_c rfl (by decide), writes_sub_written main_v0 rfl (by decide), writes_sub_written main_v1 rfl (by decide),
    writes_sub_written main_c_0 rfl (by decide), writes_sub_written main_v2 rfl (by decide), writes_sub_written main_v3 rfl (by decide),
    writes_sub_written main_c_1 rfl (by decide), writes_sub_written main_v4 rfl (by decide), writes_sub_written main_v5 rfl (by decide),
    writes_sub_written main_c_2 rfl (by decide), writes_sub_written main_v6 rfl (by decide), writes_sub_written main_v7 rfl (by decide),
    writes_sub_written main_c_3 rfl (by decide), writes_sub_written main_v8 rfl (by decide), writes_sub_written main_v9 rfl (by decide),
    writes_sub_written main_c_4 rfl (by decide), writes_sub_written main_v10 rfl (by decide), writes_sub_written main_v11 rfl (by decide),
    writes_sub_written main_v12 rfl (by decide), writes_sub_written main_v13 rfl (by decide), writes_sub_written main_v14 rfl (by decide),
    writes_sub_written main_v15 rfl (by decide), writes_sub_written main_c_5 rfl (by decide), writes_sub_written main_v16 rfl (by decide),
    writes_sub_written main_v17 rfl (by decide), writes_sub_written main_c_6 rfl (by decide), writes_sub_written main_v18 rfl (by decide),
    writes_sub_written main_v19 rfl (by decide), writes_sub_written main_v20 rfl (by decide), writes_sub_written main_v21 rfl (by decide),
    writes_sub_written main_v22 rfl (by decide), writes_sub_written main_v23 rfl (by decide), writes_sub_written main_v24 rfl (by decide),
    writes_sub_written main_cst rfl (by decide), writes_sub_written main_v25 rfl (by decide), writes_sub_written main_v26 rfl (by decide),
    writes_sub_written main_v27 rfl (by decide), writes_sub_written main_v28 rfl (by decide), writes_sub_written main_v29 rfl (by decide),
    writes_sub_written main_v30 rfl (by decide), writes_sub_written main_v31 rfl (by decide), writes_sub_written main_v32 rfl (by decide),
    writes_sub_written main_v33 rfl (by decide), writes_sub_written main_v34 rfl (by decide), writes_sub_written main_v35 rfl (by decide),
    writes_sub_written main_v36 rfl (by decide), writes_sub_written main_v37 rfl (by decide), writes_sub_written main_v38 rfl (by decide),
    writes_sub_written main_v39 rfl (by decide), writes_sub_written main_v40 rfl (by decide), writes_sub_written main_v41 rfl (by decide),
    writes_sub_written main_v42 rfl (by decide), writes_sub_written main_v43 rfl (by decide), writes_sub_written main_v44 rfl (by decide),
    writes_sub_written main_v45 rfl (by decide), writes_sub_written main_v46 rfl (by decide), writes_sub_written main_v47 rfl (by decide),
    writes_sub_written main_v48 rfl (by decide), writes_sub_written main_v49 rfl (by decide), writes_sub_written main_cst_7 rfl (by decide),
    writes_sub_written main_v50 rfl (by decide), writes_sub_written main_v51 rfl (by decide), writes_sub_written main_v52 rfl (by decide),
    writes_sub_written main_cst_8 rfl (by decide), writes_sub_written main_v53 rfl (by decide), writes_sub_written main_v54 rfl (by decide),
    writes_sub_written main_v55 rfl (by decide), writes_sub_written main_v56 rfl (by decide), writes_sub_written main_c_9 rfl (by decide),
    writes_sub_written main_v57 rfl (by decide), writes_sub_written main_v58 rfl (by decide), writes_sub_written main_c_10 rfl (by decide),
    writes_sub_written main_v59 rfl (by decide), writes_sub_written main_v60 rfl (by decide), writes_sub_written main_v61 rfl (by decide),
    writes_sub_written main_v62 rfl (by decide), writes_sub_written main_v63 rfl (by decide), writes_sub_written main_v64 rfl (by decide),
    writes_sub_written main_v65 rfl (by decide), writes_sub_written main_v66 rfl (by decide), writes_sub_written main_v67 rfl (by decide),
    writes_sub_written main_v68 rfl (by decide), writes_sub_written main_v69 rfl (by decide), writes_sub_written main_v70 rfl (by decide),
    writes_sub_written main_v71 rfl (by decide), writes_sub_written main_v72 rfl (by decide), writes_sub_written main_v73 rfl (by decide),
    writes_sub_written main_v74 rfl (by decide), writes_sub_written main_v75 rfl (by decide), writes_sub_written main_v76 rfl (by decide),
    writes_sub_written main_v77 rfl (by decide), writes_sub_written main_v78 rfl (by decide), writes_sub_written main_v79 rfl (by decide)
  ⟩

/-- A reference outside the list is found by the region as it was launched: no operation writes it. -/
theorem V_of_not_written (c : Dev nD) (r : Ref sig .tc) (hr : r ∉ written) :
    V m c r = m ((c : Thread nD τ).loc r) :=
  StableHlo.after_of_writes_sub hostOps0 _ hostOps0_writes hr

/-- The region finds every argument array as launched. -/
theorem V_main_arg (c : Dev nD) :
    V m c main_arg0 = m ((c : Thread nD τ).loc main_arg0) ∧
    V m c main_arg1 = m ((c : Thread nD τ).loc main_arg1) ∧
    V m c main_arg2 = m ((c : Thread nD τ).loc main_arg2) ∧
    V m c main_arg3 = m ((c : Thread nD τ).loc main_arg3) ∧
    V m c main_arg4 = m ((c : Thread nD τ).loc main_arg4) ∧
    V m c main_arg5 = m ((c : Thread nD τ).loc main_arg5) ∧
    V m c main_arg6 = m ((c : Thread nD τ).loc main_arg6) ∧
    V m c main_arg7 = m ((c : Thread nD τ).loc main_arg7) ∧
    V m c main_arg8 = m ((c : Thread nD τ).loc main_arg8) ∧
    V m c main_arg9 = m ((c : Thread nD τ).loc main_arg9) ∧
    V m c main_arg10 = m ((c : Thread nD τ).loc main_arg10) ∧
    V m c main_arg11 = m ((c : Thread nD τ).loc main_arg11) ∧
    V m c main_arg12 = m ((c : Thread nD τ).loc main_arg12) ∧
    V m c main_arg13 = m ((c : Thread nD τ).loc main_arg13) ∧
    V m c main_arg14 = m ((c : Thread nD τ).loc main_arg14) ∧
    V m c main_arg15 = m ((c : Thread nD τ).loc main_arg15) ∧
    V m c main_arg16 = m ((c : Thread nD τ).loc main_arg16) ∧
    V m c main_arg17 = m ((c : Thread nD τ).loc main_arg17) ∧
    V m c main_arg18 = m ((c : Thread nD τ).loc main_arg18) ∧
    V m c main_arg19 = m ((c : Thread nD τ).loc main_arg19) ∧
    V m c main_arg20 = m ((c : Thread nD τ).loc main_arg20) ∧
    V m c main_arg21 = m ((c : Thread nD τ).loc main_arg21) ∧
    V m c main_arg22 = m ((c : Thread nD τ).loc main_arg22) ∧
    V m c main_arg23 = m ((c : Thread nD τ).loc main_arg23) ∧
    V m c main_arg24 = m ((c : Thread nD τ).loc main_arg24) ∧
    V m c main_arg25 = m ((c : Thread nD τ).loc main_arg25) ∧
    V m c main_arg26 = m ((c : Thread nD τ).loc main_arg26) ∧
    V m c main_arg27 = m ((c : Thread nD τ).loc main_arg27) ∧
    V m c main_arg28 = m ((c : Thread nD τ).loc main_arg28) ∧
    V m c main_arg29 = m ((c : Thread nD τ).loc main_arg29) ∧
    V m c main_arg30 = m ((c : Thread nD τ).loc main_arg30) :=
  ⟨
    V_of_not_written m c main_arg0 (by decide), V_of_not_written m c main_arg1 (by decide),
    V_of_not_written m c main_arg2 (by decide), V_of_not_written m c main_arg3 (by decide),
    V_of_not_written m c main_arg4 (by decide), V_of_not_written m c main_arg5 (by decide),
    V_of_not_written m c main_arg6 (by decide), V_of_not_written m c main_arg7 (by decide),
    V_of_not_written m c main_arg8 (by decide), V_of_not_written m c main_arg9 (by decide),
    V_of_not_written m c main_arg10 (by decide), V_of_not_written m c main_arg11 (by decide),
    V_of_not_written m c main_arg12 (by decide), V_of_not_written m c main_arg13 (by decide),
    V_of_not_written m c main_arg14 (by decide), V_of_not_written m c main_arg15 (by decide),
    V_of_not_written m c main_arg16 (by decide), V_of_not_written m c main_arg17 (by decide),
    V_of_not_written m c main_arg18 (by decide), V_of_not_written m c main_arg19 (by decide),
    V_of_not_written m c main_arg20 (by decide), V_of_not_written m c main_arg21 (by decide),
    V_of_not_written m c main_arg22 (by decide), V_of_not_written m c main_arg23 (by decide),
    V_of_not_written m c main_arg24 (by decide), V_of_not_written m c main_arg25 (by decide),
    V_of_not_written m c main_arg26 (by decide), V_of_not_written m c main_arg27 (by decide),
    V_of_not_written m c main_arg28 (by decide), V_of_not_written m c main_arg29 (by decide),
    V_of_not_written m c main_arg30 (by decide)
  ⟩

end Cert.KernelIdeal.Fr

end
-- ==== Proof.KIFrame.lean ====
/-
  The region runs: every weakly fair execution of the program terminates without a fault, the two score arrays end
  holding what the grid points stored, and every other array the host or the launch produced ends as the region found it;
  in particular the thirty-one argument arrays end unchanged. The body of a grid point only loads whole input blocks,
  computes, and stores each whole score block once, so its triple is one symbolic run; the rest is the pipeline library's
  frame theorem over the proof data of the definitions module.
-/
import proofs.«402564_j1056561954978_2_alg».proof.Proof.KIKept
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is its host operations, then the region; the region finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body finds in the input windows' buffers

The body leaves every input block in place, so an input's buffer holds its block at every point, whether the block
was fetched there or at an earlier point with the same block index (the weight windows' index never moves). -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)

/-! ## The score blocks' one store covers them -/

/-- The one store of a score block is through the whole block, so it covers it. -/
theorem cover (p : Vec F S1024 .f32) (y : S1024.Idx) :
    ∃ pc ∈ ([⟨rAll, p⟩] : List (View.Piece (Elt F) S1024 .f32)), y ∈ pc.1.set :=
  View.cover_of_tiled [⟨rAll, p⟩] S1024.size (by rfl) y

/-- The zero offsets of a rank-two block, however spelt. -/
theorem hz2 : (![0, 0] : Fin 2 → Nat) = fun _ => 0 := funext fun a => by fin_cases a <;> rfl

/-! ## The body's triple -/

set_option maxHeartbeats 4000000 in
/-- The body on whole staging buffers, the fifteen inputs' at contents `x0 … x14` and the two score buffers' at anything,
    runs to the continuation with the inputs' as they were and the score buffers' at the one store each receives: the
    positive scores, then the negative scores, of the blocks read. Each load reads a whole buffer, so what is loaded is
    the buffer's contents; each store covers its buffer, so what it leaves is its payload whatever was there. -/
theorem sound_kernel (c : Dev nD) (E : Set ℕ) (i : grid0.Coords) (arg1 : Memref sig .tc .vmem S1024x768 .f32) (harg1 : arg1.IsWhole) (arg2 : Memref sig .tc .vmem S1024x768 .f32) (harg2 : arg2.IsWhole) (arg3 : Memref sig .tc .vmem S1024x768 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x32 .f32) (harg7 : arg7.IsWhole) (arg8 : Memref sig .tc .vmem S32x32 .bf16) (harg8 : arg8.IsWhole) (arg9 : Memref sig .tc .vmem S1x32 .f32) (harg9 : arg9.IsWhole) (arg10 : Memref sig .tc .vmem S32x32 .bf16) (harg10 : arg10.IsWhole) (arg11 : Memref sig .tc .vmem S1x32 .f32) (harg11 : arg11.IsWhole) (arg12 : Memref sig .tc .vmem S768x32 .bf16) (harg12 : arg12.IsWhole) (arg13 : Memref sig .tc .vmem S32x32 .bf16) (harg13 : arg13.IsWhole) (arg14 : Memref sig .tc .vmem S32x32 .bf16) (harg14 : arg14.IsWhole) (arg15 : Memref sig .tc .vmem S1x32 .f32) (harg15 : arg15.IsWhole) (arg16 : Memref sig .tc .vmem S1024 .f32) (harg16 : arg16.IsWhole) (arg17 : Memref sig .tc .vmem S1024 .f32) (harg17 : arg17.IsWhole)
    (x0 : Vec F S1024x768 .f32) (x1 : Vec F S1024x768 .f32) (x2 : Vec F S1024x768 .f32) (x3 : Vec F S1024x64 .f32) (x4 : Vec F S1024x64 .f32) (x5 : Vec F S1024x64 .f32) (x6 : Vec F S1024x32 .f32) (x7 : Vec F S32x32 .bf16) (x8 : Vec F S1x32 .f32) (x9 : Vec F S32x32 .bf16) (x10 : Vec F S1x32 .f32) (x11 : Vec F S768x32 .bf16) (x12 : Vec F S32x32 .bf16) (x13 : Vec F S32x32 .bf16) (x14 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (out15 x0 x1 x3 x4 x6 x7 x8 x9 x10 x11 x12 x13 x14)
            ∗ owns (c : Thread nD τ) arg17 fullShare (out16 x0 x2 x3 x5 x6 x7 x8 x9 x10 x11 x12 x13 x14)) -∗ K ⟨⟩))
      ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__entity_kernel_eq_skeleton]; unfold cc0__entity_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [View.read_writes_eq_canon _ _ _ (cover _)]
    sl_unfold_run_names
    simp only [View.readAt_eq_ld, View.ld_unit_zero (S := S1024x768) hz2, View.ld_unit_zero (S := S1024x64) hz2, View.ld_unit_zero (S := S1024x32) hz2, View.ld_unit_zero (S := S32x32) hz2, View.ld_unit_zero (S := S1x32) hz2, View.ld_unit_zero (S := S768x32) hz2]
    rfl
  iexists _; isplitr
  swap; · iexact H16
  ipureintro
  rw [View.read_writes_eq_canon _ _ _ (cover _)]
  sl_unfold_run_names
  simp only [View.readAt_eq_ld, View.ld_unit_zero (S := S1024x768) hz2, View.ld_unit_zero (S := S1024x64) hz2, View.ld_unit_zero (S := S1024x32) hz2, View.ld_unit_zero (S := S32x32) hz2, View.ld_unit_zero (S := S1x32) hz2, View.ld_unit_zero (S := S768x32) hz2]
  rfl

/-! ## The body obligation, at a generic point -/

/-- What the body is called with at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in
/-- The body at any point: each input's buffer holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/
set_option backward.isDefEq.respectTransparency.types false in
/-- The run to the pipeline library's frame post: each window's array at what the proof data computes, every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two score arrays named by the proof data and the arguments kept. -/
theorem run_named : θ_run defs (onTc (τ := τ) (main (F := F))) ⟨m, fun _ => 0, ρ⟩ (fun r => ∀ c : Dev nD,
      r.2.mem ((c.tc : Thread nD τ).loc main_v80_0) = (dats m 0 c).arrAt 15 cfg0.N
      ∧ r.2.mem ((c.tc : Thread nD τ).loc main_v80_1) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c =>
    have ⟨a0, a1, a2, a3, a4, a5, a6, a7, a8, a9, a10, a11, a12, a13, a14, a15, a16, a17, a18, a19, a20, a21, a22, a23, a24, a25, a26, a27, a28, a29, a30⟩ := V_main_arg m c
    ⟨(h c).1 15, (h c).1 16,
      ((h c).2 main_arg0 (Pipeline.mem_restRefs_of main_arg0 (by decide) (by decide))).trans a0,
      ((h c).2 main_arg1 (Pipeline.mem_restRefs_of main_arg1 (by decide) (by decide))).trans a1,
      ((h c).2 main_arg2 (Pipeline.mem_restRefs_of main_arg2 (by decide) (by decide))).trans a2,
      ((h c).2 main_arg3 (Pipeline.mem_restRefs_of main_arg3 (by decide) (by decide))).trans a3,
      ((h c).2 main_arg4 (Pipeline.mem_restRefs_of main_arg4 (by decide) (by decide))).trans a4,
      ((h c).2 main_arg5 (Pipeline.mem_restRefs_of main_arg5 (by decide) (by decide))).trans a5,
      ((h c).1 0).trans (((dats m 0 c).arrAt_in 0 rfl _).trans ((A_eq m c 0).trans a6)),
      ((h c).2 main_arg7 (Pipeline.mem_restRefs_of main_arg7 (by decide) (by decide))).trans a7,
      ((h c).2 main_arg8 (Pipeline.mem_restRefs_of main_arg8 (by decide) (by decide))).trans a8,
      ((h c).2 main_arg9 (Pipeline.mem_restRefs_of main_arg9 (by decide) (by decide))).trans a9,
      ((h c).2 main_arg10 (Pipeline.mem_restRefs_of main_arg10 (by decide) (by decide))).trans a10,
      ((h c).2 main_arg11 (Pipeline.mem_restRefs_of main_arg11 (by decide) (by decide))).trans a11,
      ((h c).2 main_arg12 (Pipeline.mem_restRefs_of main_arg12 (by decide) (by decide))).trans a12,
      ((h c).1 1).trans (((dats m 0 c).arrAt_in 1 rfl _).trans ((A_eq m c 1).trans a13)),
      ((h c).2 main_arg14 (Pipeline.mem_restRefs_of main_arg14 (by decide) (by decide))).trans a14,
      ((h c).2 main_arg15 (Pipeline.mem_restRefs_of main_arg15 (by decide) (by decide))).trans a15,
      ((h c).2 main_arg16 (Pipeline.mem_restRefs_of main_arg16 (by decide) (by decide))).trans a16,
      ((h c).2 main_arg17 (Pipeline.mem_restRefs_of main_arg17 (by decide) (by decide))).trans a17,
      ((h c).2 main_arg18 (Pipeline.mem_restRefs_of main_arg18 (by decide) (by decide))).trans a18,
      ((h c).2 main_arg19 (Pipeline.mem_restRefs_of main_arg19 (by decide) (by decide))).trans a19,
      ((h c).1 2).trans (((dats m 0 c).arrAt_in 2 rfl _).trans ((A_eq m c 2).trans a20)),
      ((h c).2 main_arg21 (Pipeline.mem_restRefs_of main_arg21 (by decide) (by decide))).trans a21,
      ((h c).2 main_arg22 (Pipeline.mem_restRefs_of main_arg22 (by decide) (by decide))).trans a22,
      ((h c).2 main_arg23 (Pipeline.mem_restRefs_of main_arg23 (by decide) (by decide))).trans a23,
      ((h c).2 main_arg24 (Pipeline.mem_restRefs_of main_arg24 (by decide) (by decide))).trans a24,
      ((h c).2 main_arg25 (Pipeline.mem_restRefs_of main_arg25 (by decide) (by decide))).trans a25,
      ((h c).2 main_arg26 (Pipeline.mem_restRefs_of main_arg26 (by decide) (by decide))).trans a26,
      ((h c).2 main_arg27 (Pipeline.mem_restRefs_of main_arg27 (by decide) (by decide))).trans a27,
      ((h c).2 main_arg28 (Pipeline.mem_restRefs_of main_arg28 (by decide) (by decide))).trans a28,
      ((h c).2 main_arg29 (Pipeline.mem_restRefs_of main_arg29 (by decide) (by decide))).trans a29,
      ((h c).2 main_arg30 (Pipeline.mem_restRefs_of main_arg30 (by decide) (by decide))).trans a30⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => (h c).2.2) (run_named m ρ)

end Cert.KernelIdeal.Fr

end
-- ==== Proof.Spec.lean ====
/-
  What the two programs compute, written once over the extended reals.

  An entity `i` has a feature row, and two aggregates: for each of its two incidence lists, the sum over the
  edges `e` whose row word is `i` of `vals e` times row `cols e` of the relation table (the column word wrapped
  once if negative and then clamped into the table, as a row gather does). Each aggregate goes through a
  32-by-32 linear layer; the feature row and the two results go through one 832-wide linear layer, written here
  as the sum of its three column ranges 768 + 32 + 32; the logits are divided by the larger of their Euclidean norm
  and a fixed positive literal. The relation's row goes through its own linear layer and the same normalisation.
  A score is the Euclidean norm of (head + relation) - tail.
-/
import Idealize.ShloMosaic.PureOps.Ideal
import Idealize.ShloMosaic.Lib.ValueIdx

noncomputable section

namespace Cert.Spec

open Idealize.ShloMosaic

/-- The literal both programs clamp a norm from below with. -/
def eps : EReal := Ideal.ofBits .f32 0x2B8CBCCC#32

/-- A row divided by the larger of its Euclidean norm and `eps`. -/
def l2n (x : Fin 32 → EReal) (c : Fin 32) : EReal :=
  Ideal.div (x c) (max (Ideal.sqrt (∑ c', x c' * x c')) eps)

/-- The Euclidean norm of (h + r) - p. -/
def score (h r p : Fin 32 → EReal) : EReal :=
  Ideal.sqrt (∑ c, ((h c + r c) - p c) * ((h c + r c) - p c))

/-- A 32-wide linear layer with its weight stored input-major: `w j k` multiplies input `j` into output `k`. -/
def lin32 (a : Fin 32 → EReal) (w : Fin 32 → Fin 32 → EReal) (b : Fin 32 → EReal) (k : Fin 32) : EReal :=
  (∑ j, a j * w j k) + b k

/-- The entity logits of one row, all weights input-major: features through `wef`, the two aggregates each through
    its own layer and then through `wei` / `weo`, the three products added left to right, then the bias. -/
def logit (feat : Fin 768 → EReal) (ain aout : Fin 32 → EReal) (win : Fin 32 → Fin 32 → EReal) (bin : Fin 32 → EReal)
    (wout : Fin 32 → Fin 32 → EReal) (bout : Fin 32 → EReal) (wef : Fin 768 → Fin 32 → EReal)
    (wei weo : Fin 32 → Fin 32 → EReal) (bent : Fin 32 → EReal) (c : Fin 32) : EReal :=
  (((∑ k, feat k * wef k c) + ∑ k, lin32 ain win bin k * wei k c) + ∑ k, lin32 aout wout bout k * weo k c) + bent c

/-- The entity embedding of one row. -/
def emb (feat : Fin 768 → EReal) (ain aout : Fin 32 → EReal) (win : Fin 32 → Fin 32 → EReal) (bin : Fin 32 → EReal)
    (wout : Fin 32 → Fin 32 → EReal) (bout : Fin 32 → EReal) (wef : Fin 768 → Fin 32 → EReal)
    (wei weo : Fin 32 → Fin 32 → EReal) (bent : Fin 32 → EReal) : Fin 32 → EReal :=
  l2n (logit feat ain aout win bin wout bout wef wei weo bent)

/-- A column or relation word as a row gather reads it: wrapped once by the table's height if negative. -/
def wrap (w : BitVec 32) : BitVec 32 := Scalar.select (IntOp.cmpi .slt w 0#32) (IntOp.addi w 1315#32) w

/-- The table row a word selects: wrapped, read signed, clamped into `[0, 1314]`. -/
def rowOf (w : BitVec 32) : Fin 1315 := ⟨min (wrap w).toInt.toNat (1315 - 1), by omega⟩

/-- One incidence list aggregated at entity `i`, column `j`: over the edges whose row word reads `i`. -/
def agg (rows cols : Fin 1048576 → BitVec 32) (vals : Fin 1048576 → EReal) (rel : Fin 1315 → Fin 32 → EReal)
    (i : Fin 65536) (j : Fin 32) : EReal :=
  ∑ e ∈ Finset.univ.filter (fun e : Fin 1048576 => (rows e).toInt = (i.val : Int)), vals e * rel (rowOf (cols e)) j

/-- The weights and biases both programs share, as the arguments hold them (output-major, PyTorch's layout). -/
structure Params where
  rel : Fin 1315 → Fin 32 → EReal
  Win : Fin 32 → Fin 32 → EReal
  bin : Fin 32 → EReal
  Wout : Fin 32 → Fin 32 → EReal
  bout : Fin 32 → EReal
  Went : Fin 32 → Fin 832 → EReal
  bent : Fin 32 → EReal
  Wrel : Fin 32 → Fin 32 → EReal
  brel : Fin 32 → EReal

/-- One side's sparse data and features. -/
structure Side where
  inRows : Fin 1048576 → BitVec 32
  inCols : Fin 1048576 → BitVec 32
  inVals : Fin 1048576 → EReal
  outRows : Fin 1048576 → BitVec 32
  outCols : Fin 1048576 → BitVec 32
  outVals : Fin 1048576 → EReal
  feat : Fin 65536 → Fin 768 → EReal

/-- Column `j` and column `32 + j` of a packed pair of aggregates. -/
def lo64 (j : Fin 32) : Fin 64 := ⟨j.val, by omega⟩
def hi64 (j : Fin 32) : Fin 64 := ⟨32 + j.val, by omega⟩

/-- Column `768 + k` of the wide layer. -/
def colIn (k : Fin 32) : Fin 832 := ⟨768 + k.val, by omega⟩
/-- Column `800 + k` of the wide layer. -/
def colOut (k : Fin 32) : Fin 832 := ⟨800 + k.val, by omega⟩
/-- Column `k` of the wide layer, `k < 768`. -/
def colFeat (k : Fin 768) : Fin 832 := ⟨k.val, by omega⟩

/-- The embedding of entity `i` of one side. -/
def sideEmb (P : Params) (S : Side) (i : Fin 65536) : Fin 32 → EReal :=
  emb (S.feat i) (agg S.inRows S.inCols S.inVals P.rel i) (agg S.outRows S.outCols S.outVals P.rel i)
    (fun j k => P.Win k j) P.bin (fun j k => P.Wout k j) P.bout
    (fun k c => P.Went c (colFeat k)) (fun k c => P.Went c (colIn k)) (fun k c => P.Went c (colOut k)) P.bent

/-- The relation embedding of triple `i`: row `rowOf (eid i)` of the table through its layer, normalised. -/
def relEmb (P : Params) (eid : Fin 65536 → BitVec 32) (i : Fin 65536) : Fin 32 → EReal :=
  l2n (fun c => (∑ k, P.rel (rowOf (eid i)) k * P.Wrel c k) + P.brel c)

/-- The score of triple `i` against the tail side `T`. -/
def tripleScore (P : Params) (H T : Side) (eid : Fin 65536 → BitVec 32) (i : Fin 65536) : EReal :=
  score (sideEmb P H i) (relEmb P eid i) (sideEmb P T i)

/-! ## The two result arrays as functions of the thirty-one argument arrays -/

/-- A rank-1 shape and a rank-2 shape, spelt as the printed programs spell theirs. -/
abbrev A1 (n : Nat) : Shape := ⟨1, ![n]⟩
abbrev A2 (a b : Nat) : Shape := ⟨2, ![a, b]⟩

/-- The argument arrays, in the order both programs take them. -/
structure Args where
  hInRows : (A1 1048576).Idx → BitVec 32
  hInCols : (A1 1048576).Idx → BitVec 32
  hInVals : (A1 1048576).Idx → EReal
  hOutRows : (A1 1048576).Idx → BitVec 32
  hOutCols : (A1 1048576).Idx → BitVec 32
  hOutVals : (A1 1048576).Idx → EReal
  hFeat : (A2 65536 768).Idx → EReal
  pInRows : (A1 1048576).Idx → BitVec 32
  pInCols : (A1 1048576).Idx → BitVec 32
  pInVals : (A1 1048576).Idx → EReal
  pOutRows : (A1 1048576).Idx → BitVec 32
  pOutCols : (A1 1048576).Idx → BitVec 32
  pOutVals : (A1 1048576).Idx → EReal
  pFeat : (A2 65536 768).Idx → EReal
  nInRows : (A1 1048576).Idx → BitVec 32
  nInCols : (A1 1048576).Idx → BitVec 32
  nInVals : (A1 1048576).Idx → EReal
  nOutRows : (A1 1048576).Idx → BitVec 32
  nOutCols : (A1 1048576).Idx → BitVec 32
  nOutVals : (A1 1048576).Idx → EReal
  nFeat : (A2 65536 768).Idx → EReal
  eid : (A1 65536).Idx → BitVec 32
  rel : (A2 1315 32).Idx → EReal
  Win : (A2 32 32).Idx → EReal
  bin : (A1 32).Idx → EReal
  Wout : (A2 32 32).Idx → EReal
  bout : (A1 32).Idx → EReal
  Went : (A2 32 832).Idx → EReal
  bent : (A1 32).Idx → EReal
  Wrel : (A2 32 32).Idx → EReal
  brel : (A1 32).Idx → EReal

open ValueIdx in
/-- The shared weights of an argument bundle. -/
def Args.params (a : Args) : Params where
  rel r k := a.rel (ix2 r k)
  Win k j := a.Win (ix2 k j)
  bin k := a.bin (ix1 k)
  Wout k j := a.Wout (ix2 k j)
  bout k := a.bout (ix1 k)
  Went c k := a.Went (ix2 c k)
  bent c := a.bent (ix1 c)
  Wrel c k := a.Wrel (ix2 c k)
  brel c := a.brel (ix1 c)

open ValueIdx in
/-- The head side, the positive tail side and the negative tail side of an argument bundle. -/
def Args.head (a : Args) : Side where
  inRows e := a.hInRows (ix1 e)
  inCols e := a.hInCols (ix1 e)
  inVals e := a.hInVals (ix1 e)
  outRows e := a.hOutRows (ix1 e)
  outCols e := a.hOutCols (ix1 e)
  outVals e := a.hOutVals (ix1 e)
  feat i k := a.hFeat (ix2 i k)
open ValueIdx in
def Args.posTail (a : Args) : Side where
  inRows e := a.pInRows (ix1 e)
  inCols e := a.pInCols (ix1 e)
  inVals e := a.pInVals (ix1 e)
  outRows e := a.pOutRows (ix1 e)
  outCols e := a.pOutCols (ix1 e)
  outVals e := a.pOutVals (ix1 e)
  feat i k := a.pFeat (ix2 i k)
open ValueIdx in
def Args.negTail (a : Args) : Side where
  inRows e := a.nInRows (ix1 e)
  inCols e := a.nInCols (ix1 e)
  inVals e := a.nInVals (ix1 e)
  outRows e := a.nOutRows (ix1 e)
  outCols e := a.nOutCols (ix1 e)
  outVals e := a.nOutVals (ix1 e)
  feat i k := a.nFeat (ix2 i k)

open ValueIdx in
/-- The positive scores and the negative scores of an argument bundle, entity by entity. -/
def posArr (a : Args) : (A1 65536).Idx → EReal :=
  fun y => tripleScore a.params a.head a.posTail (fun i => a.eid (ix1 i)) ⟨(y 0).val, (y 0).isLt⟩
open ValueIdx in
def negArr (a : Args) : (A1 65536).Idx → EReal :=
  fun y => tripleScore a.params a.head a.negTail (fun i => a.eid (ix1 i)) ⟨(y 0).val, (y 0).isLt⟩

/-- Every row word of the six incidence lists names an entity. -/
def Args.RowsInRange (a : Args) : Prop :=
  ∀ e, (0 ≤ (a.hInRows e).toInt ∧ (a.hInRows e).toInt < 65536) ∧ (0 ≤ (a.hOutRows e).toInt ∧ (a.hOutRows e).toInt < 65536)
    ∧ (0 ≤ (a.pInRows e).toInt ∧ (a.pInRows e).toInt < 65536) ∧ (0 ≤ (a.pOutRows e).toInt ∧ (a.pOutRows e).toInt < 65536)
    ∧ (0 ≤ (a.nInRows e).toInt ∧ (a.nInRows e).toInt < 65536) ∧ (0 ≤ (a.nOutRows e).toInt ∧ (a.nOutRows e).toInt < 65536)

end Cert.Spec

end
-- ==== Proof.KIBody.lean ====
/-
  One grid point's arithmetic, read at an entry. Row `r` of a block's embedding depends on row `r` of the block's
  features and packed aggregates and on the whole weight blocks: a bf16 rounding is the identity over the extended
  reals, a matrix product into a zero accumulator is the sum over the contracted axis, a lane reduction is the sum over
  the lane axis; so the row is the specification's `emb` of those rows, and a score entry is its `score`.
-/
import proofs.«402564_j1056561954978_2_alg».proof.Proof.KIDefs
import proofs.«402564_j1056561954978_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

/-- Row `r` of a block's entity embedding, from the block's features `xf`, its packed aggregates `xa` and the weight
    blocks: the specification's embedding of those rows, the weights read input-major as the blocks hold them. -/
def blkEmb (xf : Vec Ideal S1024x768 .f32) (xa : Vec Ideal S1024x64 .f32) (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32)
    (r : Fin 1024) : Fin 32 → EReal :=
  Cert.Spec.emb (fun k => xf (ix2 r k)) (fun j => xa (ix2 r (Cert.Spec.lo64 j))) (fun j => xa (ix2 r (Cert.Spec.hi64 j)))
    (fun j k => x7 (ix2 j k)) (fun k => x8 (ix2 (0 : Fin 1) k)) (fun j k => x9 (ix2 j k)) (fun k => x10 (ix2 (0 : Fin 1) k))
    (fun k c => x11 (ix2 k c)) (fun k c => x12 (ix2 k c)) (fun k c => x13 (ix2 k c)) (fun c => x14 (ix2 (0 : Fin 1) c))

/-! ## The two products' operand indices -/

/-- At output index `i` and contraction index `q`, the 32-wide product reads its left operand at `(i 0, q)` and its
    right operand at `(q, i 1)`: the four coordinates, one lemma each. -/
theorem lhs32_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
theorem lhs32_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
theorem rhs32_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
theorem rhs32_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- The same four coordinates for the 768-wide product. -/
theorem lhs768_0 (i : S1024x32.Idx) (q : dot_S1024x768_S768x32_S1024x32_1_0_0_1_n_n.contr.Idx) :
    (dot_S1024x768_S768x32_S1024x32_1_0_0_1_n_n.lhsIdx i q 0).val = (i 0).val := by
  unfold DotDims.lhsIdx
  rw [dif_neg (show ¬(0 : Fin S1024x768.rank) ∈ dot_S1024x768_S768x32_S1024x32_1_0_0_1_n_n.lhsBatch by decide), dif_pos (show (0 : Fin S1024x768.rank) ∈ dot_S1024x768_S768x32_S1024x32_1_0_0_1_n_n.lhsNonContracting by decide)]
  rfl
theorem lhs768_1 (i : S1024x32.Idx) (q : dot_S1024x768_S768x32_S1024x32_1_0_0_1_n_n.contr.Idx) :
    (dot_S1024x768_S768x32_S1024x32_1_0_0_1_n_n.lhsIdx i q 1).val = (q ⟨0, by decide⟩).val :=
  dot_S1024x768_S768x32_S1024x32_1_0_0_1_n_n.lhsIdx_val_of_single rfl i q
theorem rhs768_0 (i : S1024x32.Idx) (q : dot_S1024x768_S768x32_S1024x32_1_0_0_1_n_n.contr.Idx) :
    (dot_S1024x768_S768x32_S1024x32_1_0_0_1_n_n.rhsIdx i q 0).val = (q ⟨0, by decide⟩).val :=
  dot_S1024x768_S768x32_S1024x32_1_0_0_1_n_n.rhsIdx_val_of_single rfl i q
theorem rhs768_1 (i : S1024x32.Idx) (q : dot_S1024x768_S768x32_S1024x32_1_0_0_1_n_n.contr.Idx) :
    (dot_S1024x768_S768x32_S1024x32_1_0_0_1_n_n.rhsIdx i q 1).val = (i 1).val := by
  unfold DotDims.rhsIdx
  rw [dif_neg (show ¬(1 : Fin S768x32.rank) ∈ dot_S1024x768_S768x32_S1024x32_1_0_0_1_n_n.rhsBatch by decide), dif_pos (show (1 : Fin S768x32.rank) ∈ dot_S1024x768_S768x32_S1024x32_1_0_0_1_n_n.rhsNonContracting by decide)]
  rfl

/-- A 1024×32 by 32×32 product into a zero accumulator, at `(r, c)`: the sum over the contracted axis. -/
theorem mm32_apply {φ₁ φ₂ : FTy} (l : FVec Ideal S1024x32 φ₁) (w : FVec Ideal S32x32 φ₂) (r : Fin 1024) (c : Fin 32) :
    matmul dot_S1024x32_S32x32_S1024x32_1_0_0_1_n_n none l w (constant S1024x32 .f32 0x00000000#32) (ix2 r c)
      = ∑ k : Fin 32, l (ix2 r k) * w (ix2 k c) := by
  simp only [matmul]
  rw [Ideal.matmul_constant_zero_apply, ← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 r c) ((contrEquiv1 dot_S1024x32_S32x32_S1024x32_1_0_0_1_n_n 32 rfl rfl).symm k) = ix2 r k := funext fun a => Fin.ext (by
    match a with
    | ⟨0, _⟩ => exact lhs32_0 _ _
    | ⟨1, _⟩ => exact (lhs32_1 _ _).trans hk)
  have er : dot_S1024x32_S32x32_S1024x32_1_0_0_1_n_n.rhsIdx (ix2 r c) ((contrEquiv1 dot_S1024x32_S32x32_S1024x32_1_0_0_1_n_n 32 rfl rfl).symm k) = ix2 k c := funext fun a => Fin.ext (by
    match a with
    | ⟨0, _⟩ => exact (rhs32_0 _ _).trans hk
    | ⟨1, _⟩ => exact rhs32_1 _ _)
  rw [el, er]

/-- A 1024×768 by 768×32 product into a zero accumulator, at `(r, c)`. -/
theorem mm768_apply {φ₁ φ₂ : FTy} (l : FVec Ideal S1024x768 φ₁) (w : FVec Ideal S768x32 φ₂) (r : Fin 1024) (c : Fin 32) :
    matmul dot_S1024x768_S768x32_S1024x32_1_0_0_1_n_n none l w (constant S1024x32 .f32 0x00000000#32) (ix2 r c)
      = ∑ k : Fin 768, l (ix2 r k) * w (ix2 k c) := by
  simp only [matmul]
  rw [Ideal.matmul_constant_zero_apply, ← Equiv.sum_comp (contrEquiv1 dot_S1024x768_S768x32_S1024x32_1_0_0_1_n_n 768 rfl rfl).symm]
  refine Finset.sum_congr rfl fun k _ => ?_
  have hk := contrEquiv1_symm_val dot_S1024x768_S768x32_S1024x32_1_0_0_1_n_n 768 rfl rfl k
  have el : dot_S1024x768_S768x32_S1024x32_1_0_0_1_n_n.lhsIdx (ix2 r c) ((contrEquiv1 dot_S1024x768_S768x32_S1024x32_1_0_0_1_n_n 768 rfl rfl).symm k) = ix2 r k := funext fun a => Fin.ext (by
    match a with
    | ⟨0, _⟩ => exact lhs768_0 _ _
    | ⟨1, _⟩ => exact (lhs768_1 _ _).trans hk)
  have er : dot_S1024x768_S768x32_S1024x32_1_0_0_1_n_n.rhsIdx (ix2 r c) ((contrEquiv1 dot_S1024x768_S768x32_S1024x32_1_0_0_1_n_n 768 rfl rfl).symm k) = ix2 k c := funext fun a => Fin.ext (by
    match a with
    | ⟨0, _⟩ => exact (rhs768_0 _ _).trans hk
    | ⟨1, _⟩ => exact rhs768_1 _ _)
  rw [el, er]

/-! ## Layout operations of the body at an entry -/

section Layout
variable {α : Type}

/-- A bias row broadcast down the block reads the row at the column. -/
theorem rowB_apply (v : S1x32.Idx → α) (r : Fin 1024) (c : Fin 32) :
    broadcastTo S1024x32 v broadcasts_S1x32_S1024x32 (ix2 r c) = v (ix2 (0 : Fin 1) c) :=
  broadcastTo_1b_ab_apply v broadcasts_S1x32_S1024x32 r c

/-- A column broadcast across the block reads the column at the row. -/
theorem colB_apply (v : S1024x1.Idx → α) (r : Fin 1024) (c : Fin 32) :
    broadcastTo S1024x32 v broadcasts_S1024x1_S1024x32 (ix2 r c) = v (ix2 r (0 : Fin 1)) := by
  refine broadcastTo_apply v broadcasts_S1024x1_S1024x32 (ix2 r c) (ix2 r (0 : Fin 1)) fun ax => ?_
  match ax with
  | ⟨0, _⟩ =>
    show r.val = if (1024 : Nat) = 1 then 0 else r.val
    rw [if_neg (by decide)]
  | ⟨1, _⟩ => rfl

/-- A length-1024 vector viewed as a column reads the vector at the row. -/
theorem colCast_apply (v : S1024.Idx → α) (r : Fin 1024) (u : Fin 1) :
    shapeCast S1024x1 v shapeCasts_S1024_S1024x1 (ix2 r u) = v (ix1 r) :=
  shapeCast_apply v shapeCasts_S1024_S1024x1 (ix2 r u) (ix1 r) (by
    have hu : u.val = 0 := by omega
    rw [Shape.rowMajor_val_one, Shape.rowMajor_val_two]
    show r.val = r.val * 1 + u.val
    rw [hu, Nat.mul_one, Nat.add_zero])

/-- The low half of a packed pair of aggregates. -/
theorem sliceLo_apply (v : S1024x64.Idx → α) (r : Fin 1024) (j : Fin 32) :
    extractStridedSlice S1024x32 ![0, 0] v slices_S1024x64_o0_0_S1024x32 (ix2 r j) = v (ix2 r (Cert.Spec.lo64 j)) :=
  slice2_axis1_apply 0 v slices_S1024x64_o0_0_S1024x32 r j (Cert.Spec.lo64 j) (Nat.zero_add _).symm

/-- The high half of a packed pair of aggregates. -/
theorem sliceHi_apply (v : S1024x64.Idx → α) (r : Fin 1024) (j : Fin 32) :
    extractStridedSlice S1024x32 ![0, 32] v slices_S1024x64_o0_32_S1024x32 (ix2 r j) = v (ix2 r (Cert.Spec.hi64 j)) :=
  slice2_axis1_apply 32 v slices_S1024x64_o0_32_S1024x32 r j (Cert.Spec.hi64 j) rfl

end Layout

/-- A lane sum of a block at row `r`: the sum over the 32 columns. -/
theorem rowSum_apply (v : FVec Ideal S1024x32 .f32) (hφ : FKind.Formats .f32)
    (hacc : (0x00000000#32 : BitVec 32) = 0x00000000#32) (r : Fin 1024) :
    multiReduction .add [1] S1024 v 0x00000000#32 reduces_S1024x32_S1024 hφ hacc (ix1 r) = ∑ c : Fin 32, v (ix2 r c) := by
  refine (Ideal.multiReduction_add_single v 0x00000000#32 reduces_S1024x32_S1024 hφ hacc (ix1 r)).trans ?_
  refine Finset.sum_congr rfl fun c _ => congrArg v ?_
  funext a
  match a with
  | ⟨0, _⟩ => rfl
  | ⟨1, _⟩ => rfl

/-! ## The block arithmetic over variables

The three embeddings of a grid point are one function of (features, packed aggregates, weights), grouped differently
into the body's named values; the functions below are that arithmetic written once. -/

/-- One 32-wide layer on a block: the rows of `a` through `w`, plus the bias row. -/
def linV (a : FVec Ideal S1024x32 .f32) (w : FVec Ideal S32x32 .bf16) (b : FVec Ideal S1x32 .f32) : FVec Ideal S1024x32 .f32 :=
  addf (matmul dot_S1024x32_S32x32_S1024x32_1_0_0_1_n_n none (truncf .bf16 a bitsLt_bf16_f32)
      (shapeCast S32x32 w shapeCasts_S32x32_S32x32) (constant S1024x32 .f32 0x00000000#32))
    (broadcastTo S1024x32 (shapeCast S1x32 b shapeCasts_S1x32_S1x32) broadcasts_S1x32_S1024x32)

/-- A block's rows each divided by the larger of its norm and the literal. -/
def l2nV (y : FVec Ideal S1024x32 .f32) : FVec Ideal S1024x32 .f32 :=
  divf y (broadcastTo S1024x32
    (maximumf (sqrt (shapeCast S1024x1 (multiReduction .add [1] S1024 (mulf y y) 0x00000000#32 reduces_S1024x32_S1024 (.inl rfl) rfl)
        shapeCasts_S1024_S1024x1))
      (broadcast S1024x1 (Scalar.ofBits .f32 0x2B8CBCCC#32 : Ideal .f32)))
    broadcasts_S1024x1_S1024x32)

/-- A layer at `(r, k)` is the specification's `lin32` of row `r`: the rounding to bf16 is the identity here. -/
theorem linV_apply (a : FVec Ideal S1024x32 .f32) (w : FVec Ideal S32x32 .bf16) (b : FVec Ideal S1x32 .f32) (r : Fin 1024) (k : Fin 32) :
    linV a w b (ix2 r k) = Cert.Spec.lin32 (fun j => a (ix2 r j)) (fun j k => w (ix2 j k)) (fun k => b (ix2 (0 : Fin 1) k)) k := by
  unfold linV Cert.Spec.lin32
  rw [addf_apply, mm32_apply, rowB_apply, shapeCast_self, shapeCast_self]
  rfl

/-- The normalisation at `(r, c)` is the specification's `l2n` of row `r`: the lane sum of the squares is the sum over
    the columns, its column view and broadcast read it back at the row, and the splat literal is `eps`. -/
theorem l2nV_apply (y : FVec Ideal S1024x32 .f32) (r : Fin 1024) (c : Fin 32) :
    l2nV y (ix2 r c) = Cert.Spec.l2n (fun c' => y (ix2 r c')) c := by
  unfold l2nV Cert.Spec.l2n
  rw [divf_apply, colB_apply, maximumf_apply]
  show Ideal.div (y (ix2 r c)) (max (Ideal.sqrt (shapeCast S1024x1 (multiReduction .add [1] S1024 (mulf y y) 0x00000000#32 reduces_S1024x32_S1024 (.inl rfl) rfl)
        shapeCasts_S1024_S1024x1 (ix2 r (0 : Fin 1)))) Cert.Spec.eps) = _
  refine congrArg (fun s => Ideal.div (y (ix2 r c)) (max (Ideal.sqrt s) Cert.Spec.eps)) ?_
  exact (colCast_apply _ r (0 : Fin 1)).trans (rowSum_apply (mulf y y) (.inl rfl) rfl r)

/-- The entity embedding of a block: features through the wide layer's first range, each half of the packed
    aggregates through its own layer and then its range of the wide layer, the bias row, the normalisation. -/
def embV (xf : FVec Ideal S1024x768 .f32) (xa : FVec Ideal S1024x64 .f32) (x7 : FVec Ideal S32x32 .bf16) (x8 : FVec Ideal S1x32 .f32)
    (x9 : FVec Ideal S32x32 .bf16) (x10 : FVec Ideal S1x32 .f32) (x11 : FVec Ideal S768x32 .bf16) (x12 x13 : FVec Ideal S32x32 .bf16)
    (x14 : FVec Ideal S1x32 .f32) : FVec Ideal S1024x32 .f32 :=
  l2nV (addf
    (addf
      (addf
        (matmul dot_S1024x768_S768x32_S1024x32_1_0_0_1_n_n none (truncf .bf16 xf bitsLt_bf16_f32)
          (shapeCast S768x32 x11 shapeCasts_S768x32_S768x32) (constant S1024x32 .f32 0x00000000#32))
        (matmul dot_S1024x32_S32x32_S1024x32_1_0_0_1_n_n none
          (truncf .bf16 (linV (extractStridedSlice S1024x32 ![0, 0] (shapeCast S1024x64 xa shapeCasts_S1024x64_S1024x64) slices_S1024x64_o0_0_S1024x32) x7 x8) bitsLt_bf16_f32)
          (shapeCast S32x32 x12 shapeCasts_S32x32_S32x32) (constant S1024x32 .f32 0x00000000#32)))
      (matmul dot_S1024x32_S32x32_S1024x32_1_0_0_1_n_n none
        (truncf .bf16 (linV (extractStridedSlice S1024x32 ![0, 32] (shapeCast S1024x64 xa shapeCasts_S1024x64_S1024x64) slices_S1024x64_o0_32_S1024x32) x9 x10) bitsLt_bf16_f32)
        (shapeCast S32x32 x13 shapeCasts_S32x32_S32x32) (constant S1024x32 .f32 0x00000000#32)))
    (broadcastTo S1024x32 (shapeCast S1x32 x14 shapeCasts_S1x32_S1x32) broadcasts_S1x32_S1024x32))

/-- The norms of (head + relation) - tail, row by row. -/
def scoreV (h p x6 : FVec Ideal S1024x32 .f32) : FVec Ideal S1024 .f32 :=
  sqrt (multiReduction .add [1] S1024
    (mulf (subf (addf h (shapeCast S1024x32 x6 shapeCasts_S1024x32_S1024x32)) p) (subf (addf h (shapeCast S1024x32 x6 shapeCasts_S1024x32_S1024x32)) p))
    0x00000000#32 reduces_S1024x32_S1024 (.inl rfl) rfl)

/-- The embedding at `(r, c)` is the specification's embedding of row `r`: the three products are the three sums of
    `logit`, in its order, the low and high halves of the packed aggregates feeding the two inner layers. -/
theorem embV_apply (xf : FVec Ideal S1024x768 .f32) (xa : FVec Ideal S1024x64 .f32) (x7 : FVec Ideal S32x32 .bf16) (x8 : FVec Ideal S1x32 .f32)
    (x9 : FVec Ideal S32x32 .bf16) (x10 : FVec Ideal S1x32 .f32) (x11 : FVec Ideal S768x32 .bf16) (x12 x13 : FVec Ideal S32x32 .bf16)
    (x14 : FVec Ideal S1x32 .f32) (r : Fin 1024) (c : Fin 32) :
    embV xf xa x7 x8 x9 x10 x11 x12 x13 x14 (ix2 r c) = blkEmb xf xa x7 x8 x9 x10 x11 x12 x13 x14 r c := by
  unfold embV blkEmb Cert.Spec.emb
  rw [l2nV_apply]
  refine congrArg (fun f => Cert.Spec.l2n f c) (funext fun c' => ?_)
  unfold Cert.Spec.logit
  rw [addf_apply, addf_apply, addf_apply, mm768_apply, mm32_apply, mm32_apply, rowB_apply]
  simp only [truncf_apply, linV_apply, sliceLo_apply, sliceHi_apply, shapeCast_self]

/-- A score at `r` is the specification's `score` of whatever rows `r` of the head and the tail are known to be. -/
theorem scoreV_apply (h p x6 : FVec Ideal S1024x32 .f32) (r : Fin 1024) (H P : Fin 32 → EReal)
    (hH : ∀ c, h (ix2 r c) = H c) (hP : ∀ c, p (ix2 r c) = P c) :
    scoreV h p x6 (ix1 r) = Cert.Spec.score H (fun c => x6 (ix2 r c)) P := by
  unfold scoreV Cert.Spec.score
  show Ideal.sqrt (multiReduction .add [1] S1024
    (mulf (subf (addf h (shapeCast S1024x32 x6 shapeCasts_S1024x32_S1024x32)) p) (subf (addf h (shapeCast S1024x32 x6 shapeCasts_S1024x32_S1024x32)) p))
    0x00000000#32 reduces_S1024x32_S1024 (.inl rfl) rfl (ix1 r)) = _
  refine congrArg Ideal.sqrt ((rowSum_apply _ (.inl rfl) rfl r).trans (Finset.sum_congr rfl fun c _ => ?_))
  rw [mulf_apply, subf_apply, addf_apply, shapeCast_self, hH c, hP c]

/-! ## The body's named values are that arithmetic -/

/-- The head's named values compose to the embedding of (features `x0`, aggregates `x3`), by unfolding. -/
theorem headBlk_eq (x0 : Vec Ideal S1024x768 .f32) (x3 : Vec Ideal S1024x64 .f32) (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32) :
    Fr.headBlk (F := Ideal) x0 x3 x7 x8 x9 x10 x11 x12 x13 x14 = embV x0 x3 x7 x8 x9 x10 x11 x12 x13 x14 := rfl

/-- So do the positive tail's, grouped otherwise, of (features `x1`, aggregates `x4`). -/
theorem posTailBlk_eq (x1 : Vec Ideal S1024x768 .f32) (x4 : Vec Ideal S1024x64 .f32) (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32) :
    Fr.posTailBlk (F := Ideal) x1 x4 x7 x8 x9 x10 x11 x12 x13 x14 = embV x1 x4 x7 x8 x9 x10 x11 x12 x13 x14 := rfl

/-- The head embedding of a block at `(r, c)`. -/
theorem headBlk_apply (x0 : Vec Ideal S1024x768 .f32) (x3 : Vec Ideal S1024x64 .f32) (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32)
    (r : Fin 1024) (c : Fin 32) :
    Fr.headBlk (F := Ideal) x0 x3 x7 x8 x9 x10 x11 x12 x13 x14 (ix2 r c) = blkEmb x0 x3 x7 x8 x9 x10 x11 x12 x13 x14 r c :=
  (congrFun (headBlk_eq x0 x3 x7 x8 x9 x10 x11 x12 x13 x14) (ix2 r c)).trans (embV_apply x0 x3 x7 x8 x9 x10 x11 x12 x13 x14 r c)

/-- The positive tail's embedding of a block at `(r, c)`: the same function of its own features and aggregates. -/
theorem posTailBlk_apply (x1 : Vec Ideal S1024x768 .f32) (x4 : Vec Ideal S1024x64 .f32) (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32)
    (r : Fin 1024) (c : Fin 32) :
    Fr.posTailBlk (F := Ideal) x1 x4 x7 x8 x9 x10 x11 x12 x13 x14 (ix2 r c) = blkEmb x1 x4 x7 x8 x9 x10 x11 x12 x13 x14 r c :=
  (congrFun (posTailBlk_eq x1 x4 x7 x8 x9 x10 x11 x12 x13 x14) (ix2 r c)).trans (embV_apply x1 x4 x7 x8 x9 x10 x11 x12 x13 x14 r c)

/-- A positive score of a block. -/
theorem posBlk_apply (x0 x1 : Vec Ideal S1024x768 .f32) (x3 x4 : Vec Ideal S1024x64 .f32) (x6 : Vec Ideal S1024x32 .f32)
    (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32) (r : Fin 1024) :
    Fr.posBlk (F := Ideal) x0 x1 x3 x4 x6 x7 x8 x9 x10 x11 x12 x13 x14 (ix1 r)
      = Cert.Spec.score (blkEmb x0 x3 x7 x8 x9 x10 x11 x12 x13 x14 r) (fun c => x6 (ix2 r c))
          (blkEmb x1 x4 x7 x8 x9 x10 x11 x12 x13 x14 r) := by
  show scoreV (Fr.headBlk (F := Ideal) x0 x3 x7 x8 x9 x10 x11 x12 x13 x14)
      (Fr.posTailBlk (F := Ideal) x1 x4 x7 x8 x9 x10 x11 x12 x13 x14) x6 (ix1 r) = _
  exact scoreV_apply _ _ x6 r _ _ (fun c => headBlk_apply x0 x3 x7 x8 x9 x10 x11 x12 x13 x14 r c)
    (fun c => posTailBlk_apply x1 x4 x7 x8 x9 x10 x11 x12 x13 x14 r c)

/-- A negative score of a block. -/
theorem negBlk_apply (x0 x2 : Vec Ideal S1024x768 .f32) (x3 x5 : Vec Ideal S1024x64 .f32) (x6 : Vec Ideal S1024x32 .f32)
    (x7 : Vec Ideal S32x32 .bf16) (x8 : Vec Ideal S1x32 .f32) (x9 : Vec Ideal S32x32 .bf16) (x10 : Vec Ideal S1x32 .f32)
    (x11 : Vec Ideal S768x32 .bf16) (x12 x13 : Vec Ideal S32x32 .bf16) (x14 : Vec Ideal S1x32 .f32) (r : Fin 1024) :
    Fr.negBlk (F := Ideal) x0 x2 x3 x5 x6 x7 x8 x9 x10 x11 x12 x13 x14 (ix1 r)
      = Cert.Spec.score (blkEmb x0 x3 x7 x8 x9 x10 x11 x12 x13 x14 r) (fun c => x6 (ix2 r c))
          (blkEmb x2 x5 x7 x8 x9 x10 x11 x12 x13 x14 r) := by
  show scoreV (Fr.headBlk (F := Ideal) x0 x3 x7 x8 x9 x10 x11 x12 x13 x14)
      (embV x2 x5 x7 x8 x9 x10 x11 x12 x13 x14) x6 (ix1 r) = _
  exact scoreV_apply _ _ x6 r _ _ (fun c => headBlk_apply x0 x3 x7 x8 x9 x10 x11 x12 x13 x14 r c)
    (fun c => embV_apply x2 x5 x7 x8 x9 x10 x11 x12 x13 x14 r c)

end Cert.KernelIdeal.Val

end
-- ==== Proof.KIArgs.lean ====
/-
  The thirty-one argument arrays of the program, read off a memory, as one bundle.
-/
import proofs.«402564_j1056561954978_2_alg».proof.KernelIdeal
import proofs.«402564_j1056561954978_2_alg».proof.Proof.Spec

noncomputable section

namespace Cert.KernelIdeal.Val

open Cert.KernelIdeal
open Idealize.ShloMosaic Idealize.ShloMosaic.TcCoe Idealize.SL.Sem

/-- Core `c`'s argument arrays in the memory `m`. -/
def args (m : (ℓ : Loc nD τ sig) → Buf (Elt Ideal) ℓ) (c : Dev nD) : Cert.Spec.Args where
  hInRows := m ((c.tc : Thread nD τ).loc main_arg0)
  hInCols := m ((c.tc : Thread nD τ).loc main_arg1)
  hInVals := m ((c.tc : Thread nD τ).loc main_arg2)
  hOutRows := m ((c.tc : Thread nD τ).loc main_arg3)
  hOutCols := m ((c.tc : Thread nD τ).loc main_arg4)
  hOutVals := m ((c.tc : Thread nD τ).loc main_arg5)
  hFeat := m ((c.tc : Thread nD τ).loc main_arg6)
  pInRows := m ((c.tc : Thread nD τ).loc main_arg7)
  pInCols := m ((c.tc : Thread nD τ).loc main_arg8)
  pInVals := m ((c.tc : Thread nD τ).loc main_arg9)
  pOutRows := m ((c.tc : Thread nD τ).loc main_arg10)
  pOutCols := m ((c.tc : Thread nD τ).loc main_arg11)
  pOutVals := m ((c.tc : Thread nD τ).loc main_arg12)
  pFeat := m ((c.tc : Thread nD τ).loc main_arg13)
  nInRows := m ((c.tc : Thread nD τ).loc main_arg14)
  nInCols := m ((c.tc : Thread nD τ).loc main_arg15)
  nInVals := m ((c.tc : Thread nD τ).loc main_arg16)
  nOutRows := m ((c.tc : Thread nD τ).loc main_arg17)
  nOutCols := m ((c.tc : Thread nD τ).loc main_arg18)
  nOutVals := m ((c.tc : Thread nD τ).loc main_arg19)
  nFeat := m ((c.tc : Thread nD τ).loc main_arg20)
  eid := m ((c.tc : Thread nD τ).loc main_arg21)
  rel := m ((c.tc : Thread nD τ).loc main_arg22)
  Win := m ((c.tc : Thread nD τ).loc main_arg23)
  bin := m ((c.tc : Thread nD τ).loc main_arg24)
  Wout := m ((c.tc : Thread nD τ).loc main_arg25)
  bout := m ((c.tc : Thread nD τ).loc main_arg26)
  Went := m ((c.tc : Thread nD τ).loc main_arg27)
  bent := m ((c.tc : Thread nD τ).loc main_arg28)
  Wrel := m ((c.tc : Thread nD τ).loc main_arg29)
  brel := m ((c.tc : Thread nD τ).loc main_arg30)

end Cert.KernelIdeal.Val

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.LibRowScatter.lean ====
/-
  A float scatter-add of whole rows into a rank-2 table, read at an entry.

  What `table.at[rows].add(updates)` of a table `[N, C]`, a vector of `n` row numbers and `n` update rows lowers to: a
  scatter whose indices are the `[n, 1]` column of row numbers, whose operand axis 0 is inserted and index-addressed and
  whose operand axis 1 is the one update window axis. Over the extended reals the result at `(R, q)` is the operand there
  plus the sum, over the update rows `e` whose row number read SIGNED equals `R`, of update `(e, q)`; a row number outside
  `[0, N)` lands nowhere and contributes nothing.
-/
import Idealize.ShloMosaic.PureOps.Ideal
import Idealize.ShloMosaic.Lib.ValueIdx

namespace RowScatter

open Idealize.ShloMosaic Idealize.ShloMosaic.ValueIdx

section coords

variable {N n C w : Nat} (d : ScatterDims ⟨2, ![N, C]⟩ ⟨2, ![n, 1]⟩ ⟨2, ![n, C]⟩)

/-- A one-element list of axes read at a position: the position is 0 and the entry is the element. -/
theorem getElem_of_eq_singleton {α : Type} (l : List α) (a : α) (k : Nat) (h : k < l.length) (hl : l = [a]) :
    l[k] = a := by
  subst hl
  obtain rfl : k = 0 := by simpa using h
  rfl

/-- On operand axis 0, the one axis the scatter map names, the start of update `(e, q')` is row number `e` read signed:
    its start index is read at `(e, 0)`, update axis 0 being the one update scatter axis and component 0 sitting on the
    index vector's axis. -/
theorem start_zero (huw : d.updateWindowDims = [1]) (hsd : d.scatterDimsToOperandDims = [0]) (hivd : d.indexVectorDim = 1)
    (idx : IVec ⟨2, ![n, 1]⟩ w) (e : Fin n) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_of_eq_singleton d.uScatter 0 _ _ hus]
    rfl
  | ⟨1, _⟩ =>
    unfold ScatterDims.siIdx
    rw [dif_pos (by rw [hivd])]
    apply Fin.ext
    show List.idxOf (0 : Fin 2) d.scatterDimsToOperandDims = 0
    rw [hsd]; simp

/-- Operand axis 1 is not named by the scatter map: the start there is 0. -/
theorem start_one (hsd : d.scatterDimsToOperandDims = [0]) (idx : IVec ⟨2, ![n, 1]⟩ w) (j : (⟨2, ![n, C]⟩ : Shape).Idx) :
    d.start j idx 1 = 0 := by
  have hm : (1 : Fin 2) ∉ d.scatterDimsToOperandDims := by rw [hsd]; simp
  unfold ScatterDims.start
  rw [dif_neg hm]

/-- Operand axis 0 is inserted: the window coordinate there is 0. -/
theorem window_zero (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]
    intro h
    have := (List.mem_filter.1 h).2
    simp at this
  unfold ScatterDims.window
  rw [dif_neg hk]

/-- Operand axis 1 is the one kept axis and update axis 1 the one window axis: the window coordinate is the update's
    column. -/
theorem window_one (huw : d.updateWindowDims = [1]) (hiw : d.insertedWindowDims = [0]) (e : Fin n) (q' : Fin C) :
    d.window (ix2 e q') 1 = q'.val := by
  have hk : (1 : Fin 2) ∈ d.sKept := by
    show (1 : Fin 2) ∈ Shape.kept _ d.insertedWindowDims
    rw [hiw]
    exact List.mem_filter.2 ⟨List.mem_finRange _, by simp⟩
  unfold ScatterDims.window
  rw [dif_pos hk]
  rw [getElem_of_eq_singleton d.updateWindowDims 1 _ _ huw]
  rfl

end coords

section main

variable {N n C w : Nat} (d : ScatterDims ⟨2, ![N, C]⟩ ⟨2, ![n, 1]⟩ ⟨2, ![n, C]⟩)

/-- WHERE AN UPDATE LANDS. Update `(e, q')` lands at operand entry `(R, q)` exactly when its row number read signed is
    `R` and its column is `q`: the result index is `(row number + 0, 0 + q')`, kept when the row number is in `[0, N)`
    and dropped otherwise. -/
theorem resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q' : Fin C) (R : Fin N) (q : Fin C) :
    d.resultIdx? (ix2 e q') idx = some (ix2 R q) ↔ (idx (ix2 e (0 : Fin 1))).toInt = (R.val : Int) ∧ q' = q := by
  have h0 : d.start (ix2 e q') idx 0 + d.window (ix2 e q') 0 = (idx (ix2 e (0 : Fin 1))).toInt := by
    rw [start_zero d huw hsd hivd, window_zero d hiw]; simp
  have h1 : d.start (ix2 e q') idx 1 + d.window (ix2 e q') 1 = (q'.val : Int) := by
    rw [start_one d hsd, window_one d huw hiw]; simp
  unfold ScatterDims.resultIdx?
  constructor
  · intro h
    split at h
    · rename_i hall
      have hfun := Option.some.inj h
      have e0 : (d.start (ix2 e q') idx 0 + d.window (ix2 e q') 0).toNat = R.val :=
        congrArg (fun f : (⟨2, ![N, C]⟩ : Shape).Idx => (f 0).val) hfun
      have e1 : (d.start (ix2 e q') idx 1 + d.window (ix2 e q') 1).toNat = q.val :=
        congrArg (fun f : (⟨2, ![N, C]⟩ : Shape).Idx => (f 1).val) hfun
      have b0 : 0 ≤ d.start (ix2 e q') idx 0 + d.window (ix2 e q') 0 := (hall 0).1
      rw [h0] at e0 b0
      rw [h1] at e1
      refine ⟨?_, Fin.ext ?_⟩
      · omega
      · omega
    · exact absurd h (by simp)
  · rintro ⟨hR, rfl⟩
    have hall : ∀ a, 0 ≤ d.start (ix2 e q') idx a + d.window (ix2 e q') a ∧
        d.start (ix2 e q') idx a + d.window (ix2 e q') a < (⟨2, ![N, C]⟩ : Shape).size a := by
      intro a
      match a with
      | ⟨0, _⟩ =>
        show 0 ≤ d.start (ix2 e q') idx 0 + d.window (ix2 e q') 0 ∧
          d.start (ix2 e q') idx 0 + d.window (ix2 e q') 0 < ((N : Nat) : Int)
        rw [h0, hR]; have := R.isLt; omega
      | ⟨1, _⟩ =>
        show 0 ≤ d.start (ix2 e q') idx 1 + d.window (ix2 e q') 1 ∧
          d.start (ix2 e q') idx 1 + d.window (ix2 e q') 1 < ((C : Nat) : Int)
        rw [h1]; have := q'.isLt; omega
    rw [dif_pos hall]
    congr 1
    funext a
    match a with
    | ⟨0, _⟩ =>
      apply Fin.ext
      show (d.start (ix2 e q') idx 0 + d.window (ix2 e q') 0).toNat = R.val
      rw [h0, hR]; simp
    | ⟨1, _⟩ =>
      apply Fin.ext
      show (d.start (ix2 e q') idx 1 + d.window (ix2 e q') 1).toNat = q'.val
      rw [h1]; simp

end main

/-- THE ROW SCATTER-ADD READ AT `(R, q)`. `d` is any record of scatter dimension numbers over an operand `[N, C]`,
    indices `[n, 1]` and updates `[n, C]` whose lists are the row-add's (each hypothesis holds by `rfl` for a printed
    record): update window axes `[1]`, inserted window axes `[0]`, scatter axes to operand axes `[0]`, index vector on
    axis 1. -/
theorem rowScatterAdd_apply {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (R : Fin N) (q : Fin C) :
    Ideal.hostScatterAdd d x idx upd (ix2 R q)
      = x (ix2 R q) + ∑ e ∈ Finset.univ.filter (fun e : Fin n => (idx (ix2 e (0 : Fin 1))).toInt = (R.val : Int)),
          upd (ix2 e q) := by
  unfold Ideal.hostScatterAdd
  congr 1
  -- the updates that land at `(R, q)` are `(e, q)` for the rows `e` whose row number is `R`: re-index along `e ↦ (e, q)`
  refine Finset.sum_nbij' (fun j : (⟨2, ![n, C]⟩ : Shape).Idx => (j 0 : Fin n)) (fun e => ix2 e q) ?_ ?_ ?_ ?_ ?_
  · intro j hj
    obtain ⟨a, b, rfl⟩ : ∃ a b, j = ix2 a b := ⟨j 0, j 1, eq_ix2 j⟩
    have hl := (Finset.mem_filter.1 hj).2
    exact Finset.mem_filter.2
      ⟨Finset.mem_univ _, ((resultIdx?_eq_some_iff d huw hiw hsd hivd idx a b R q).1 hl).1⟩
  · intro e he
    have hr := (Finset.mem_filter.1 he).2
    exact Finset.mem_filter.2
      ⟨Finset.mem_univ _, (resultIdx?_eq_some_iff d huw hiw hsd hivd idx e q R q).2 ⟨hr, rfl⟩⟩
  · intro j hj
    obtain ⟨a, b, rfl⟩ : ∃ a b, j = ix2 a b := ⟨j 0, j 1, eq_ix2 j⟩
    have hl := (Finset.mem_filter.1 hj).2
    obtain rfl := ((resultIdx?_eq_some_iff d huw hiw hsd hivd idx a b R q).1 hl).2
    rfl
  · intro e _
    rfl
  · intro j hj
    obtain ⟨a, b, rfl⟩ : ∃ a b, j = ix2 a b := ⟨j 0, j 1, eq_ix2 j⟩
    have hl := (Finset.mem_filter.1 hj).2
    obtain rfl := ((resultIdx?_eq_some_iff d huw hiw hsd hivd idx a b R q).1 hl).2
    rfl

end RowScatter
-- ==== Proof.LibConcatSum.lean ====
/-
  Two counting facts about a table built by scatter-adding several lists that were shifted apart and laid end to end.

  The index set of the long list splits as (which list, position in it). If the test that selects the entries of the long
  list which land in one row holds exactly for the entries of ONE list that pass that list's own test, then the sum over the
  selected entries of the long list is the sum over the selected entries of that one list: the other lists contribute
  nothing. And a 32-bit word in `[0, 2^31)` plus another one, the two adding up to less than `2^31`, reads signed as the sum
  of the two signed readings: no wrap-around.
-/
import Mathlib.Data.Fintype.BigOperators
import Mathlib.Algebra.BigOperators.Group.Finset.Basic
import Mathlib.Logic.Equiv.Fin.Basic

namespace ConcatSum

/-- THE SUM OVER THE SELECTED ENTRIES OF THE LONG LIST IS THE SUM OVER ONE LIST'S. `p` pairs (list, position) with the
    long list's positions; `P` selects in the long list, `Q` in list `s`; `h` says an entry of the long list is selected
    exactly when it comes from list `s` and is selected there. -/
theorem sum_filter_of_split {ι σ κ M : Type} [Fintype ι] [Fintype σ] [Fintype κ] [DecidableEq σ] [AddCommMonoid M]
    (p : σ × κ ≃ ι) (P : ι → Prop) [DecidablePred P] (Q : κ → Prop) [DecidablePred Q] (s : σ)
    (h : ∀ s' e', P (p (s', e')) ↔ s' = s ∧ Q e') (g : ι → M) :
    ∑ e ∈ Finset.univ.filter P, g e = ∑ e' ∈ Finset.univ.filter Q, g (p (s, e')) := by
  rw [Finset.sum_filter, Finset.sum_filter, ← Equiv.sum_comp p, Fintype.sum_prod_type, Fintype.sum_eq_single s]
  · refine Finset.sum_congr rfl fun e' _ => ?_
    by_cases hq : Q e'
    · rw [if_pos hq, if_pos ((h s e').2 ⟨rfl, hq⟩)]
    · rw [if_neg hq, if_neg fun hp => hq ((h s e').1 hp).2]
  · intro s' hs'
    refine Finset.sum_eq_zero fun e' _ => ?_
    rw [if_neg fun hp => hs' ((h s' e').1 hp).1]

/-- Two 32-bit words that read signed as non-negative numbers adding up to less than `2^31`: their sum reads as the sum. -/
theorem toInt_add_of_small (x y : BitVec 32) (hx : 0 ≤ x.toInt) (hy : 0 ≤ y.toInt) (h : x.toInt + y.toInt < 2147483648) :
    (x + y).toInt = x.toInt + y.toInt := by
  rw [BitVec.toInt_add]
  exact Int.bmod_eq_of_le_mul_two (by omega) (by omega)

/-- Positions of six lists of `1048576` entries laid end to end: entry `e` of list `s` sits at `1048576 s + e`. -/
def split6 : Fin 6 × Fin 1048576 ≃ Fin 6291456 where
  toFun q := ⟨1048576 * q.1.val + q.2.val, by have := q.1.isLt; have := q.2.isLt; omega⟩
  invFun x := (⟨x.val / 1048576, by have := x.isLt; omega⟩, ⟨x.val % 1048576, by omega⟩)
  left_inv q := by
    have h1 := q.1.isLt; have h2 := q.2.isLt
    refine Prod.ext (Fin.ext ?_) (Fin.ext ?_)
    · show (1048576 * q.1.val + q.2.val) / 1048576 = q.1.val; omega
    · show (1048576 * q.1.val + q.2.val) % 1048576 = q.2.val; omega
  right_inv x := by
    refine Fin.ext ?_
    show 1048576 * (x.val / 1048576) + x.val % 1048576 = x.val; omega

theorem split6_val (s : Fin 6) (e : Fin 1048576) : (split6 (s, e)).val = 1048576 * s.val + e.val := rfl

end ConcatSum
-- ==== Proof.KIHostAgg.lean ====
/-
  The packed aggregates the region reads, at an entry. The host adds `65536 s` to the row words of incidence list `s`
  (`s = 0 … 5`), concatenates the six lists, and scatter-adds `vals e` times the gathered relation row into one table
  of `6 · 65536` rows. When every row word lies in `[0, 65536)` the shifted words of list `s` land exactly in rows
  `65536 s … 65536 s + 65535`, so row `65536 s + i` of the table is the sum over the edges of list `s` alone whose row word
  is `i`: the specification's `agg` of that list. The six slabs are then packed two by two.
-/
import proofs.«402564_j1056561954978_2_alg».proof.Proof.KIDefs
import proofs.«402564_j1056561954978_2_alg».proof.Proof.KIArgs
import proofs.«402564_j1056561954978_2_alg».proof.Proof.Spec
import proofs.«402564_j1056561954978_2_alg».proof.Proof.LibRowGather
import proofs.«402564_j1056561954978_2_alg».proof.Proof.LibRowScatter
import proofs.«402564_j1056561954978_2_alg».proof.Proof.LibConcatSum
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

namespace Agg

/-! ## The table the host builds, over the argument arrays -/

/-- Six arrays of `1048576` entries laid end to end. -/
def cat6 {α : Type} (x0 x1 x2 x3 x4 x5 : S1048576.Idx → α) : S6291456.Idx → α :=
  concatenate S6291456 0 [⟨S1048576, x0⟩, ⟨S1048576, x1⟩, ⟨S1048576, x2⟩, ⟨S1048576, x3⟩, ⟨S1048576, x4⟩, ⟨S1048576, x5⟩]
    concatenates_S1048576_S1048576_S1048576_S1048576_S1048576_S1048576_S6291456_d0

/-- A list's row words, each shifted by one constant. -/
def shiftRows (r : IVec S1048576 32) (k : BitVec 32) : IVec S1048576 32 :=
  addi r (broadcastInDim S1048576 ![] bcast_S_S1048576 (constantI S_ 32 k))

/-- The column words, each wrapped once by the relation table's height if negative, as a column. -/
def wrapCol (cols : IVec S6291456 32) : IVec S6291456x1 32 :=
  broadcastInDim S6291456x1 ![0] bcast_S6291456_S6291456x1_0
    (select (cmpi .slt cols (broadcastInDim S6291456 ![] bcast_S_S6291456 (constantI S_ 32 0#32)))
      (addi cols (broadcastInDim S6291456 ![] bcast_S_S6291456 (constantI S_ 32 1315#32))) cols)

/-- The update rows: each edge's value times the relation row its column word selects. -/
def updRows (vals : FVec Ideal S6291456 .f32) (cols : IVec S6291456 32) (rel : FVec Ideal S1315x32 .f32) :
    FVec Ideal S6291456x32 .f32 :=
  mulf (broadcastInDim S6291456x32 ![0, 1] bcast_S6291456x1_S6291456x32_0_1
      (broadcastInDim S6291456x1 ![0] bcast_S6291456_S6291456x1_0 vals))
    (Host.gather gather_S1315x32_S6291456x1_S6291456x32_1_0_n_n_0_1_132 rel (wrapCol cols))

/-- The update rows scatter-added into a zero table of `6 · 65536` rows by the row words. -/
def aggTable (rows : IVec S6291456 32) (upd : FVec Ideal S6291456x32 .f32) : FVec Ideal S393216x32 .f32 :=
  Host.scatterAdd (F := Ideal) scatter_S393216x32_S6291456x1_S6291456x32_1_0_0_1
    (broadcastInDim S393216x32 ![] bcast_S_S393216x32 (constant (F := Ideal) S_ .f32 0x00000000#32))
    (broadcastInDim S6291456x1 ![0] bcast_S6291456_S6291456x1_0 rows) upd

/-- The host's table over an argument bundle: list `s`'s row words shifted by `65536 s`. -/
def hostTable (a : Cert.Spec.Args) : FVec Ideal S393216x32 .f32 :=
  aggTable
    (cat6 (shiftRows a.hInRows 0#32) (shiftRows a.hOutRows 65536#32) (shiftRows a.pInRows 131072#32)
      (shiftRows a.pOutRows 196608#32) (shiftRows a.nInRows 262144#32) (shiftRows a.nOutRows 327680#32))
    (updRows (cat6 a.hInVals a.hOutVals a.pInVals a.pOutVals a.nInVals a.nOutVals)
      (cat6 a.hInCols a.hOutCols a.pInCols a.pOutCols a.nInCols a.nOutCols) a.rel)

/-- Slab `s` of the table: rows `65536 s … 65536 s + 65535`, as the host operations cut it out. -/
def slab (T : FVec Ideal S393216x32 .f32) (s : Nat) (h : S6x65536x32.Slices ![s, 0, 0] S1x65536x32) :
    FVec Ideal S65536x32 .f32 :=
  shapeCast S65536x32 (extractStridedSlice S1x65536x32 ![s, 0, 0]
    (shapeCast S6x65536x32 T shapeCasts_S393216x32_S6x65536x32) h) shapeCasts_S1x65536x32_S65536x32

/-- Two 32-column arrays side by side. -/
def pack {α : Type} (x y : S65536x32.Idx → α) : S65536x64.Idx → α :=
  concatenate S65536x64 1 [⟨S65536x32, x⟩, ⟨S65536x32, y⟩] concatenates_S65536x32_S65536x32_S65536x64_d1

/-! ## The table's pieces at an index -/

/-- One of six things, by its number. -/
def pick6 {β : Type} (x0 x1 x2 x3 x4 x5 : β) : Fin 6 → β
  | ⟨0, _⟩ => x0
  | ⟨1, _⟩ => x1
  | ⟨2, _⟩ => x2
  | ⟨3, _⟩ => x3
  | ⟨4, _⟩ => x4
  | ⟨5, _⟩ => x5
  | ⟨_ + 6, h⟩ => absurd h (Nat.not_lt.2 (Nat.le_add_left _ _))

/-- Six arrays laid end to end, read at position `1048576 s + e`: array `s` at `e`. -/
theorem cat6_apply {α : Type} (x0 x1 x2 x3 x4 x5 : S1048576.Idx → α) (s : Fin 6) (e : Fin 1048576) :
    cat6 x0 x1 x2 x3 x4 x5 (ix1 (ConcatSum.split6 (s, e))) = pick6 x0 x1 x2 x3 x4 x5 s (ix1 e) := by
  unfold cat6
  have hi : ∀ b : Fin S1048576.rank, b.cast (rfl : S1048576.rank = S6291456.rank) ≠ (0 : Fin S6291456.rank) →
      ((ix1 e : S1048576.Idx) b).val = ((ix1 (ConcatSum.split6 (s, e)) : S6291456.Idx) (b.cast rfl)).val :=
    fun b hb => absurd (Subsingleton.elim _ _) hb
  match s with
  | ⟨0, _⟩ =>
    exact concatenate_apply_piece (0 : Fin S6291456.rank) _ _ _ 0 (by simp) S1048576 x0 rfl rfl 0 (by simp) (ix1 e) hi
      (by show 0 + e.val = 1048576 * 0 + e.val; omega)
  | ⟨1, _⟩ =>
    exact concatenate_apply_piece (0 : Fin S6291456.rank) _ _ _ 1 (by simp) S1048576 x1 rfl rfl 1048576 (by simp) (ix1 e) hi
      (by show 1048576 + e.val = 1048576 * 1 + e.val; omega)
  | ⟨2, _⟩ =>
    exact concatenate_apply_piece (0 : Fin S6291456.rank) _ _ _ 2 (by simp) S1048576 x2 rfl rfl 2097152 (by simp) (ix1 e) hi
      (by show 2097152 + e.val = 1048576 * 2 + e.val; omega)
  | ⟨3, _⟩ =>
    exact concatenate_apply_piece (0 : Fin S6291456.rank) _ _ _ 3 (by simp) S1048576 x3 rfl rfl 3145728 (by simp) (ix1 e) hi
      (by show 3145728 + e.val = 1048576 * 3 + e.val; omega)
  | ⟨4, _⟩ =>
    exact concatenate_apply_piece (0 : Fin S6291456.rank) _ _ _ 4 (by simp) S1048576 x4 rfl rfl 4194304 (by simp) (ix1 e) hi
      (by show 4194304 + e.val = 1048576 * 4 + e.val; omega)
  | ⟨5, _⟩ =>
    exact concatenate_apply_piece (0 : Fin S6291456.rank) _ _ _ 5 (by simp) S1048576 x5 rfl rfl 5242880 (by simp) (ix1 e) hi
      (by show 5242880 + e.val = 1048576 * 5 + e.val; omega)
  | ⟨_ + 6, h⟩ => exact absurd h (Nat.not_lt.2 (Nat.le_add_left _ _))

/-- A shifted row word is the word plus the constant. -/
theorem shiftRows_apply (r : IVec S1048576 32) (k : BitVec 32) (i : S1048576.Idx) : shiftRows r k i = r i + k := rfl

/-- A column of a vector reads the vector. -/
theorem col_apply {α : Type} (x : S6291456.Idx → α) (e : Fin 6291456) :
    broadcastInDim S6291456x1 ![0] bcast_S6291456_S6291456x1_0 x (ix2 e (0 : Fin 1)) = x (ix1 e) :=
  broadcastInDim_apply _ bcast_S6291456_S6291456x1_0 x (ix2 e (0 : Fin 1)) (ix1 e) (fun a => match a with
    | ⟨0, _⟩ => by show e.val = if (6291456 : Nat) = 1 then 0 else e.val; rw [if_neg (by decide)])

/-- The wrapped column words at an edge: the specification's wrap of the column word. -/
theorem wrapCol_apply (cols : IVec S6291456 32) (e : Fin 6291456) :
    wrapCol cols (ix2 e (0 : Fin 1)) = Cert.Spec.wrap (cols (ix1 e)) := by
  unfold wrapCol
  rw [col_apply]
  rfl

/-- An update row at `(e, j)`: the edge's value times the relation row its column word selects, at `j`. -/
theorem updRows_apply (vals : FVec Ideal S6291456 .f32) (cols : IVec S6291456 32) (rel : FVec Ideal S1315x32 .f32)
    (e : Fin 6291456) (j : Fin 32) :
    updRows vals cols rel (ix2 e j) = vals (ix1 e) * rel (ix2 (Cert.Spec.rowOf (cols (ix1 e))) j) := by
  unfold updRows
  rw [mulf_apply]
  have hv : broadcastInDim S6291456x32 ![0, 1] bcast_S6291456x1_S6291456x32_0_1
      (broadcastInDim S6291456x1 ![0] bcast_S6291456_S6291456x1_0 vals) (ix2 e j) = vals (ix1 e) :=
    (broadcastInDim_apply _ bcast_S6291456x1_S6291456x32_0_1 _ (ix2 e j) (ix2 e (0 : Fin 1)) (fun a => match a with
      | ⟨0, _⟩ => by show e.val = if (6291456 : Nat) = 1 then 0 else e.val; rw [if_neg (by decide)]
      | ⟨1, _⟩ => by show 0 = if (1 : Nat) = 1 then 0 else j.val; rw [if_pos rfl])).trans (col_apply vals e)
  rw [hv, RowGather.rowGather_apply gather_S1315x32_S6291456x1_S6291456x32_1_0_n_n_0_1_132 rfl rfl rfl rfl rfl rel _ e j (by decide)]
  have hrow : (⟨min (wrapCol cols (ix2 e (0 : Fin 1))).toInt.toNat (1315 - 1), by omega⟩ : Fin 1315)
      = Cert.Spec.rowOf (cols (ix1 e)) :=
    Fin.ext (congrArg (fun w : BitVec 32 => min w.toInt.toNat (1315 - 1)) (wrapCol_apply cols e))
  rw [hrow]

/-- Over the extended reals the host's accumulating scatter is the exact-sum scatter. -/
theorem scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The table at `(R, j)`: the sum over the edges whose row word reads `R` of the update rows at `j`. -/
theorem aggTable_apply (rows : IVec S6291456 32) (upd : FVec Ideal S6291456x32 .f32) (R : Fin 393216) (j : Fin 32) :
    aggTable rows upd (ix2 R j)
      = ∑ e ∈ Finset.univ.filter (fun e : Fin 6291456 => (rows (ix1 e)).toInt = (R.val : Int)), upd (ix2 e j) := by
  unfold aggTable
  rw [scatterAdd_eq, RowScatter.rowScatterAdd_apply scatter_S393216x32_S6291456x1_S6291456x32_1_0_0_1 rfl rfl rfl rfl _ _ upd R j]
  have hz : broadcastInDim S393216x32 ![] bcast_S_S393216x32 (constant (F := Ideal) S_ .f32 0x00000000#32) (ix2 R j) = 0 := by
    show Ideal.ofBits .f32 0x00000000#32 = 0
    exact Ideal.ofBits_zero_f32
  rw [hz, zero_add]
  refine Finset.sum_congr (Finset.filter_congr fun e _ => ?_) fun _ _ => rfl
  rw [col_apply]

/-- Slab `s` at `(i, j)`: the table at row `65536 s + i`. -/
theorem slab_apply (T : FVec Ideal S393216x32 .f32) (s : Nat) (hs : s < 6) (h : S6x65536x32.Slices ![s, 0, 0] S1x65536x32)
    (i : Fin 65536) (j : Fin 32) :
    slab T s h (ix2 i j) = T (ix2 ⟨65536 * s + i.val, by have := i.isLt; omega⟩ j) := by
  unfold slab
  refine (shapeCast_1ab_ab_apply _ shapeCasts_S1x65536x32_S65536x32 i j).trans ?_
  refine (extractStridedSlice_apply _ _ h (ix3 (0 : Fin 1) i j) (ix3 (⟨s, hs⟩ : Fin 6) i j) (fun a => match a with
    | ⟨0, _⟩ => by show s = s + 0; omega
    | ⟨1, _⟩ => by show i.val = 0 + i.val; omega
    | ⟨2, _⟩ => by show j.val = 0 + j.val; omega)).trans ?_
  refine shapeCast_apply T shapeCasts_S393216x32_S6x65536x32 (ix3 (⟨s, hs⟩ : Fin 6) i j)
    (ix2 ⟨65536 * s + i.val, by have := i.isLt; omega⟩ j) ?_
  rw [Shape.rowMajor_val_two, Shape.rowMajor_val_three]
  show (65536 * s + i.val) * 32 + j.val = (s * 65536 + i.val) * 32 + j.val
  omega

/-- The left half of a packed pair. -/
theorem pack_lo {α : Type} (x y : S65536x32.Idx → α) (i : Fin 65536) (j : Fin 32) :
    pack x y (ix2 i (Cert.Spec.lo64 j)) = x (ix2 i j) := by
  unfold pack
  exact concatenate_pair_apply_left (1 : Fin S65536x64.rank) x y concatenates_S65536x32_S65536x32_S65536x64_d1
    (ix2 i (Cert.Spec.lo64 j)) rfl (ix2 i j) (fun b => match b with
      | ⟨0, _⟩ => rfl
      | ⟨1, _⟩ => rfl)

/-- The right half of a packed pair. -/
theorem pack_hi {α : Type} (x y : S65536x32.Idx → α) (i : Fin 65536) (j : Fin 32) :
    pack x y (ix2 i (Cert.Spec.hi64 j)) = y (ix2 i j) := by
  unfold pack
  exact concatenate_pair_apply_right (1 : Fin S65536x64.rank) x y concatenates_S65536x32_S65536x32_S65536x64_d1
    (ix2 i (Cert.Spec.hi64 j)) rfl rfl (ix2 i j) (fun b => match b with
      | ⟨0, _⟩ => fun _ => rfl
      | ⟨1, _⟩ => fun hb => absurd rfl hb)
    (by show j.val + 32 = 32 + j.val; omega)

/-! ## One list's slab is that list's aggregate -/

/-- The row words, the column words and the values of list `s` of an argument bundle. -/
def rowsOf (a : Cert.Spec.Args) : Fin 6 → IVec S1048576 32 :=
  pick6 a.hInRows a.hOutRows a.pInRows a.pOutRows a.nInRows a.nOutRows
def colsOf (a : Cert.Spec.Args) : Fin 6 → IVec S1048576 32 :=
  pick6 a.hInCols a.hOutCols a.pInCols a.pOutCols a.nInCols a.nOutCols
def valsOf (a : Cert.Spec.Args) : Fin 6 → FVec Ideal S1048576 .f32 :=
  pick6 a.hInVals a.hOutVals a.pInVals a.pOutVals a.nInVals a.nOutVals

/-- Every row word of every list names an entity. -/
theorem rowsOf_range (a : Cert.Spec.Args) (hrows : a.RowsInRange) (s : Fin 6) (e : S1048576.Idx) :
    0 ≤ (rowsOf a s e).toInt ∧ (rowsOf a s e).toInt < 65536 :=
  match s with
  | ⟨0, _⟩ => (hrows e).1
  | ⟨1, _⟩ => (hrows e).2.1
  | ⟨2, _⟩ => (hrows e).2.2.1
  | ⟨3, _⟩ => (hrows e).2.2.2.1
  | ⟨4, _⟩ => (hrows e).2.2.2.2.1
  | ⟨5, _⟩ => (hrows e).2.2.2.2.2
  | ⟨_ + 6, h⟩ => absurd h (Nat.not_lt.2 (Nat.le_add_left _ _))

/-- A word in `[0, 2^31)` plus a small constant reads signed as the sum. -/
theorem toInt_add_ofNat (x : BitVec 32) (k : Nat) (hx : 0 ≤ x.toInt) (h : x.toInt + (k : Int) < 2147483648) :
    (x + BitVec.ofNat 32 k).toInt = x.toInt + (k : Int) := by
  have hk : (BitVec.ofNat 32 k).toInt = (k : Int) := by
    rw [BitVec.toInt_ofNat']
    exact Int.bmod_eq_of_le_mul_two (by omega) (by omega)
  rw [ConcatSum.toInt_add_of_small x _ hx (by rw [hk]; omega) (by rw [hk]; exact h), hk]

/-- The shifted row word of list `s` reads signed as the row word's reading plus `65536 s`: the sum stays below `2^31`. -/
theorem shifted_toInt (a : Cert.Spec.Args) (hrows : a.RowsInRange) (s : Fin 6) (e : Fin 1048576) :
    (cat6 (shiftRows a.hInRows 0#32) (shiftRows a.hOutRows 65536#32) (shiftRows a.pInRows 131072#32)
        (shiftRows a.pOutRows 196608#32) (shiftRows a.nInRows 262144#32) (shiftRows a.nOutRows 327680#32)
        (ix1 (ConcatSum.split6 (s, e)))).toInt
      = (rowsOf a s (ix1 e)).toInt + 65536 * (s.val : Int) := by
  rw [cat6_apply]
  match s with
  | ⟨0, _⟩ =>
    have hb : 0 ≤ (a.hInRows (ix1 e)).toInt ∧ (a.hInRows (ix1 e)).toInt < 65536 := (hrows (ix1 e)).1
    show (a.hInRows (ix1 e) + 0#32).toInt = (a.hInRows (ix1 e)).toInt + 65536 * ((0 : Nat) : Int)
    have h := toInt_add_ofNat (a.hInRows (ix1 e)) 0 hb.1 (by have := hb.2; omega)
    omega
  | ⟨1, _⟩ =>
    have hb : 0 ≤ (a.hOutRows (ix1 e)).toInt ∧ (a.hOutRows (ix1 e)).toInt < 65536 := (hrows (ix1 e)).2.1
    show (a.hOutRows (ix1 e) + 65536#32).toInt = (a.hOutRows (ix1 e)).toInt + 65536 * ((1 : Nat) : Int)
    have h := toInt_add_ofNat (a.hOutRows (ix1 e)) 65536 hb.1 (by have := hb.2; omega)
    omega
  | ⟨2, _⟩ =>
    have hb : 0 ≤ (a.pInRows (ix1 e)).toInt ∧ (a.pInRows (ix1 e)).toInt < 65536 := (hrows (ix1 e)).2.2.1
    show (a.pInRows (ix1 e) + 131072#32).toInt = (a.pInRows (ix1 e)).toInt + 65536 * ((2 : Nat) : Int)
    have h := toInt_add_ofNat (a.pInRows (ix1 e)) 131072 hb.1 (by have := hb.2; omega)
    omega
  | ⟨3, _⟩ =>
    have hb : 0 ≤ (a.pOutRows (ix1 e)).toInt ∧ (a.pOutRows (ix1 e)).toInt < 65536 := (hrows (ix1 e)).2.2.2.1
    show (a.pOutRows (ix1 e) + 196608#32).toInt = (a.pOutRows (ix1 e)).toInt + 65536 * ((3 : Nat) : Int)
    have h := toInt_add_ofNat (a.pOutRows (ix1 e)) 196608 hb.1 (by have := hb.2; omega)
    omega
  | ⟨4, _⟩ =>
    have hb : 0 ≤ (a.nInRows (ix1 e)).toInt ∧ (a.nInRows (ix1 e)).toInt < 65536 := (hrows (ix1 e)).2.2.2.2.1
    show (a.nInRows (ix1 e) + 262144#32).toInt = (a.nInRows (ix1 e)).toInt + 65536 * ((4 : Nat) : Int)
    have h := toInt_add_ofNat (a.nInRows (ix1 e)) 262144 hb.1 (by have := hb.2; omega)
    omega
  | ⟨5, _⟩ =>
    have hb : 0 ≤ (a.nOutRows (ix1 e)).toInt ∧ (a.nOutRows (ix1 e)).toInt < 65536 := (hrows (ix1 e)).2.2.2.2.2
    show (a.nOutRows (ix1 e) + 327680#32).toInt = (a.nOutRows (ix1 e)).toInt + 65536 * ((5 : Nat) : Int)
    have h := toInt_add_ofNat (a.nOutRows (ix1 e)) 327680 hb.1 (by have := hb.2; omega)
    omega
  | ⟨_ + 6, h⟩ => exact absurd h (Nat.not_lt.2 (Nat.le_add_left _ _))

/-- THE TABLE AT ROW `65536 s + i` IS LIST `s`'S AGGREGATE AT ENTITY `i`. The shifted row words of list `s'` read
    `65536 s' + (a number in [0, 65536))`, so they hit row `65536 s + i` exactly when `s' = s` and the row word reads `i`:
    the sum over the long list collapses to list `s`; there each update is the edge's value times the relation row its
    column word selects. -/
theorem hostTable_apply (a : Cert.Spec.Args) (hrows : a.RowsInRange) (s : Fin 6) (i : Fin 65536) (j : Fin 32)
    (R : Fin 393216) (hR : R.val = 65536 * s.val + i.val) :
    hostTable a (ix2 R j)
      = Cert.Spec.agg (fun e => rowsOf a s (ix1 e)) (fun e => colsOf a s (ix1 e)) (fun e => valsOf a s (ix1 e))
          a.params.rel i j := by
  unfold hostTable Cert.Spec.agg
  rw [aggTable_apply]
  refine (ConcatSum.sum_filter_of_split ConcatSum.split6 _
    (fun e' : Fin 1048576 => (rowsOf a s (ix1 e')).toInt = (i.val : Int)) s (fun s' e' => ?_) _).trans ?_
  · rw [shifted_toInt a hrows s' e']
    have hb := rowsOf_range a hrows s' (ix1 e')
    have hs' := s'.isLt; have hs := s.isLt; have hi := i.isLt
    constructor
    · intro h
      have hss : s' = s := Fin.ext (by omega)
      subst hss
      exact ⟨rfl, by omega⟩
    · rintro ⟨rfl, h⟩
      omega
  · refine Finset.sum_congr rfl fun e' _ => ?_
    rw [updRows_apply, cat6_apply, cat6_apply]
    rfl

/-! ## The host equations -/

/-- The six-piece concatenation the host operations spell out is `cat6` of the pieces. -/
theorem cat6_fold {α : Type} (x0 x1 x2 x3 x4 x5 : S1048576.Idx → α)
    (h : Shape.Concatenates [S1048576, S1048576, S1048576, S1048576, S1048576, S1048576] S6291456 0) :
    concatenate S6291456 0 [⟨S1048576, x0⟩, ⟨S1048576, x1⟩, ⟨S1048576, x2⟩, ⟨S1048576, x3⟩, ⟨S1048576, x4⟩, ⟨S1048576, x5⟩] h
      = cat6 x0 x1 x2 x3 x4 x5 := rfl

/-- The two-piece concatenation along the columns is `pack` of the pieces. -/
theorem pack_fold {α : Type} (x y : S65536x32.Idx → α) (h : Shape.Concatenates [S65536x32, S65536x32] S65536x64 1) :
    concatenate S65536x64 1 [⟨S65536x32, x⟩, ⟨S65536x32, y⟩] h = pack x y := rfl

/-- One buffer's contents after the host operations: each operation leaves at its own buffer its function of its operands'
    contents and every other buffer as it was; a concatenation is a function of its pieces, and an operand of an operation
    over a family of references is read at its own reference. -/
macro "agg_host_results" : tactic =>
  `(tactic| (simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne',
      Matrix.cons_val, Matrix.cons_val_zero, Matrix.cons_val_one, cat6_fold, pack_fold]))

set_option maxHeartbeats 40000000 in
/-- The three packed arrays the region reads are the six slabs of the host's table, two by two. -/
theorem e_packs :
    (Fr.V m c main_v41 : S65536x64.Idx → EReal)
        = pack (slab (hostTable (args m c)) 0 slices_S6x65536x32_S1x65536x32_0_0_0)
            (slab (hostTable (args m c)) 1 slices_S6x65536x32_S1x65536x32_1_0_0)
      ∧ (Fr.V m c main_v42 : S65536x64.Idx → EReal)
        = pack (slab (hostTable (args m c)) 2 slices_S6x65536x32_S1x65536x32_2_0_0)
            (slab (hostTable (args m c)) 3 slices_S6x65536x32_S1x65536x32_3_0_0)
      ∧ (Fr.V m c main_v43 : S65536x64.Idx → EReal)
        = pack (slab (hostTable (args m c)) 4 slices_S6x65536x32_S1x65536x32_4_0_0)
            (slab (hostTable (args m c)) 5 slices_S6x65536x32_S1x65536x32_5_0_0) := by
  unfold slab hostTable aggTable updRows wrapCol shiftRows
  dsimp only [Fr.V, Gen.hostOps0]
  agg_host_results
  exact ⟨rfl, rfl, rfl⟩

end Agg

open Agg

/-! ## The packed aggregates at an entry -/

theorem V_aggH_in (hrows : (args m c).RowsInRange) (i : Fin 65536) (j : Fin 32) :
    (Fr.V m c main_v41 : S65536x64.Idx → EReal) (ix2 i (Cert.Spec.lo64 j))
      = Cert.Spec.agg (args m c).head.inRows (args m c).head.inCols (args m c).head.inVals (args m c).params.rel i j := by
  rw [(e_packs m c).1, pack_lo, slab_apply _ 0 (by decide)]
  exact hostTable_apply (args m c) hrows 0 i j _ rfl

theorem V_aggH_out (hrows : (args m c).RowsInRange) (i : Fin 65536) (j : Fin 32) :
    (Fr.V m c main_v41 : S65536x64.Idx → EReal) (ix2 i (Cert.Spec.hi64 j))
      = Cert.Spec.agg (args m c).head.outRows (args m c).head.outCols (args m c).head.outVals (args m c).params.rel i j := by
  rw [(e_packs m c).1, pack_hi, slab_apply _ 1 (by decide)]
  exact hostTable_apply (args m c) hrows 1 i j _ rfl

theorem V_aggP_in (hrows : (args m c).RowsInRange) (i : Fin 65536) (j : Fin 32) :
    (Fr.V m c main_v42 : S65536x64.Idx → EReal) (ix2 i (Cert.Spec.lo64 j))
      = Cert.Spec.agg (args m c).posTail.inRows (args m c).posTail.inCols (args m c).posTail.inVals (args m c).params.rel i j := by
  rw [(e_packs m c).2.1, pack_lo, slab_apply _ 2 (by decide)]
  exact hostTable_apply (args m c) hrows 2 i j _ rfl

theorem V_aggP_out (hrows : (args m c).RowsInRange) (i : Fin 65536) (j : Fin 32) :
    (Fr.V m c main_v42 : S65536x64.Idx → EReal) (ix2 i (Cert.Spec.hi64 j))
      = Cert.Spec.agg (args m c).posTail.outRows (args m c).posTail.outCols (args m c).posTail.outVals (args m c).params.rel i j := by
  rw [(e_packs m c).2.1, pack_hi, slab_apply _ 3 (by decide)]
  exact hostTable_apply (args m c) hrows 3 i j _ rfl

theorem V_aggN_in (hrows : (args m c).RowsInRange) (i : Fin 65536) (j : Fin 32) :
    (Fr.V m c main_v43 : S65536x64.Idx → EReal) (ix2 i (Cert.Spec.lo64 j))
      = Cert.Spec.agg (args m c).negTail.inRows (args m c).negTail.inCols (args m c).negTail.inVals (args m c).params.rel i j := by
  rw [(e_packs m c).2.2, pack_lo, slab_apply _ 4 (by decide)]
  exact hostTable_apply (args m c) hrows 4 i j _ rfl

theorem V_aggN_out (hrows : (args m c).RowsInRange) (i : Fin 65536) (j : Fin 32) :
    (Fr.V m c main_v43 : S65536x64.Idx → EReal) (ix2 i (Cert.Spec.hi64 j))
      = Cert.Spec.agg (args m c).negTail.outRows (args m c).negTail.outCols (args m c).negTail.outVals (args m c).params.rel i j := by
  rw [(e_packs m c).2.2, pack_hi, slab_apply _ 5 (by decide)]
  exact hostTable_apply (args m c) hrows 5 i j _ rfl

end Cert.KernelIdeal.Val

end
-- ==== Proof.KIHostW.lean ====
/-
  The small arrays the region reads, at an entry: each weight block is a transpose (and, for the wide layer, a column
  range) of an argument, a bf16 rounding being the identity over the extended reals; each bias block is the argument
  reshaped to one row; and the relation block is the normalised relation table gathered by the relation words, which at
  an entry is the specification's `relEmb`.
-/
import proofs.«402564_j1056561954978_2_alg».proof.Proof.KIDefs
import proofs.«402564_j1056561954978_2_alg».proof.Proof.KIArgs
import proofs.«402564_j1056561954978_2_alg».proof.Proof.Spec
import proofs.«402564_j1056561954978_2_alg».proof.Proof.LibRowGather
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The eight weight and bias blocks: what the host operations wrote, over the argument arrays -/

set_option maxHeartbeats 40000000 in
theorem e_win : (Fr.V m c main_v65 : S32x32.Idx → EReal)
    = (truncf (F := Ideal) .bf16 (transpose S32x32 [1, 0] (m ((c.tc : Thread nD τ).loc main_arg23) : S32x32.Idx → EReal)
        transposes_S32x32_S32x32_1_0) bitsLt_bf16_f32 : S32x32.Idx → EReal) := by
  dsimp only [Fr.V, Gen.hostOps0]
  after_results_simp

set_option maxHeartbeats 40000000 in
theorem e_wout : (Fr.V m c main_v67 : S32x32.Idx → EReal)
    = (truncf (F := Ideal) .bf16 (transpose S32x32 [1, 0] (m ((c.tc : Thread nD τ).loc main_arg25) : S32x32.Idx → EReal)
        transposes_S32x32_S32x32_1_0) bitsLt_bf16_f32 : S32x32.Idx → EReal) := by
  dsimp only [Fr.V, Gen.hostOps0]
  after_results_simp

set_option maxHeartbeats 40000000 in
theorem e_wef : (Fr.V m c main_v70 : S768x32.Idx → EReal)
    = (truncf (F := Ideal) .bf16 (transpose S768x32 [1, 0]
        (extractStridedSlice S32x768 ![0, 0] (m ((c.tc : Thread nD τ).loc main_arg27) : S32x832.Idx → EReal) slices_S32x832_S32x768_0_0)
        transposes_S32x768_S768x32_1_0) bitsLt_bf16_f32 : S768x32.Idx → EReal) := by
  dsimp only [Fr.V, Gen.hostOps0]
  after_results_simp

set_option maxHeartbeats 40000000 in
theorem e_wei : (Fr.V m c main_v73 : S32x32.Idx → EReal)
    = (truncf (F := Ideal) .bf16 (transpose S32x32 [1, 0]
        (extractStridedSlice S32x32 ![0, 768] (m ((c.tc : Thread nD τ).loc main_arg27) : S32x832.Idx → EReal) slices_S32x832_S32x32_0_768)
        transposes_S32x32_S32x32_1_0) bitsLt_bf16_f32 : S32x32.Idx → EReal) := by
  dsimp only [Fr.V, Gen.hostOps0]
  after_results_simp

set_option maxHeartbeats 40000000 in
theorem e_weo : (Fr.V m c main_v76 : S32x32.Idx → EReal)
    = (truncf (F := Ideal) .bf16 (transpose S32x32 [1, 0]
        (extractStridedSlice S32x32 ![0, 800] (m ((c.tc : Thread nD τ).loc main_arg27) : S32x832.Idx → EReal) slices_S32x832_S32x32_0_800)
        transposes_S32x32_S32x32_1_0) bitsLt_bf16_f32 : S32x32.Idx → EReal) := by
  dsimp only [Fr.V, Gen.hostOps0]
  after_results_simp

set_option maxHeartbeats 40000000 in
theorem e_bin : (Fr.V m c main_v77 : S1x32.Idx → EReal)
    = shapeCast S1x32 (m ((c.tc : Thread nD τ).loc main_arg24) : S32.Idx → EReal) shapeCasts_S32_S1x32 := by
  dsimp only [Fr.V, Gen.hostOps0]
  after_results_simp
  rfl

set_option maxHeartbeats 40000000 in
theorem e_bout : (Fr.V m c main_v78 : S1x32.Idx → EReal)
    = shapeCast S1x32 (m ((c.tc : Thread nD τ).loc main_arg26) : S32.Idx → EReal) shapeCasts_S32_S1x32 := by
  dsimp only [Fr.V, Gen.hostOps0]
  after_results_simp
  rfl

set_option maxHeartbeats 40000000 in
theorem e_bent : (Fr.V m c main_v79 : S1x32.Idx → EReal)
    = shapeCast S1x32 (m ((c.tc : Thread nD τ).loc main_arg28) : S32.Idx → EReal) shapeCasts_S32_S1x32 := by
  dsimp only [Fr.V, Gen.hostOps0]
  after_results_simp
  rfl

/-! ## The relation block -/

/-- The relation table through its linear layer, as the host operations spell it: the table times the transposed
    weight, plus the bias broadcast along the rows. -/
def relLin (rel : FVec Ideal S1315x32 .f32) (wrel : FVec Ideal S32x32 .f32) (brel : FVec Ideal S32 .f32) :
    FVec Ideal S1315x32 .f32 :=
  addf (Host.dotGeneral (F := Ideal) dot_S1315x32_S32x32_S1315x32_1_0_0_1_n_n none rel
      (transpose S32x32 [1, 0] wrel transposes_S32x32_S32x32_1_0))
    (broadcastInDim S1315x32 ![0, 1] bcast_S1x32_S1315x32_0_1 (broadcastInDim S1x32 ![1] bcast_S32_S1x32_1 brel))

/-- A table's rows each divided by the larger of the row's Euclidean norm and the literal, as the host operations spell it. -/
def rowNorm (x : FVec Ideal S1315x32 .f32) : FVec Ideal S1315x32 .f32 :=
  Host.divf (F := Ideal) x (broadcastInDim S1315x32 ![0, 1] bcast_S1315x1_S1315x32_0_1
    (maximumf (Host.sqrt (F := Ideal) (broadcastInDim S1315x1 ![0] bcast_S1315_S1315x1_0
        (Host.reduceAdd (F := Ideal) (mulf x x) (constant (F := Ideal) S_ .f32 0x00000000#32) reducesTo_S1315x32_S1315_d1 h_S_)))
      (broadcastInDim S1315x1 ![] bcast_S_S1315x1 (constant (F := Ideal) S_ .f32 0x2B8CBCCC#32))))

/-- The relation words, each wrapped once by the table's height if negative, as a column. -/
def relWords (eid : IVec S65536 32) : IVec S65536x1 32 :=
  broadcastInDim S65536x1 ![0] bcast_S65536_S65536x1_0
    (select (cmpi .slt eid (broadcastInDim S65536 ![] bcast_S_S65536 (constantI S_ 32 0#32)))
      (addi eid (broadcastInDim S65536 ![] bcast_S_S65536 (constantI S_ 32 1315#32))) eid)

set_option maxHeartbeats 40000000 in
/-- The relation block is the normalised table gathered by the wrapped relation words. -/
theorem e_rel : (Fr.V m c main_v63 : S65536x32.Idx → EReal)
    = Host.gather gather_S1315x32_S65536x1_S65536x32_1_0_n_n_0_1_132
        (rowNorm (relLin (m ((c.tc : Thread nD τ).loc main_arg22)) (m ((c.tc : Thread nD τ).loc main_arg29))
          (m ((c.tc : Thread nD τ).loc main_arg30))))
        (relWords (m ((c.tc : Thread nD τ).loc main_arg21))) := by
  unfold rowNorm relLin relWords
  dsimp only [Fr.V, Gen.hostOps0]
  after_results_simp

/-- The wrapped words at a row: the specification's wrap of the relation word. -/
theorem relWords_apply (eid : IVec S65536 32) (i : Fin 65536) :
    relWords eid (ix2 i (0 : Fin 1)) = Cert.Spec.wrap (eid (ix1 i)) := by
  unfold relWords
  refine (broadcastInDim_apply _ bcast_S65536_S65536x1_0 _ (ix2 i (0 : Fin 1)) (ix1 i) (fun a => match a with
    | ⟨0, _⟩ => by show i.val = if (65536 : Nat) = 1 then 0 else i.val; rw [if_neg (by decide)])).trans ?_
  rfl

/-- The left operand of the table's product is read at the result's row and the contraction coordinate, the right
    operand at the contraction coordinate and the result's column. -/
theorem lhs_rel_0 (i : S1315x32.Idx) (q : dot_S1315x32_S32x32_S1315x32_1_0_0_1_n_n.contr.Idx) :
    (dot_S1315x32_S32x32_S1315x32_1_0_0_1_n_n.lhsIdx i q 0).val = (i 0).val := by
  unfold DotDims.lhsIdx
  rw [dif_neg (show ¬(0 : Fin S1315x32.rank) ∈ dot_S1315x32_S32x32_S1315x32_1_0_0_1_n_n.lhsBatch by decide),
    dif_pos (show (0 : Fin S1315x32.rank) ∈ dot_S1315x32_S32x32_S1315x32_1_0_0_1_n_n.lhsNonContracting by decide)]
  rfl
theorem lhs_rel_1 (i : S1315x32.Idx) (q : dot_S1315x32_S32x32_S1315x32_1_0_0_1_n_n.contr.Idx) :
    (dot_S1315x32_S32x32_S1315x32_1_0_0_1_n_n.lhsIdx i q 1).val = (q ⟨0, by decide⟩).val :=
  dot_S1315x32_S32x32_S1315x32_1_0_0_1_n_n.lhsIdx_val_of_single rfl i q
theorem rhs_rel_0 (i : S1315x32.Idx) (q : dot_S1315x32_S32x32_S1315x32_1_0_0_1_n_n.contr.Idx) :
    (dot_S1315x32_S32x32_S1315x32_1_0_0_1_n_n.rhsIdx i q 0).val = (q ⟨0, by decide⟩).val :=
  dot_S1315x32_S32x32_S1315x32_1_0_0_1_n_n.rhsIdx_val_of_single rfl i q
theorem rhs_rel_1 (i : S1315x32.Idx) (q : dot_S1315x32_S32x32_S1315x32_1_0_0_1_n_n.contr.Idx) :
    (dot_S1315x32_S32x32_S1315x32_1_0_0_1_n_n.rhsIdx i q 1).val = (i 1).val := by
  unfold DotDims.rhsIdx
  rw [dif_neg (show ¬(1 : Fin S32x32.rank) ∈ dot_S1315x32_S32x32_S1315x32_1_0_0_1_n_n.rhsBatch by decide),
    dif_pos (show (1 : Fin S32x32.rank) ∈ dot_S1315x32_S32x32_S1315x32_1_0_0_1_n_n.rhsNonContracting by decide)]
  rfl

/-- The table through its layer at `(r, k)`: row `r` against row `k` of the weight, plus the bias at `k`. -/
theorem relLin_apply (rel : FVec Ideal S1315x32 .f32) (wrel : FVec Ideal S32x32 .f32) (brel : FVec Ideal S32 .f32)
    (r : Fin 1315) (k : Fin 32) :
    relLin rel wrel brel (ix2 r k) = (∑ j : Fin 32, rel (ix2 r j) * wrel (ix2 k j)) + brel (ix1 k) := by
  unfold relLin
  rw [addf_apply]
  have hdot : Host.dotGeneral (F := Ideal) dot_S1315x32_S32x32_S1315x32_1_0_0_1_n_n none rel
      (transpose S32x32 [1, 0] wrel transposes_S32x32_S32x32_1_0) (ix2 r k) = ∑ j : Fin 32, rel (ix2 r j) * wrel (ix2 k j) := by
    simp only [Host.dotGeneral]
    rw [Ideal.dotGeneral_apply, ← Equiv.sum_comp (contrEquiv1 dot_S1315x32_S32x32_S1315x32_1_0_0_1_n_n 32 rfl rfl).symm]
    refine Finset.sum_congr rfl fun j _ => ?_
    have hj := contrEquiv1_symm_val dot_S1315x32_S32x32_S1315x32_1_0_0_1_n_n 32 rfl rfl j
    have el : dot_S1315x32_S32x32_S1315x32_1_0_0_1_n_n.lhsIdx (ix2 r k)
        ((contrEquiv1 dot_S1315x32_S32x32_S1315x32_1_0_0_1_n_n 32 rfl rfl).symm j) = ix2 r j := funext fun a => Fin.ext (by
      match a with
      | ⟨0, _⟩ => exact lhs_rel_0 _ _
      | ⟨1, _⟩ => exact (lhs_rel_1 _ _).trans hj)
    have er : dot_S1315x32_S32x32_S1315x32_1_0_0_1_n_n.rhsIdx (ix2 r k)
        ((contrEquiv1 dot_S1315x32_S32x32_S1315x32_1_0_0_1_n_n 32 rfl rfl).symm j) = ix2 j k := funext fun a => Fin.ext (by
      match a with
      | ⟨0, _⟩ => exact (rhs_rel_0 _ _).trans hj
      | ⟨1, _⟩ => exact rhs_rel_1 _ _)
    rw [el, er, transpose_ix2_apply]
  have hb : broadcastInDim S1315x32 ![0, 1] bcast_S1x32_S1315x32_0_1 (broadcastInDim S1x32 ![1] bcast_S32_S1x32_1 brel) (ix2 r k)
      = brel (ix1 k) :=
    (broadcastInDim_apply _ bcast_S1x32_S1315x32_0_1 _ (ix2 r k) (ix2 (0 : Fin 1) k) (fun a => match a with
      | ⟨0, _⟩ => by show 0 = if (1 : Nat) = 1 then 0 else r.val; rw [if_pos rfl]
      | ⟨1, _⟩ => by show k.val = if (32 : Nat) = 1 then 0 else k.val; rw [if_neg (by decide)])).trans
    (broadcastInDim_apply _ bcast_S32_S1x32_1 brel (ix2 (0 : Fin 1) k) (ix1 k) (fun a => match a with
      | ⟨0, _⟩ => by show k.val = if (32 : Nat) = 1 then 0 else k.val; rw [if_neg (by decide)]))
  rw [hdot, hb]

/-- The normalised table at `(r, k)`: row `r` divided by the larger of its norm and the literal, at `k`. -/
theorem rowNorm_apply (x : FVec Ideal S1315x32 .f32) (r : Fin 1315) (k : Fin 32) :
    rowNorm x (ix2 r k) = Cert.Spec.l2n (fun c' => x (ix2 r c')) k := by
  unfold rowNorm Cert.Spec.l2n
  have hsum : Host.reduceAdd (F := Ideal) (mulf x x) (constant (F := Ideal) S_ .f32 0x00000000#32) reducesTo_S1315x32_S1315_d1 h_S_ (ix1 r)
      = ∑ c' : Fin 32, x (ix2 r c') * x (ix2 r c') := by
    simp only [Host.reduceAdd, Ideal.hostReduceAdd_def]
    rw [Ideal.hostReduceAdd_single reducesTo_S1315x32_S1315_d1 (by decide)]
    show Ideal.ofBits .f32 0x00000000#32 + _ = _
    rw [Ideal.ofBits_zero_f32, zero_add]
    refine Finset.sum_congr rfl fun c' _ => ?_
    rw [mulf_apply]
    exact congrArg (fun y => x y * x y) (funext fun a => Fin.ext (by match a with | ⟨0, _⟩ => rfl | ⟨1, _⟩ => rfl))
  have hden : broadcastInDim S1315x32 ![0, 1] bcast_S1315x1_S1315x32_0_1
      (maximumf (Host.sqrt (F := Ideal) (broadcastInDim S1315x1 ![0] bcast_S1315_S1315x1_0
          (Host.reduceAdd (F := Ideal) (mulf x x) (constant (F := Ideal) S_ .f32 0x00000000#32) reducesTo_S1315x32_S1315_d1 h_S_)))
        (broadcastInDim S1315x1 ![] bcast_S_S1315x1 (constant (F := Ideal) S_ .f32 0x2B8CBCCC#32))) (ix2 r k)
      = max (Ideal.sqrt (∑ c' : Fin 32, x (ix2 r c') * x (ix2 r c'))) Cert.Spec.eps := by
    refine (broadcastInDim_apply _ bcast_S1315x1_S1315x32_0_1 _ (ix2 r k) (ix2 r (0 : Fin 1)) (fun a => match a with
      | ⟨0, _⟩ => by show r.val = if (1315 : Nat) = 1 then 0 else r.val; rw [if_neg (by decide)]
      | ⟨1, _⟩ => by show 0 = if (1 : Nat) = 1 then 0 else k.val; rw [if_pos rfl])).trans ?_
    rw [maximumf_apply]
    have h1 : Host.sqrt (F := Ideal) (broadcastInDim S1315x1 ![0] bcast_S1315_S1315x1_0
          (Host.reduceAdd (F := Ideal) (mulf x x) (constant (F := Ideal) S_ .f32 0x00000000#32) reducesTo_S1315x32_S1315_d1 h_S_)) (ix2 r (0 : Fin 1))
        = Ideal.sqrt (∑ c' : Fin 32, x (ix2 r c') * x (ix2 r c')) := by
      show Ideal.sqrt _ = _
      rw [broadcastInDim_apply _ bcast_S1315_S1315x1_0 _ (ix2 r (0 : Fin 1)) (ix1 r) (fun a => match a with
        | ⟨0, _⟩ => by show r.val = if (1315 : Nat) = 1 then 0 else r.val; rw [if_neg (by decide)]), hsum]
    rw [h1]
    rfl
  show Ideal.div (x (ix2 r k)) _ = _
  rw [hden]

/-! ## The blocks at an entry -/

theorem V_rel (i : Fin 65536) (k : Fin 32) :
    (Fr.V m c main_v63 : S65536x32.Idx → EReal) (ix2 i k)
      = Cert.Spec.relEmb (args m c).params (fun i => (args m c).eid (ix1 i)) i k := by
  rw [e_rel, RowGather.rowGather_apply gather_S1315x32_S65536x1_S65536x32_1_0_n_n_0_1_132 rfl rfl rfl rfl rfl _ _ i k (by decide)]
  have hrow : (⟨min (relWords (m ((c.tc : Thread nD τ).loc main_arg21)) (ix2 i (0 : Fin 1))).toInt.toNat (1315 - 1), by omega⟩ : Fin 1315)
      = Cert.Spec.rowOf ((args m c).eid (ix1 i)) :=
    Fin.ext (congrArg (fun w : BitVec 32 => min w.toInt.toNat (1315 - 1)) (relWords_apply _ i))
  rw [hrow, rowNorm_apply]
  unfold Cert.Spec.relEmb
  refine congrFun (congrArg Cert.Spec.l2n (funext fun c' => ?_)) k
  rw [relLin_apply]
  rfl

theorem V_win (j k : Fin 32) : (Fr.V m c main_v65 : S32x32.Idx → EReal) (ix2 j k) = (args m c).params.Win k j := by
  rw [e_win]
  exact transpose_ix2_apply _ transposes_S32x32_S32x32_1_0 j k
theorem V_bin (k : Fin 32) : (Fr.V m c main_v77 : S1x32.Idx → EReal) (ix2 (0 : Fin 1) k) = (args m c).params.bin k := by
  rw [e_bin]
  exact shapeCast_a_1a_apply _ shapeCasts_S32_S1x32 0 k
theorem V_wout (j k : Fin 32) : (Fr.V m c main_v67 : S32x32.Idx → EReal) (ix2 j k) = (args m c).params.Wout k j := by
  rw [e_wout]
  exact transpose_ix2_apply _ transposes_S32x32_S32x32_1_0 j k
theorem V_bout (k : Fin 32) : (Fr.V m c main_v78 : S1x32.Idx → EReal) (ix2 (0 : Fin 1) k) = (args m c).params.bout k := by
  rw [e_bout]
  exact shapeCast_a_1a_apply _ shapeCasts_S32_S1x32 0 k
theorem V_wef (k : Fin 768) (c' : Fin 32) :
    (Fr.V m c main_v70 : S768x32.Idx → EReal) (ix2 k c') = (args m c).params.Went c' (Cert.Spec.colFeat k) := by
  rw [e_wef, truncf_apply, transpose_ix2_apply _ transposes_S32x768_S768x32_1_0 k c']
  exact slice2_axis1_apply 0 _ slices_S32x832_S32x768_0_0 c' k (Cert.Spec.colFeat k) (Nat.zero_add _).symm
theorem V_wei (k c' : Fin 32) :
    (Fr.V m c main_v73 : S32x32.Idx → EReal) (ix2 k c') = (args m c).params.Went c' (Cert.Spec.colIn k) := by
  rw [e_wei, truncf_apply, transpose_ix2_apply _ transposes_S32x32_S32x32_1_0 k c']
  exact slice2_axis1_apply 768 _ slices_S32x832_S32x32_0_768 c' k (Cert.Spec.colIn k) rfl
theorem V_weo (k c' : Fin 32) :
    (Fr.V m c main_v76 : S32x32.Idx → EReal) (ix2 k c') = (args m c).params.Went c' (Cert.Spec.colOut k) := by
  rw [e_weo, truncf_apply, transpose_ix2_apply _ transposes_S32x32_S32x32_1_0 k c']
  exact slice2_axis1_apply 800 _ slices_S32x832_S32x32_0_800 c' k (Cert.Spec.colOut k) rfl
theorem V_bent (c' : Fin 32) : (Fr.V m c main_v79 : S1x32.Idx → EReal) (ix2 (0 : Fin 1) c') = (args m c).params.bent c' := by
  rw [e_bent]
  exact shapeCast_a_1a_apply _ shapeCasts_S32_S1x32 0 c'

end Cert.KernelIdeal.Val

end
-- ==== Proof.KIValue.lean ====
/-
  The two score arrays after the run, whole. Point `t` writes back entries `1024 t … 1024 t + 1023`, the 64 points cover
  the array, and entry `1024 t + r` is the block-level score of row `r` of the blocks point `t` read, which are rows
  `1024 t + r` of the per-entity arrays and the whole weight arrays. With the host arrays read at those entries this is
  the specification's score of entity `1024 t + r`.
-/
import proofs.«402564_j1056561954978_2_alg».proof.Proof.KIFrame
import proofs.«402564_j1056561954978_2_alg».proof.Proof.KIBody
import proofs.«402564_j1056561954978_2_alg».proof.Proof.KIHostAgg
import proofs.«402564_j1056561954978_2_alg».proof.Proof.KIHostW

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)
variable (m : (ℓ : Loc nD τ sig) → Buf (Elt Ideal) ℓ) (ρ : Dev nD → PrngReg)

/-- The zero offset of a rank-1 block, as a constant function. -/
theorem hz1 : (![0] : Fin 1 → Nat) = fun _ => 0 := funext fun a => by fin_cases a <;> rfl

/-! ## Where the blocks sit

The windows' index maps, each decided once over the 64 grid points: at point `t` a per-entity window is at block `(t, 0)` of
its array, a weight window at block `(0, 0)`, and a score window at block `t`. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = t.val :=
  (by decide +kernel : ∀ t : Fin grid0.N, _)
theorem idx16 : ∀ t : Fin cfg0.N, win0_16.index t (0 : Fin 1) = t.val :=
  (by decide +kernel : ∀ t : Fin grid0.N, _)

/-- The grid has 64 points. -/
theorem t_lt (t : Fin cfg0.N) : t.val < 64 := lt_of_lt_of_eq t.isLt N_0

/-- Entity `1024 t + r`: the entity whose row is row `r` of the blocks point `t` reads. -/
def rowAt (t : Fin cfg0.N) (r : Fin 1024) : Fin 65536 := ⟨1024 * t.val + r.val, by have := t_lt t; omega⟩

/-! ## A block read off any array

A block's coordinate on an axis is the block index times the block's size plus the coordinate inside the block. So row
`r` of a per-entity window's block at point `t` is row `1024 t + r` of whatever array the window is over, and a weight
window's block is the whole of its array. Stated for an arbitrary array of the window's literal type. -/

theorem read0 (A : S65536x768.Idx → EReal) (t : Fin cfg0.N) (r : Fin 1024) (k : Fin 768) :
    ((cfg0.win 0).blk t).view.read (Elt Ideal) A (ix2 r k) = A (ix2 (rowAt t r) k) := by
  obtain ⟨e0, e1⟩ := idx0 t
  rw [View.read_apply]
  show A _ = A _
  congr 1; funext a; apply Fin.ext
  match a with
  | ⟨0, _⟩ => show win0_0.index t (0 : Fin 2) * 1024 + 1 * r.val = 1024 * t.val + r.val; omega
  | ⟨1, _⟩ => show win0_0.index t (1 : Fin 2) * 768 + 1 * k.val = k.val; omega

theorem read1 (A : S65536x768.Idx → EReal) (t : Fin cfg0.N) (r : Fin 1024) (k : Fin 768) :
    ((cfg0.win 1).blk t).view.read (Elt Ideal) A (ix2 r k) = A (ix2 (rowAt t r) k) := by
  obtain ⟨e0, e1⟩ := idx1 t
  rw [View.read_apply]
  show A _ = A _
  congr 1; funext a; apply Fin.ext
  match a with
  | ⟨0, _⟩ => show win0_1.index t (0 : Fin 2) * 1024 + 1 * r.val = 1024 * t.val + r.val; omega
  | ⟨1, _⟩ => show win0_1.index t (1 : Fin 2) * 768 + 1 * k.val = k.val; omega

theorem read2 (A : S65536x768.Idx → EReal) (t : Fin cfg0.N) (r : Fin 1024) (k : Fin 768) :
    ((cfg0.win 2).blk t).view.read (Elt Ideal) A (ix2 r k) = A (ix2 (rowAt t r) k) := by
  obtain ⟨e0, e1⟩ := idx2 t
  rw [View.read_apply]
  show A _ = A _
  congr 1; funext a; apply Fin.ext
  match a with
  | ⟨0, _⟩ => show win0_2.index t (0 : Fin 2) * 1024 + 1 * r.val = 1024 * t.val + r.val; omega
  | ⟨1, _⟩ => show win0_2.index t (1 : Fin 2) * 768 + 1 * k.val = k.val; omega

theorem read3 (A : S65536x64.Idx → EReal) (t : Fin cfg0.N) (r : Fin 1024) (k : Fin 64) :
    ((cfg0.win 3).blk t).view.read (Elt Ideal) A (ix2 r k) = A (ix2 (rowAt t r) k) := by
  obtain ⟨e0, e1⟩ := idx3 t
  rw [View.read_apply]
  show A _ = A _
  congr 1; funext a; apply Fin.ext
  match a with
  | ⟨0, _⟩ => show win0_3.index t (0 : Fin 2) * 1024 + 1 * r.val = 1024 * t.val + r.val; omega
  | ⟨1, _⟩ => show win0_3.index t (1 : Fin 2) * 64 + 1 * k.val = k.val; omega

theorem read4 (A : S65536x64.Idx → EReal) (t : Fin cfg0.N) (r : Fin 1024) (k : Fin 64) :
    ((cfg0.win 4).blk t).view.read (Elt Ideal) A (ix2 r k) = A (ix2 (rowAt t r) k) := by
  obtain ⟨e0, e1⟩ := idx4 t
  rw [View.read_apply]
  show A _ = A _
  congr 1; funext a; apply Fin.ext
  match a with
  | ⟨0, _⟩ => show win0_4.index t (0 : Fin 2) * 1024 + 1 * r.val = 1024 * t.val + r.val; omega
  | ⟨1, _⟩ => show win0_4.index t (1 : Fin 2) * 64 + 1 * k.val = k.val; omega

theorem read5 (A : S65536x64.Idx → EReal) (t : Fin cfg0.N) (r : Fin 1024) (k : Fin 64) :
    ((cfg0.win 5).blk t).view.read (Elt Ideal) A (ix2 r k) = A (ix2 (rowAt t r) k) := by
  obtain ⟨e0, e1⟩ := idx5 t
  rw [View.read_apply]
  show A _ = A _
  congr 1; funext a; apply Fin.ext
  match a with
  | ⟨0, _⟩ => show win0_5.index t (0 : Fin 2) * 1024 + 1 * r.val = 1024 * t.val + r.val; omega
  | ⟨1, _⟩ => show win0_5.index t (1 : Fin 2) * 64 + 1 * k.val = k.val; omega

theorem read6 (A : S65536x32.Idx → EReal) (t : Fin cfg0.N) (r : Fin 1024) (k : Fin 32) :
    ((cfg0.win 6).blk t).view.read (Elt Ideal) A (ix2 r k) = A (ix2 (rowAt t r) k) := by
  obtain ⟨e0, e1⟩ := idx6 t
  rw [View.read_apply]
  show A _ = A _
  congr 1; funext a; apply Fin.ext
  match a with
  | ⟨0, _⟩ => show win0_6.index t (0 : Fin 2) * 1024 + 1 * r.val = 1024 * t.val + r.val; omega
  | ⟨1, _⟩ => show win0_6.index t (1 : Fin 2) * 32 + 1 * k.val = k.val; omega

theorem read7 (A : S32x32.Idx → EReal) (t : Fin cfg0.N) (j k : Fin 32) :
    ((cfg0.win 7).blk t).view.read (Elt Ideal) A (ix2 j k) = A (ix2 j k) := by
  obtain ⟨e0, e1⟩ := idx7 t
  rw [View.read_apply]
  show A _ = A _
  congr 1; funext a; apply Fin.ext
  match a with
  | ⟨0, _⟩ => show win0_7.index t (0 : Fin 2) * 32 + 1 * j.val = j.val; omega
  | ⟨1, _⟩ => show win0_7.index t (1 : Fin 2) * 32 + 1 * k.val = k.val; omega

theorem read8 (A : S1x32.Idx → EReal) (t : Fin cfg0.N) (j : Fin 1) (k : Fin 32) :
    ((cfg0.win 8).blk t).view.read (Elt Ideal) A (ix2 j k) = A (ix2 j k) := by
  obtain ⟨e0, e1⟩ := idx8 t
  rw [View.read_apply]
  show A _ = A _
  congr 1; funext a; apply Fin.ext
  match a with
  | ⟨0, _⟩ => show win0_8.index t (0 : Fin 2) * 1 + 1 * j.val = j.val; omega
  | ⟨1, _⟩ => show win0_8.index t (1 : Fin 2) * 32 + 1 * k.val = k.val; omega

theorem read9 (A : S32x32.Idx → EReal) (t : Fin cfg0.N) (j k : Fin 32) :
    ((cfg0.win 9).blk t).view.read (Elt Ideal) A (ix2 j k) = A (ix2 j k) := by
  obtain ⟨e0, e1⟩ := idx9 t
  rw [View.read_apply]
  show A _ = A _
  congr 1; funext a; apply Fin.ext
  match a with
  | ⟨0, _⟩ => show win0_9.index t (0 : Fin 2) * 32 + 1 * j.val = j.val; omega
  | ⟨1, _⟩ => show win0_9.index t (1 : Fin 2) * 32 + 1 * k.val = k.val; omega

theorem read10 (A : S1x32.Idx → EReal) (t : Fin cfg0.N) (j : Fin 1) (k : Fin 32) :
    ((cfg0.win 10).blk t).view.read (Elt Ideal) A (ix2 j k) = A (ix2 j k) := by
  obtain ⟨e0, e1⟩ := idx10 t
  rw [View.read_apply]
  show A _ = A _
  congr 1; funext a; apply Fin.ext
  match a with
  | ⟨0, _⟩ => show win0_10.index t (0 : Fin 2) * 1 + 1 * j.val = j.val; omega
  | ⟨1, _⟩ => show win0_10.index t (1 : Fin 2) * 32 + 1 * k.val = k.val; omega

theorem read11 (A : S768x32.Idx → EReal) (t : Fin cfg0.N) (j : Fin 768) (k : Fin 32) :
    ((cfg0.win 11).blk t).view.read (Elt Ideal) A (ix2 j k) = A (ix2 j k) := by
  obtain ⟨e0, e1⟩ := idx11 t
  rw [View.read_apply]
  show A _ = A _
  congr 1; funext a; apply Fin.ext
  match a with
  | ⟨0, _⟩ => show win0_11.index t (0 : Fin 2) * 768 + 1 * j.val = j.val; omega
  | ⟨1, _⟩ => show win0_11.index t (1 : Fin 2) * 32 + 1 * k.val = k.val; omega

theorem read12 (A : S32x32.Idx → EReal) (t : Fin cfg0.N) (j k : Fin 32) :
    ((cfg0.win 12).blk t).view.read (Elt Ideal) A (ix2 j k) = A (ix2 j k) := by
  obtain ⟨e0, e1⟩ := idx12 t
  rw [View.read_apply]
  show A _ = A _
  congr 1; funext a; apply Fin.ext
  match a with
  | ⟨0, _⟩ => show win0_12.index t (0 : Fin 2) * 32 + 1 * j.val = j.val; omega
  | ⟨1, _⟩ => show win0_12.index t (1 : Fin 2) * 32 + 1 * k.val = k.val; omega

theorem read13 (A : S32x32.Idx → EReal) (t : Fin cfg0.N) (j k : Fin 32) :
    ((cfg0.win 13).blk t).view.read (Elt Ideal) A (ix2 j k) = A (ix2 j k) := by
  obtain ⟨e0, e1⟩ := idx13 t
  rw [View.read_apply]
  show A _ = A _
  congr 1; funext a; apply Fin.ext
  match a with
  | ⟨0, _⟩ => show win0_13.index t (0 : Fin 2) * 32 + 1 * j.val = j.val; omega
  | ⟨1, _⟩ => show win0_13.index t (1 : Fin 2) * 32 + 1 * k.val = k.val; omega

theorem read14 (A : S1x32.Idx → EReal) (t : Fin cfg0.N) (j : Fin 1) (k : Fin 32) :
    ((cfg0.win 14).blk t).view.read (Elt Ideal) A (ix2 j k) = A (ix2 j k) := by
  obtain ⟨e0, e1⟩ := idx14 t
  rw [View.read_apply]
  show A _ = A _
  congr 1; funext a; apply Fin.ext
  match a with
  | ⟨0, _⟩ => show win0_14.index t (0 : Fin 2) * 1 + 1 * j.val = j.val; omega
  | ⟨1, _⟩ => show win0_14.index t (1 : Fin 2) * 32 + 1 * k.val = k.val; omega

/-- What a score window's point `t` writes back of a staging buffer `X` is block `t` of an array `G` as soon as entry `r` of
    `X` is entry `1024 t + r` of `G`, for every `r`. -/
theorem flush15_of (X : S1024.Idx → EReal) (G : S65536.Idx → EReal) (t : Fin cfg0.N)
    (hXG : ∀ r : Fin 1024, X (ix1 r) = G (ix1 (rowAt t r))) :
    (cfg0.win 15).cut (grid0.coords t) X = ((cfg0.win 15).blk t).view.read (Elt Ideal) G := by
  funext y
  have e := idx15 t
  have hy : (y 0).val < 1024 := (y 0).isLt
  have hx : (cfg0.win 15).xinj (grid0.coords t) y = (ix1 (⟨(y 0).val, hy⟩ : Fin 1024) : S1024.Idx) :=
    funext fun a => by match a with | ⟨0, _⟩ => rfl
  have he : ((cfg0.win 15).blk t).view.emb y = (ix1 (rowAt t ⟨(y 0).val, hy⟩) : S65536.Idx) := by
    funext a; apply Fin.ext
    match a with
    | ⟨0, _⟩ => show win0_15.index t (0 : Fin 1) * 1024 + 1 * (y 0).val = 1024 * t.val + (y 0).val; omega
  show X ((cfg0.win 15).xinj (grid0.coords t) y) = G (((cfg0.win 15).blk t).view.emb y)
  rw [hx, he]
  exact hXG ⟨(y 0).val, hy⟩

theorem flush16_of (X : S1024.Idx → EReal) (G : S65536.Idx → EReal) (t : Fin cfg0.N)
    (hXG : ∀ r : Fin 1024, X (ix1 r) = G (ix1 (rowAt t r))) :
    (cfg0.win 16).cut (grid0.coords t) X = ((cfg0.win 16).blk t).view.read (Elt Ideal) G := by
  funext y
  have e := idx16 t
  have hy : (y 0).val < 1024 := (y 0).isLt
  have hx : (cfg0.win 16).xinj (grid0.coords t) y = (ix1 (⟨(y 0).val, hy⟩ : Fin 1024) : S1024.Idx) :=
    funext fun a => by match a with | ⟨0, _⟩ => rfl
  have he : ((cfg0.win 16).blk t).view.emb y = (ix1 (rowAt t ⟨(y 0).val, hy⟩) : S65536.Idx) := by
    funext a; apply Fin.ext
    match a with
    | ⟨0, _⟩ => show win0_16.index t (0 : Fin 1) * 1024 + 1 * (y 0).val = 1024 * t.val + (y 0).val; omega
  show X ((cfg0.win 16).xinj (grid0.coords t) y) = G (((cfg0.win 16).blk t).view.emb y)
  rw [hx, he]
  exact hXG ⟨(y 0).val, hy⟩

/-! ## The arrays the region finds and the blocks a point reads, each at its literal type -/

/-- The three feature arrays, the three packed-aggregate arrays and the relation-embedding array, as the region finds them. -/
abbrev fH (c : Dev nD) : S65536x768.Idx → EReal := Fr.V m c main_arg6
abbrev fP (c : Dev nD) : S65536x768.Idx → EReal := Fr.V m c main_arg13
abbrev fN (c : Dev nD) : S65536x768.Idx → EReal := Fr.V m c main_arg20
abbrev gH (c : Dev nD) : S65536x64.Idx → EReal := Fr.V m c main_v41
abbrev gP (c : Dev nD) : S65536x64.Idx → EReal := Fr.V m c main_v42
abbrev gN (c : Dev nD) : S65536x64.Idx → EReal := Fr.V m c main_v43
abbrev gR (c : Dev nD) : S65536x32.Idx → EReal := Fr.V m c main_v63

/-- Their blocks at point `t`. -/
abbrev bH (c : Dev nD) (t : Fin cfg0.N) : Vec Ideal S1024x768 .f32 := Fr.iblk m c 0 t
abbrev bP (c : Dev nD) (t : Fin cfg0.N) : Vec Ideal S1024x768 .f32 := Fr.iblk m c 1 t
abbrev bN (c : Dev nD) (t : Fin cfg0.N) : Vec Ideal S1024x768 .f32 := Fr.iblk m c 2 t
abbrev aH (c : Dev nD) (t : Fin cfg0.N) : Vec Ideal S1024x64 .f32 := Fr.iblk m c 3 t
abbrev aP (c : Dev nD) (t : Fin cfg0.N) : Vec Ideal S1024x64 .f32 := Fr.iblk m c 4 t
abbrev aN (c : Dev nD) (t : Fin cfg0.N) : Vec Ideal S1024x64 .f32 := Fr.iblk m c 5 t
abbrev bR (c : Dev nD) (t : Fin cfg0.N) : Vec Ideal S1024x32 .f32 := Fr.iblk m c 6 t

/-- The eight weight and bias arrays, as the region finds them: the two aggregate layers' weight and bias, the wide
    layer's three column ranges, its bias. -/
abbrev u7 (c : Dev nD) : S32x32.Idx → EReal := Fr.V m c main_v65
abbrev u8 (c : Dev nD) : S1x32.Idx → EReal := Fr.V m c main_v77
abbrev u9 (c : Dev nD) : S32x32.Idx → EReal := Fr.V m c main_v67
abbrev u10 (c : Dev nD) : S1x32.Idx → EReal := Fr.V m c main_v78
abbrev u11 (c : Dev nD) : S768x32.Idx → EReal := Fr.V m c main_v70
abbrev u12 (c : Dev nD) : S32x32.Idx → EReal := Fr.V m c main_v73
abbrev u13 (c : Dev nD) : S32x32.Idx → EReal := Fr.V m c main_v76
abbrev u14 (c : Dev nD) : S1x32.Idx → EReal := Fr.V m c main_v79

/-- Their one block each, read at every point. -/
abbrev w7 (c : Dev nD) (t : Fin cfg0.N) : Vec Ideal S32x32 .bf16 := Fr.iblk m c 7 t
abbrev w8 (c : Dev nD) (t : Fin cfg0.N) : Vec Ideal S1x32 .f32 := Fr.iblk m c 8 t
abbrev w9 (c : Dev nD) (t : Fin cfg0.N) : Vec Ideal S32x32 .bf16 := Fr.iblk m c 9 t
abbrev w10 (c : Dev nD) (t : Fin cfg0.N) : Vec Ideal S1x32 .f32 := Fr.iblk m c 10 t
abbrev w11 (c : Dev nD) (t : Fin cfg0.N) : Vec Ideal S768x32 .bf16 := Fr.iblk m c 11 t
abbrev w12 (c : Dev nD) (t : Fin cfg0.N) : Vec Ideal S32x32 .bf16 := Fr.iblk m c 12 t
abbrev w13 (c : Dev nD) (t : Fin cfg0.N) : Vec Ideal S32x32 .bf16 := Fr.iblk m c 13 t
abbrev w14 (c : Dev nD) (t : Fin cfg0.N) : Vec Ideal S1x32 .f32 := Fr.iblk m c 14 t

/-! ## A block's entry is its array's -/

theorem bH_apply (c : Dev nD) (t : Fin cfg0.N) (r : Fin 1024) (k : Fin 768) :
    bH m c t (ix2 r k) = fH m c (ix2 (rowAt t r) k) := read0 (fH m c) t r k
theorem bP_apply (c : Dev nD) (t : Fin cfg0.N) (r : Fin 1024) (k : Fin 768) :
    bP m c t (ix2 r k) = fP m c (ix2 (rowAt t r) k) := read1 (fP m c) t r k
theorem bN_apply (c : Dev nD) (t : Fin cfg0.N) (r : Fin 1024) (k : Fin 768) :
    bN m c t (ix2 r k) = fN m c (ix2 (rowAt t r) k) := read2 (fN m c) t r k
theorem aH_apply (c : Dev nD) (t : Fin cfg0.N) (r : Fin 1024) (k : Fin 64) :
    aH m c t (ix2 r k) = gH m c (ix2 (rowAt t r) k) := read3 (gH m c) t r k
theorem aP_apply (c : Dev nD) (t : Fin cfg0.N) (r : Fin 1024) (k : Fin 64) :
    aP m c t (ix2 r k) = gP m c (ix2 (rowAt t r) k) := read4 (gP m c) t r k
theorem aN_apply (c : Dev nD) (t : Fin cfg0.N) (r : Fin 1024) (k : Fin 64) :
    aN m c t (ix2 r k) = gN m c (ix2 (rowAt t r) k) := read5 (gN m c) t r k
theorem bR_apply (c : Dev nD) (t : Fin cfg0.N) (r : Fin 1024) (k : Fin 32) :
    bR m c t (ix2 r k) = gR m c (ix2 (rowAt t r) k) := read6 (gR m c) t r k
theorem w7_apply (c : Dev nD) (t : Fin cfg0.N) (j k : Fin 32) : w7 m c t (ix2 j k) = u7 m c (ix2 j k) :=
  read7 (u7 m c) t j k
theorem w8_apply (c : Dev nD) (t : Fin cfg0.N) (j : Fin 1) (k : Fin 32) : w8 m c t (ix2 j k) = u8 m c (ix2 j k) :=
  read8 (u8 m c) t j k
theorem w9_apply (c : Dev nD) (t : Fin cfg0.N) (j k : Fin 32) : w9 m c t (ix2 j k) = u9 m c (ix2 j k) :=
  read9 (u9 m c) t j k
theorem w10_apply (c : Dev nD) (t : Fin cfg0.N) (j : Fin 1) (k : Fin 32) : w10 m c t (ix2 j k) = u10 m c (ix2 j k) :=
  read10 (u10 m c) t j k
theorem w11_apply (c : Dev nD) (t : Fin cfg0.N) (j : Fin 768) (k : Fin 32) : w11 m c t (ix2 j k) = u11 m c (ix2 j k) :=
  read11 (u11 m c) t j k
theorem w12_apply (c : Dev nD) (t : Fin cfg0.N) (j k : Fin 32) : w12 m c t (ix2 j k) = u12 m c (ix2 j k) :=
  read12 (u12 m c) t j k
theorem w13_apply (c : Dev nD) (t : Fin cfg0.N) (j k : Fin 32) : w13 m c t (ix2 j k) = u13 m c (ix2 j k) :=
  read13 (u13 m c) t j k
theorem w14_apply (c : Dev nD) (t : Fin cfg0.N) (j : Fin 1) (k : Fin 32) : w14 m c t (ix2 j k) = u14 m c (ix2 j k) :=
  read14 (u14 m c) t j k

/-! ## A block's rows are the specification's rows -/

/-- The region finds the three feature arrays as they were launched. -/
theorem fH_eq (c : Dev nD) : fH m c = (args m c).hFeat := by
  obtain ⟨-, -, -, -, -, -, h, -⟩ := Fr.V_main_arg m c
  exact h
theorem fP_eq (c : Dev nD) : fP m c = (args m c).pFeat := by
  obtain ⟨-, -, -, -, -, -, -, -, -, -, -, -, -, h, -⟩ := Fr.V_main_arg m c
  exact h
theorem fN_eq (c : Dev nD) : fN m c = (args m c).nFeat := by
  obtain ⟨-, -, -, -, -, -, -, -, -, -, -, -, -, -, -, -, -, -, -, -, h, -⟩ := Fr.V_main_arg m c
  exact h

/-- An embedding is a function of the row's data and the weights alone. -/
theorem emb_congr {f f' : Fin 768 → EReal} {a a' b b' : Fin 32 → EReal} {wi wi' : Fin 32 → Fin 32 → EReal}
    {bi bi' : Fin 32 → EReal} {wo wo' : Fin 32 → Fin 32 → EReal} {bo bo' : Fin 32 → EReal}
    {wf wf' : Fin 768 → Fin 32 → EReal} {wa wa' wb wb' : Fin 32 → Fin 32 → EReal} {be be' : Fin 32 → EReal}
    (h1 : f = f') (h2 : a = a') (h3 : b = b') (h4 : wi = wi') (h5 : bi = bi') (h6 : wo = wo') (h7 : bo = bo')
    (h8 : wf = wf') (h9 : wa = wa') (h10 : wb = wb') (h11 : be = be') :
    Cert.Spec.emb f a b wi bi wo bo wf wa wb be = Cert.Spec.emb f' a' b' wi' bi' wo' bo' wf' wa' wb' be' := by
  subst h1 h2 h3 h4 h5 h6 h7 h8 h9 h10 h11; rfl

/-- A score is a function of its three rows alone. -/
theorem score_congr {h h' r r' p p' : Fin 32 → EReal} (e1 : h = h') (e2 : r = r') (e3 : p = p') :
    Cert.Spec.score h r p = Cert.Spec.score h' r' p' := by
  subst e1 e2 e3; rfl

/-- Row `r` of a block whose features and packed aggregates are those of entity `i` of a side embeds to the
    specification's embedding of that entity: each weight block is its whole array, which is the argument transposed (for
    the wide layer, one of its three column ranges) as the specification reads it, and each bias block is the bias. -/
theorem blkEmb_side (c : Dev nD) (t : Fin cfg0.N) (xf : Vec Ideal S1024x768 .f32) (xa : Vec Ideal S1024x64 .f32)
    (S : Cert.Spec.Side) (r : Fin 1024) (i : Fin 65536)
    (hf : ∀ k, xf (ix2 r k) = S.feat i k)
    (hin : ∀ j, xa (ix2 r (Cert.Spec.lo64 j)) = Cert.Spec.agg S.inRows S.inCols S.inVals (args m c).params.rel i j)
    (hout : ∀ j, xa (ix2 r (Cert.Spec.hi64 j)) = Cert.Spec.agg S.outRows S.outCols S.outVals (args m c).params.rel i j) :
    blkEmb xf xa (w7 m c t) (w8 m c t) (w9 m c t) (w10 m c t) (w11 m c t) (w12 m c t) (w13 m c t) (w14 m c t) r
      = Cert.Spec.sideEmb (args m c).params S i := by
  unfold blkEmb Cert.Spec.sideEmb
  exact emb_congr (funext hf) (funext hin) (funext hout)
    (funext fun j => funext fun k => (w7_apply m c t j k).trans (V_win m c j k))
    (funext fun k => (w8_apply m c t 0 k).trans (V_bin m c k))
    (funext fun j => funext fun k => (w9_apply m c t j k).trans (V_wout m c j k))
    (funext fun k => (w10_apply m c t 0 k).trans (V_bout m c k))
    (funext fun k => funext fun c' => (w11_apply m c t k c').trans (V_wef m c k c'))
    (funext fun k => funext fun c' => (w12_apply m c t k c').trans (V_wei m c k c'))
    (funext fun k => funext fun c' => (w13_apply m c t k c').trans (V_weo m c k c'))
    (funext fun c' => (w14_apply m c t 0 c').trans (V_bent m c c'))

/-- Row `r` of the head blocks at point `t` embeds to the head embedding of entity `1024 t + r`. -/
theorem embH (c : Dev nD) (hrows : (args m c).RowsInRange) (t : Fin cfg0.N) (r : Fin 1024) :
    blkEmb (bH m c t) (aH m c t) (w7 m c t) (w8 m c t) (w9 m c t) (w10 m c t) (w11 m c t) (w12 m c t) (w13 m c t) (w14 m c t) r
      = Cert.Spec.sideEmb (args m c).params (args m c).head (rowAt t r) :=
  blkEmb_side m c t (bH m c t) (aH m c t) (args m c).head r (rowAt t r)
    (fun k => (bH_apply m c t r k).trans (congrFun (fH_eq m c) (ix2 (rowAt t r) k)))
    (fun j => (aH_apply m c t r (Cert.Spec.lo64 j)).trans (V_aggH_in m c hrows (rowAt t r) j))
    (fun j => (aH_apply m c t r (Cert.Spec.hi64 j)).trans (V_aggH_out m c hrows (rowAt t r) j))

/-- The same for the positive tail blocks. -/
theorem embP (c : Dev nD) (hrows : (args m c).RowsInRange) (t : Fin cfg0.N) (r : Fin 1024) :
    blkEmb (bP m c t) (aP m c t) (w7 m c t) (w8 m c t) (w9 m c t) (w10 m c t) (w11 m c t) (w12 m c t) (w13 m c t) (w14 m c t) r
      = Cert.Spec.sideEmb (args m c).params (args m c).posTail (rowAt t r) :=
  blkEmb_side m c t (bP m c t) (aP m c t) (args m c).posTail r (rowAt t r)
    (fun k => (bP_apply m c t r k).trans (congrFun (fP_eq m c) (ix2 (rowAt t r) k)))
    (fun j => (aP_apply m c t r (Cert.Spec.lo64 j)).trans (V_aggP_in m c hrows (rowAt t r) j))
    (fun j => (aP_apply m c t r (Cert.Spec.hi64 j)).trans (V_aggP_out m c hrows (rowAt t r) j))

/-- The same for the negative tail blocks. -/
theorem embN (c : Dev nD) (hrows : (args m c).RowsInRange) (t : Fin cfg0.N) (r : Fin 1024) :
    blkEmb (bN m c t) (aN m c t) (w7 m c t) (w8 m c t) (w9 m c t) (w10 m c t) (w11 m c t) (w12 m c t) (w13 m c t) (w14 m c t) r
      = Cert.Spec.sideEmb (args m c).params (args m c).negTail (rowAt t r) :=
  blkEmb_side m c t (bN m c t) (aN m c t) (args m c).negTail r (rowAt t r)
    (fun k => (bN_apply m c t r k).trans (congrFun (fN_eq m c) (ix2 (rowAt t r) k)))
    (fun j => (aN_apply m c t r (Cert.Spec.lo64 j)).trans (V_aggN_in m c hrows (rowAt t r) j))
    (fun j => (aN_apply m c t r (Cert.Spec.hi64 j)).trans (V_aggN_out m c hrows (rowAt t r) j))

/-- Row `r` of the relation block at point `t` is the relation embedding of triple `1024 t + r`. -/
theorem relRow (c : Dev nD) (t : Fin cfg0.N) (r : Fin 1024) :
    (fun k => bR m c t (ix2 r k))
      = Cert.Spec.relEmb (args m c).params (fun i => (args m c).eid (ix1 i)) (rowAt t r) :=
  funext fun k => (bR_apply m c t r k).trans (V_rel m c (rowAt t r) k)

/-! ## What a point stores is its entries of the specification's arrays -/

/-- Entry `r` of the positive scores point `t` stores is the specification's positive score of triple `1024 t + r`. -/
theorem pos_entry (c : Dev nD) (hrows : (args m c).RowsInRange) (t : Fin cfg0.N) (r : Fin 1024) :
    Fr.posBlk (F := Ideal) (bH m c t) (bP m c t) (aH m c t) (aP m c t) (bR m c t) (w7 m c t) (w8 m c t) (w9 m c t) (w10 m c t)
        (w11 m c t) (w12 m c t) (w13 m c t) (w14 m c t) (ix1 r)
      = Cert.Spec.posArr (args m c) (ix1 (rowAt t r)) := by
  refine (posBlk_apply (bH m c t) (bP m c t) (aH m c t) (aP m c t) (bR m c t) (w7 m c t) (w8 m c t) (w9 m c t) (w10 m c t)
    (w11 m c t) (w12 m c t) (w13 m c t) (w14 m c t) r).trans ?_
  refine (score_congr (embH m c hrows t r) (relRow m c t r) (embP m c hrows t r)).trans ?_
  rfl

/-- Entry `r` of the negative scores point `t` stores is the specification's negative score of triple `1024 t + r`. -/
theorem neg_entry (c : Dev nD) (hrows : (args m c).RowsInRange) (t : Fin cfg0.N) (r : Fin 1024) :
    Fr.negBlk (F := Ideal) (bH m c t) (bN m c t) (aH m c t) (aN m c t) (bR m c t) (w7 m c t) (w8 m c t) (w9 m c t) (w10 m c t)
        (w11 m c t) (w12 m c t) (w13 m c t) (w14 m c t) (ix1 r)
      = Cert.Spec.negArr (args m c) (ix1 (rowAt t r)) := by
  refine (negBlk_apply (bH m c t) (bN m c t) (aH m c t) (aN m c t) (bR m c t) (w7 m c t) (w8 m c t) (w9 m c t) (w10 m c t)
    (w11 m c t) (w12 m c t) (w13 m c t) (w14 m c t) r).trans ?_
  refine (score_congr (embH m c hrows t r) (relRow m c t r) (embN m c hrows t r)).trans ?_
  rfl

/-- What point `t` writes back to the positive-score array is block `t` of the specification's array. -/
theorem flushed_pos (c : Dev nD) (hrows : (args m c).RowsInRange) (t : Fin cfg0.N) :
    (Fr.dats m 0 c).flushed 15 t = ((cfg0.win 15).blk t).view.read (Elt Ideal) (Cert.Spec.posArr (args m c)) := by
  show (cfg0.win 15).cut (grid0.coords t) ((Fr.dats m 0 c).after 15 t) = _
  rw [Fr.after15]
  unfold Fr.out15
  rw [View.canon_unit_zero hz1]
  exact flush15_of _ _ t (pos_entry m c hrows t)

/-- What point `t` writes back to the negative-score array is block `t` of the specification's array. -/
theorem flushed_neg (c : Dev nD) (hrows : (args m c).RowsInRange) (t : Fin cfg0.N) :
    (Fr.dats m 0 c).flushed 16 t = ((cfg0.win 16).blk t).view.read (Elt Ideal) (Cert.Spec.negArr (args m c)) := by
  show (cfg0.win 16).cut (grid0.coords t) ((Fr.dats m 0 c).after 16 t) = _
  rw [Fr.after16]
  unfold Fr.out16
  rw [View.canon_unit_zero hz1]
  exact flush16_of _ _ t (neg_entry m c hrows t)

/-! ## The 64 blocks cover each score array -/

/-- An entry is in point `t`'s block of the positive-score array iff it lies in the block's range. -/
theorem mem_blk15 (t : Fin cfg0.N) (i : S65536.Idx) :
    i ∈ ((cfg0.win 15).blk t).view.set ↔ ∀ a : Fin 1, win0_15.index t a * S1024.size a ≤ (i a).val
      ∧ (i a).val < win0_15.index t a * S1024.size a + S1024.size a := by
  show i ∈ ((View.whole main_v80_0).slice (win0_15.rect t)).set ↔ _
  rw [View.set_slice_whole, Rect.mem_set_unit]
  exact Iff.rfl

/-- The same for the negative-score array. -/
theorem mem_blk16 (t : Fin cfg0.N) (i : S65536.Idx) :
    i ∈ ((cfg0.win 16).blk t).view.set ↔ ∀ a : Fin 1, win0_16.index t a * S1024.size a ≤ (i a).val
      ∧ (i a).val < win0_16.index t a * S1024.size a + S1024.size a := by
  show i ∈ ((View.whole main_v80_1).slice (win0_16.rect t)).set ↔ _
  rw [View.set_slice_whole, Rect.mem_set_unit]
  exact Iff.rfl

/-- Entry `i` of the positive-score array is in the block of point `i / 1024`, which writes back. -/
theorem cover15 (i : S65536.Idx) :
    ∃ t : Fin cfg0.N, (cfg0.win 15).flush t = true ∧ i ∈ ((cfg0.win 15).blk t).view.set := by
  have hi : (i 0).val < 65536 := (i 0).isLt
  obtain ⟨t, ht⟩ : ∃ t : Fin cfg0.N, t.val = (i 0).val / 1024 :=
    ⟨⟨(i 0).val / 1024, by rw [show cfg0.N = 64 from N_0]; omega⟩, rfl⟩
  have e := idx15 t
  refine ⟨t, flush0_15 t, ?_⟩
  rw [mem_blk15]
  intro a
  match a with
  | ⟨0, _⟩ =>
    show win0_15.index t (0 : Fin 1) * 1024 ≤ (i 0).val ∧ (i 0).val < win0_15.index t (0 : Fin 1) * 1024 + 1024
    omega

/-- The same for the negative-score array. -/
theorem cover16 (i : S65536.Idx) :
    ∃ t : Fin cfg0.N, (cfg0.win 16).flush t = true ∧ i ∈ ((cfg0.win 16).blk t).view.set := by
  have hi : (i 0).val < 65536 := (i 0).isLt
  obtain ⟨t, ht⟩ : ∃ t : Fin cfg0.N, t.val = (i 0).val / 1024 :=
    ⟨⟨(i 0).val / 1024, by rw [show cfg0.N = 64 from N_0]; omega⟩, rfl⟩
  have e := idx16 t
  refine ⟨t, flush0_16 t, ?_⟩
  rw [mem_blk16]
  intro a
  match a with
  | ⟨0, _⟩ =>
    show win0_16.index t (0 : Fin 1) * 1024 ≤ (i 0).val ∧ (i 0).val < win0_16.index t (0 : Fin 1) * 1024 + 1024
    omega

/-! ## The arrays after the run -/

/-- The positive-score array after the run is the specification's. -/
theorem final_pos (c : Dev nD) (hrows : (args m c).RowsInRange) :
    (Fr.dats m 0 c).arrAt 15 cfg0.N = Cert.Spec.posArr (args m c) :=
  (Fr.dats m 0 c).arrAt_eq_of_cover 15 (Cert.Spec.posArr (args m c)) (fun t _ => flushed_pos m c hrows t) cover15

/-- The negative-score array after the run is the specification's. -/
theorem final_neg (c : Dev nD) (hrows : (args m c).RowsInRange) :
    (Fr.dats m 0 c).arrAt 16 cfg0.N = Cert.Spec.negArr (args m c) :=
  (Fr.dats m 0 c).arrAt_eq_of_cover 16 (Cert.Spec.negArr (args m c)) (fun t _ => flushed_neg m c hrows t) cover16

/-- The run with both results named and the arguments kept. -/
theorem run_value (hrows : ∀ c, (args m c).RowsInRange) :
    θ_run defs (onTc (τ := τ) (main (F := Ideal))) ⟨m, fun _ => 0, ρ⟩ (fun r => ∀ c : Dev nD,
      r.2.mem ((c.tc : Thread nD τ).loc main_v80_0) = Cert.Spec.posArr (args m c)
      ∧ r.2.mem ((c.tc : Thread nD τ).loc main_v80_1) = Cert.Spec.negArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono
    (fun r h c => ⟨(h c).1.trans (final_pos m c (hrows c)), (h c).2.1.trans (final_neg m c (hrows c)), (h c).2.2⟩)
    (Fr.run_named m ρ)

end Cert.KernelIdeal.Val

end
-- ==== Proof.PreDecode.lean ====
/-
  The precondition read back: besides the finiteness of the float arguments it says, of each of the six row arrays,
  that every word is at least 0 and less than 65536 as a signed integer.

  The printed predicate is one left-nested conjunction of thirty `all`s, cut into parts; the twelve conjuncts that speak
  of the row arrays are the last twelve, in parts 5 to 8. Each part is read with the conjunct it is handed left as a
  variable, so the eighteen finiteness conjuncts are never opened: the last part gives the carried conjunct and its own
  `all`, the part before it splits the carried conjunct once per `all` of its own, and so on back to part 5. An `all` that
  is 1 has a 1 at every element, and a signed comparison word that is 1 is the signed inequality of its operands.
-/
import proofs.«402564_j1056561954978_2_alg».proof.Defs
import proofs.«402564_j1056561954978_2_alg».proof.Proof.Gen.Pre_finite_inputs
import proofs.«402564_j1056561954978_2_alg».proof.Proof.KIArgs
import Idealize.ShloMosaic.Lib.ReduceAll
import Idealize.ShloMosaic.Lib.StableHlo.Predicate

set_option maxRecDepth 16384

noncomputable section

namespace Cert.Pre_finite_inputs.Decode

open Idealize.ShloMosaic
open Cert.Pre_finite_inputs

/-- The rank-0 shape has one index. -/
instance : Subsingleton S_.Idx := ⟨fun a b => funext fun d => d.elim0⟩

/-- The one index of the rank-0 shape. -/
def j0 : S_.Idx := fun d => d.elim0

/-- Every word of the array, read signed, lies in [0, 65536). -/
def InRange (a : IVec S1048576 32) : Prop := ∀ e, 0 ≤ (a e).toInt ∧ (a e).toInt < 65536

/-- `all (a ≥ 0)` is 1: every word of `a` is nonnegative, read signed. -/
theorem all_sge (a : IVec S1048576 32) (j : S_.Idx)
    (h : Host.reduce IntOp.andi (cmpi .sge a (broadcastInDim S1048576 ![] Facts.bcast_S_S1048576 (constantI S_ 32 0#32)))
      (constantI S_ 1 1#1) Facts.reducesTo_S1048576_S_d0 Facts.h_S_ j = 1#1) (e : S1048576.Idx) : 0 ≤ (a e).toInt := by
  have h1 : IntOp.cmpi .sge (a e) 0#32 = 1#1 := Host.reduce_andi_all _ _ _ _ j h e
  have h2 := IntOp.cmpi_sge.1 h1
  have h0 : (0#32 : BitVec 32).toInt = 0 := by decide
  rw [h0] at h2
  exact h2

/-- `all (a < 65536)` is 1: every word of `a` is below 65536, read signed. -/
theorem all_slt (a : IVec S1048576 32) (j : S_.Idx)
    (h : Host.reduce IntOp.andi (cmpi .slt a (broadcastInDim S1048576 ![] Facts.bcast_S_S1048576 (constantI S_ 32 65536#32)))
      (constantI S_ 1 1#1) Facts.reducesTo_S1048576_S_d0 Facts.h_S_ j = 1#1) (e : S1048576.Idx) : (a e).toInt < 65536 := by
  have h1 : IntOp.cmpi .slt (a e) 65536#32 = 1#1 := Host.reduce_andi_all _ _ _ _ j h e
  have h2 := IntOp.cmpi_slt.1 h1
  have h0 : (65536#32 : BitVec 32).toInt = 65536 := by decide
  rw [h0] at h2
  exact h2

/-- A conjunction of two `i1` scalars that is 1 at the index has both sides 1 there. -/
theorem andi_split (x y : IVec S_ 1) (j : S_.Idx) (h : andi x y j = 1#1) : x j = 1#1 ∧ y j = 1#1 :=
  IntOp.andi_eq_one.1 h

/-- The last part: the conjunct carried in is 1, and the words of the sixth row array are below 65536. -/
theorem part8 (a17 : IVec S1048576 32) (v : IVec S_ 1) (j : S_.Idx)
    (h : fn_part8 (F := Ideal) a17 v (constantI S_ 32 65536#32) j = 1#1) :
    v j = 1#1 ∧ ∀ e, (a17 e).toInt < 65536 := by
  dsimp only [fn_part8] at h
  obtain ⟨hv, hr⟩ := andi_split _ _ j h
  exact ⟨hv, all_slt _ j hr⟩

/-- Part 7: the conjunct carried in is 1; the fourth array's words are below 65536; the fifth and sixth arrays are in range. -/
theorem part7 (a10 a14 a17 : IVec S1048576 32) (v : IVec S_ 1) (j : S_.Idx)
    (h : fn_part7 (F := Ideal) a10 a14 a17 v (constantI S_ 32 65536#32) j = 1#1) :
    v j = 1#1 ∧ (∀ e, (a10 e).toInt < 65536) ∧ InRange a14 ∧ InRange a17 := by
  dsimp only [fn_part7] at h
  obtain ⟨h132, h17lt⟩ := part8 _ _ j h
  obtain ⟨h128, h17ge⟩ := andi_split _ _ j h132
  obtain ⟨h124, h14lt⟩ := andi_split _ _ j h128
  obtain ⟨h120, h14ge⟩ := andi_split _ _ j h124
  obtain ⟨hv, h10lt⟩ := andi_split _ _ j h120
  exact ⟨hv, all_slt _ j h10lt, fun e => ⟨all_sge _ j h14ge e, all_slt _ j h14lt e⟩,
    fun e => ⟨all_sge _ j h17ge e, h17lt e⟩⟩

/-- Part 6: the conjunct carried in is 1; the second array's words are below 65536; the third to sixth arrays are in range. -/
theorem part6 (a3 a7 a10 a14 a17 : IVec S1048576 32) (v : IVec S_ 1) (j : S_.Idx)
    (h : fn_part6 (F := Ideal) a3 a7 a10 a14 a17 v (constantI S_ 32 65536#32) j = 1#1) :
    v j = 1#1 ∧ (∀ e, (a3 e).toInt < 65536) ∧ InRange a7 ∧ InRange a10 ∧ InRange a14 ∧ InRange a17 := by
  dsimp only [fn_part6] at h
  obtain ⟨h116, h10lt, h14, h17⟩ := part7 _ _ _ _ j h
  obtain ⟨h112, h10ge⟩ := andi_split _ _ j h116
  obtain ⟨h108, h7lt⟩ := andi_split _ _ j h112
  obtain ⟨h104, h7ge⟩ := andi_split _ _ j h108
  obtain ⟨hv, h3lt⟩ := andi_split _ _ j h104
  exact ⟨hv, all_slt _ j h3lt, fun e => ⟨all_sge _ j h7ge e, all_slt _ j h7lt e⟩,
    fun e => ⟨all_sge _ j h10ge e, h10lt e⟩, h14, h17⟩

/-- Part 5: all six row arrays are in range (the float conjuncts carried in are left alone). -/
theorem part5 (a0 a3 a7 a10 a14 a17 : IVec S1048576 32) (v : IVec S_ 1) (x : FVec Ideal S32 .f32) (k : FVec Ideal S_ .f32)
    (j : S_.Idx) (h : fn_part5 (F := Ideal) a0 a3 a7 a10 a14 a17 v x k j = 1#1) :
    InRange a0 ∧ InRange a3 ∧ InRange a7 ∧ InRange a10 ∧ InRange a14 ∧ InRange a17 := by
  dsimp only [fn_part5] at h
  obtain ⟨h100, h3lt, h7, h10, h14, h17⟩ := part6 _ _ _ _ _ _ j h
  obtain ⟨h96, h3ge⟩ := andi_split _ _ j h100
  obtain ⟨h92, h0lt⟩ := andi_split _ _ j h96
  obtain ⟨_, h0ge⟩ := andi_split _ _ j h92
  exact ⟨fun e => ⟨all_sge _ j h0ge e, all_slt _ j h0lt e⟩, fun e => ⟨all_sge _ j h3ge e, h3lt e⟩, h7, h10, h14, h17⟩

end Cert.Pre_finite_inputs.Decode

namespace Cert.KernelIdeal.Val

open Cert.KernelIdeal
open Idealize.ShloMosaic Idealize.ShloMosaic.TcCoe Idealize.SL.Sem

/-- Under the precondition every row word of the six incidence lists names an entity. -/
theorem rows_of_pre (m : (ℓ : Loc nD τ sig) → Buf (Elt Ideal) ℓ) (h : Cert.Pre_KernelIdeal m) (c : Dev nD) :
    (args m c).RowsInRange := by
  have h0 := congrFun (h c) Cert.Pre_finite_inputs.Decode.j0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨r0, r3, r7, r10, r14, r17⟩ := Cert.Pre_finite_inputs.Decode.part5 _ _ _ _ _ _ _ _ _ _ h0
  exact fun e => ⟨r0 e, r3 e, r7 e, r10 e, r14 e, r17 e⟩

end Cert.KernelIdeal.Val

end
-- ==== Proof.RArgs.lean ====
/-
  The thirty-one argument arrays of the program, read off a memory, as one bundle.
-/
import proofs.«402564_j1056561954978_2_alg».proof.ReferenceIdeal
import proofs.«402564_j1056561954978_2_alg».proof.Proof.Spec

noncomputable section

namespace Cert.ReferenceIdeal.Val

open Cert.ReferenceIdeal
open Idealize.ShloMosaic Idealize.ShloMosaic.TcCoe Idealize.SL.Sem

/-- Core `c`'s argument arrays in the memory `m`. -/
def args (m : (ℓ : Loc nD τ sig) → Buf (Elt Ideal) ℓ) (c : Dev nD) : Cert.Spec.Args where
  hInRows := m ((c.tc : Thread nD τ).loc main_arg0)
  hInCols := m ((c.tc : Thread nD τ).loc main_arg1)
  hInVals := m ((c.tc : Thread nD τ).loc main_arg2)
  hOutRows := m ((c.tc : Thread nD τ).loc main_arg3)
  hOutCols := m ((c.tc : Thread nD τ).loc main_arg4)
  hOutVals := m ((c.tc : Thread nD τ).loc main_arg5)
  hFeat := m ((c.tc : Thread nD τ).loc main_arg6)
  pInRows := m ((c.tc : Thread nD τ).loc main_arg7)
  pInCols := m ((c.tc : Thread nD τ).loc main_arg8)
  pInVals := m ((c.tc : Thread nD τ).loc main_arg9)
  pOutRows := m ((c.tc : Thread nD τ).loc main_arg10)
  pOutCols := m ((c.tc : Thread nD τ).loc main_arg11)
  pOutVals := m ((c.tc : Thread nD τ).loc main_arg12)
  pFeat := m ((c.tc : Thread nD τ).loc main_arg13)
  nInRows := m ((c.tc : Thread nD τ).loc main_arg14)
  nInCols := m ((c.tc : Thread nD τ).loc main_arg15)
  nInVals := m ((c.tc : Thread nD τ).loc main_arg16)
  nOutRows := m ((c.tc : Thread nD τ).loc main_arg17)
  nOutCols := m ((c.tc : Thread nD τ).loc main_arg18)
  nOutVals := m ((c.tc : Thread nD τ).loc main_arg19)
  nFeat := m ((c.tc : Thread nD τ).loc main_arg20)
  eid := m ((c.tc : Thread nD τ).loc main_arg21)
  rel := m ((c.tc : Thread nD τ).loc main_arg22)
  Win := m ((c.tc : Thread nD τ).loc main_arg23)
  bin := m ((c.tc : Thread nD τ).loc main_arg24)
  Wout := m ((c.tc : Thread nD τ).loc main_arg25)
  bout := m ((c.tc : Thread nD τ).loc main_arg26)
  Went := m ((c.tc : Thread nD τ).loc main_arg27)
  bent := m ((c.tc : Thread nD τ).loc main_arg28)
  Wrel := m ((c.tc : Thread nD τ).loc main_arg29)
  brel := m ((c.tc : Thread nD τ).loc main_arg30)

end Cert.ReferenceIdeal.Val

end
-- ==== Proof.LibSumSplit.lean ====
/-
  A finite sum over `a + b + c` indices, split into its three consecutive ranges.

  In any commutative additive monoid (the extended reals among them: no subtraction, no finiteness), the sum of `f` over
  `Fin n` with `n = a + b + c` is the sum over the first `a` indices, plus the sum over the next `b`, plus the sum over the
  last `c`, bracketed to the left.
-/
import Mathlib.Algebra.BigOperators.Fin

namespace SumSplit

/-- The three ranges of `Fin n`, `n = a + b + c`. -/
def lo {a b c n : ℕ} (h : n = a + b + c) (k : Fin a) : Fin n := ⟨k.val, by omega⟩
def mid {a b c n : ℕ} (h : n = a + b + c) (k : Fin b) : Fin n := ⟨a + k.val, by omega⟩
def hi {a b c n : ℕ} (h : n = a + b + c) (k : Fin c) : Fin n := ⟨a + b + k.val, by omega⟩

/-- THE SPLIT. -/
theorem sum_three {M : Type*} [AddCommMonoid M] {a b c n : ℕ} (h : n = a + b + c) (f : Fin n → M) :
    ∑ k : Fin n, f k = ((∑ k : Fin a, f (lo h k)) + ∑ k : Fin b, f (mid h k)) + ∑ k : Fin c, f (hi h k) := by
  subst h
  rw [Fin.sum_univ_add, Fin.sum_univ_add]
  rfl

end SumSplit
-- ==== Proof.LibIdxConcat.lean ====
/-
  Two small facts about array indices, used when an array program is read entry by entry.

  (1) A rank-1 or rank-2 index is determined by the values of its coordinates.
  (2) Three arrays `[n, a]`, `[n, b]`, `[n, c]` joined along axis 1: the result's column `k < a` is the first array's
      column `k`, its column `a + k` the second's column `k`, its column `a + b + k` the third's column `k`.
-/
import Idealize.ShloMosaic.Lib.ValueIdx
import Idealize.ShloMosaic.Lib.Pipeline.Value

namespace IdxConcat

open Idealize.ShloMosaic Idealize.ShloMosaic.ValueIdx

/-- A rank-1 index with coordinate value `a` is `ix1 a`. -/
theorem idx1_eq {n : Nat} (f : (⟨1, ![n]⟩ : Shape).Idx) (a : Fin n) (h : (f 0).val = a.val) : f = ix1 a := by
  funext d
  match d with
  | ⟨0, _⟩ => exact Fin.ext h

/-- A rank-2 index with coordinate values `a`, `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

section Concat3
variable {α : Type} {n a b c w : Nat}
variable (x : (⟨2, ![n, a]⟩ : Shape).Idx → α) (y : (⟨2, ![n, b]⟩ : Shape).Idx → α) (z : (⟨2, ![n, c]⟩ : Shape).Idx → α)
variable (h : Shape.Concatenates [(⟨2, ![n, a]⟩ : Shape), ⟨2, ![n, b]⟩, ⟨2, ![n, c]⟩] ⟨2, ![n, w]⟩ 1)

/-- Columns below `a` come from the first piece. -/
theorem concat3_fst (i : Fin n) (k : Fin a) (hk : k.val < w) :
    concatenate (⟨2, ![n, w]⟩ : Shape) 1 [⟨⟨2, ![n, a]⟩, x⟩, ⟨⟨2, ![n, b]⟩, y⟩, ⟨⟨2, ![n, c]⟩, z⟩] h (ix2 i ⟨k.val, hk⟩)
      = x (ix2 i k) := by
  refine concatenate_apply_piece (t := ⟨2, ![n, w]⟩) (1 : Fin 2) [⟨⟨2, ![n, a]⟩, x⟩, ⟨⟨2, ![n, b]⟩, y⟩, ⟨⟨2, ![n, c]⟩, z⟩] h _ 0 (by simp) _ x rfl rfl 0 rfl (ix2 i k) ?_ ?_
  · intro d hd
    match d with
    | ⟨0, _⟩ => rfl
    | ⟨1, _⟩ => exact absurd rfl hd
  · exact Nat.zero_add _

/-- Columns `a + k`, `k < b`, come from the second piece. -/
theorem concat3_snd (i : Fin n) (k : Fin b) (hk : a + k.val < w) :
    concatenate (⟨2, ![n, w]⟩ : Shape) 1 [⟨⟨2, ![n, a]⟩, x⟩, ⟨⟨2, ![n, b]⟩, y⟩, ⟨⟨2, ![n, c]⟩, z⟩] h (ix2 i ⟨a + k.val, hk⟩)
      = y (ix2 i k) := by
  refine concatenate_apply_piece (t := ⟨2, ![n, w]⟩) (1 : Fin 2) [⟨⟨2, ![n, a]⟩, x⟩, ⟨⟨2, ![n, b]⟩, y⟩, ⟨⟨2, ![n, c]⟩, z⟩] h _ 1 (by simp) _ y rfl rfl a (by simp) (ix2 i k) ?_ ?_
  · intro d hd
    match d with
    | ⟨0, _⟩ => rfl
    | ⟨1, _⟩ => exact absurd rfl hd
  · rfl

/-- Columns `a + b + k`, `k < c`, come from the third piece. -/
theorem concat3_thd (i : Fin n) (k : Fin c) (hk : a + b + k.val < w) :
    concatenate (⟨2, ![n, w]⟩ : Shape) 1 [⟨⟨2, ![n, a]⟩, x⟩, ⟨⟨2, ![n, b]⟩, y⟩, ⟨⟨2, ![n, c]⟩, z⟩] h (ix2 i ⟨a + b + k.val, hk⟩)
      = z (ix2 i k) := by
  refine concatenate_apply_piece (t := ⟨2, ![n, w]⟩) (1 : Fin 2) [⟨⟨2, ![n, a]⟩, x⟩, ⟨⟨2, ![n, b]⟩, y⟩, ⟨⟨2, ![n, c]⟩, z⟩] h _ 2 (by simp) _ z rfl rfl (a + b) (by simp) (ix2 i k) ?_ ?_
  · intro d hd
    match d with
    | ⟨0, _⟩ => rfl
    | ⟨1, _⟩ => exact absurd rfl hd
  · rfl

end Concat3

end IdxConcat
-- ==== Proof.RefValue.lean ====
/-
  The reference, read back: its run ends with the two results at the specification's score arrays of its own argument
  arrays. Its aggregates are six separate scatter-adds, each the specification's `agg` as it stands; its wide layer is one
  832-long contraction of the concatenated row, which splits into the three ranges 768 + 32 + 32 because a finite sum over
  the extended reals may be regrouped; its relation embedding normalises the gathered rows, which at an entry is the same
  expression as gathering the normalised table.

  The program computes one side's embedding three times over (head, positive tail, negative tail) with the same
  operations on different arguments, and an incidence list's aggregate and its 32-wide layer twice per side: each is read
  entry by entry ONCE, on the head side's first list, and the other copies are the same function of their own arguments.
-/
import proofs.«402564_j1056561954978_2_alg».proof.Proof.Gen.ReferenceIdeal.Run
import proofs.«402564_j1056561954978_2_alg».proof.Proof.Gen.ReferenceIdeal.Read
import proofs.«402564_j1056561954978_2_alg».proof.Proof.RArgs
import proofs.«402564_j1056561954978_2_alg».proof.Proof.LibRowGather
import proofs.«402564_j1056561954978_2_alg».proof.Proof.LibRowScatter
import proofs.«402564_j1056561954978_2_alg».proof.Proof.LibSumSplit
import proofs.«402564_j1056561954978_2_alg».proof.Proof.LibIdxConcat
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.Val

open Cert.ReferenceIdeal Cert.ReferenceIdeal.Read
open Idealize.ShloMosaic Idealize.ShloMosaic.TcCoe Idealize.ShloMosaic.ValueIdx
open Idealize.SL.Sem
open IdxConcat (idx1_eq idx2_eq)

/-! ## The arguments as the specification takes them -/

section Stages

variable (x0 x1 : (⟨S1048576, .i32⟩ : BufTy).Contents (Elt Ideal)) (x2 : (⟨S1048576, .f32⟩ : BufTy).Contents (Elt Ideal)) (x3 x4 : (⟨S1048576, .i32⟩ : BufTy).Contents (Elt Ideal)) (x5 : (⟨S1048576, .f32⟩ : BufTy).Contents (Elt Ideal)) (x6 : (⟨S65536x768, .f32⟩ : BufTy).Contents (Elt Ideal))
  (y0 y1 : (⟨S1048576, .i32⟩ : BufTy).Contents (Elt Ideal)) (y2 : (⟨S1048576, .f32⟩ : BufTy).Contents (Elt Ideal)) (y3 y4 : (⟨S1048576, .i32⟩ : BufTy).Contents (Elt Ideal)) (y5 : (⟨S1048576, .f32⟩ : BufTy).Contents (Elt Ideal)) (y6 : (⟨S65536x768, .f32⟩ : BufTy).Contents (Elt Ideal))
  (z0 z1 : (⟨S1048576, .i32⟩ : BufTy).Contents (Elt Ideal)) (z2 : (⟨S1048576, .f32⟩ : BufTy).Contents (Elt Ideal)) (z3 z4 : (⟨S1048576, .i32⟩ : BufTy).Contents (Elt Ideal)) (z5 : (⟨S1048576, .f32⟩ : BufTy).Contents (Elt Ideal)) (z6 : (⟨S65536x768, .f32⟩ : BufTy).Contents (Elt Ideal))
  (x21 : (⟨S65536, .i32⟩ : BufTy).Contents (Elt Ideal)) (x22 : (⟨S1315x32, .f32⟩ : BufTy).Contents (Elt Ideal)) (x23 : (⟨S32x32, .f32⟩ : BufTy).Contents (Elt Ideal)) (x24 : (⟨S32, .f32⟩ : BufTy).Contents (Elt Ideal)) (x25 : (⟨S32x32, .f32⟩ : BufTy).Contents (Elt Ideal)) (x26 : (⟨S32, .f32⟩ : BufTy).Contents (Elt Ideal))
  (x27 : (⟨S32x832, .f32⟩ : BufTy).Contents (Elt Ideal)) (x28 : (⟨S32, .f32⟩ : BufTy).Contents (Elt Ideal)) (x29 : (⟨S32x32, .f32⟩ : BufTy).Contents (Elt Ideal)) (x30 : (⟨S32, .f32⟩ : BufTy).Contents (Elt Ideal))

/-- One incidence list aggregated, as the specification states it, of the list's three arrays and the relation table. -/
def aggOf (r c : (⟨S1048576, .i32⟩ : BufTy).Contents (Elt Ideal)) (v : (⟨S1048576, .f32⟩ : BufTy).Contents (Elt Ideal)) (rel : (⟨S1315x32, .f32⟩ : BufTy).Contents (Elt Ideal)) : Fin 65536 → Fin 32 → EReal :=
  Cert.Spec.agg (fun e => r (ix1 e)) (fun e => c (ix1 e)) (fun e => v (ix1 e)) (fun q k => rel (ix2 q k))

/-- One side's embedding of entity `i`, as the specification states it, of the side's seven arrays and the weights. -/
def embOf (i : Fin 65536) : Fin 32 → EReal :=
  Cert.Spec.emb (fun k => x6 (ix2 i k)) (aggOf x0 x1 x2 x22 i) (aggOf x3 x4 x5 x22 i)
    (fun j k => x23 (ix2 k j)) (fun k => x24 (ix1 k)) (fun j k => x25 (ix2 k j)) (fun k => x26 (ix1 k))
    (fun k c => x27 (ix2 c (Cert.Spec.colFeat k))) (fun k c => x27 (ix2 c (Cert.Spec.colIn k)))
    (fun k c => x27 (ix2 c (Cert.Spec.colOut k))) (fun c => x28 (ix1 c))

/-- The relation's logits of triple `i`: the table's selected row through the relation layer. -/
def relLogit (i : Fin 65536) (c : Fin 32) : EReal :=
  (∑ k, x22 (ix2 (Cert.Spec.rowOf (x21 (ix1 i))) k) * x29 (ix2 c k)) + x30 (ix1 c)

/-! ## An incidence list aggregated (operations %17 … %29) -/

/-- The column word of edge `e`, wrapped once if negative. -/
theorem colWord_at (e : Fin 1048576) :
    val_main_v23 (F := Ideal) x1 (ix2 e (0 : Fin 1)) = Cert.Spec.wrap (x1 (ix1 e)) := by
  rw [val_main_v23_apply, val_main_v22_apply, val_main_v19_apply, val_main_v21_apply, val_main_v18_apply,
    val_main_v20_apply, val_main_c_1_apply, val_main_c_2_apply, idx1_eq (idx_main_v23 (ix2 e (0 : Fin 1))) e rfl]
  rfl

/-- The gathered row of edge `e`: the table's row the wrapped word selects, clamped into the table. -/
theorem relRow_at (e : Fin 1048576) (j : Fin 32) :
    val_main_v24 (F := Ideal) x1 x22 (ix2 e j) = x22 (ix2 (Cert.Spec.rowOf (x1 (ix1 e))) j) := by
  unfold val_main_v24
  refine (RowGather.rowGather_apply gather_S1315x32_S1048576x1_S1048576x32_1_0_n_n_0_1_132 rfl rfl rfl rfl rfl x22
    (val_main_v23 (F := Ideal) x1) e j (by decide)).trans ?_
  refine congrArg (fun r => x22 (ix2 r j)) (Fin.ext ?_)
  show min (val_main_v23 (F := Ideal) x1 (ix2 e (0 : Fin 1))).toInt.toNat (1315 - 1) = _
  rw [colWord_at]
  rfl

/-- The value of edge `e`, broadcast along the row. -/
theorem valWord_at (e : Fin 1048576) (j : Fin 32) :
    val_main_v25 (F := Ideal) x2 (ix2 e j) = x2 (ix1 e) := by
  rw [val_main_v25_apply, val_main_v17_apply]
  exact congrArg x2 (idx1_eq _ e rfl)

/-- The row word of edge `e`. -/
theorem rowWord_at (e : Fin 1048576) :
    val_main_v28 (F := Ideal) x0 (ix2 e (0 : Fin 1)) = x0 (ix1 e) := by
  rw [val_main_v28_apply]
  exact congrArg x0 (idx1_eq _ e rfl)

/-- The program's scatter-add over any operands, at an entry: the operand there plus the update rows whose row word
    reads that row. -/
theorem scatter_at (a : FVec Ideal S65536x32 .f32) (b : IVec S1048576x1 32) (u : FVec Ideal S1048576x32 .f32)
    (i : Fin 65536) (j : Fin 32) :
    Host.scatterAdd (F := Ideal) scatter_S65536x32_S1048576x1_S1048576x32_1_0_0_1 a b u (ix2 i j)
      = a (ix2 i j) + ∑ e ∈ Finset.univ.filter (fun e : Fin 1048576 => (b (ix2 e (0 : Fin 1))).toInt = (i.val : Int)),
          u (ix2 e j) := by
  simp only [Host.scatterAdd, Ideal.hostScatterAdd_def]
  exact RowScatter.rowScatterAdd_apply scatter_S65536x32_S1048576x1_S1048576x32_1_0_0_1 rfl rfl rfl rfl a b u i j

/-- The scatter-add into zeros, at entity `i` and column `j`, is the specification's aggregate: the operand
    contributes zero, and the updates that land on row `i` are the edges whose row word reads `i`. -/
theorem agg_at (i : Fin 65536) (j : Fin 32) :
    val_main_v29 (F := Ideal) x0 x1 x2 x22 (ix2 i j) = aggOf x0 x1 x2 x22 i j := by
  unfold val_main_v29
  rw [scatter_at, val_main_v27_apply, val_main_cst_3_apply, Ideal.ofBits_def, Ideal.ofBits_zero_f32, zero_add]
  unfold aggOf Cert.Spec.agg
  refine Finset.sum_congr (Finset.filter_congr fun e _ => ?_) fun e _ => ?_
  · rw [rowWord_at]
  · rw [val_main_v26_apply, valWord_at, relRow_at]
    rfl

/-! ## The 32-wide layer on an aggregate (operations %30 … %34) -/

/-- An aggregate through its layer: the weight is stored output-major, so the transposed operand reads it input-major. -/
theorem lin_at (i : Fin 65536) (k : Fin 32) :
    val_main_v34 (F := Ideal) x0 x1 x2 x22 x23 x24 (ix2 i k)
      = Cert.Spec.lin32 (aggOf x0 x1 x2 x22 i) (fun j k => x23 (ix2 k j)) (fun k => x24 (ix1 k)) k := by
  rw [val_main_v34_apply, val_main_v31_apply, val_main_v33_apply, val_main_v32_apply,
    idx1_eq (idx_main_v32 (idx_main_v33 (ix2 i k))) k rfl, Ideal.addf_def]
  unfold Cert.Spec.lin32
  refine congrArg (· + x24 (ix1 k)) (Finset.sum_congr rfl fun j _ => ?_)
  rw [val_main_v30_apply, idx2_eq (lidx_main_v31 (ix2 i k) j) i j rfl rfl, agg_at,
    idx2_eq (idx_main_v30 (ridx_main_v31 (ix2 i k) j)) k j rfl rfl]

/-- The second list's layer is the same operations. -/
theorem outLin_stage : val_main_v52 (F := Ideal) = val_main_v34 (F := Ideal) := rfl

/-! ## The wide layer on the concatenated row (operations %53 … %58) -/

theorem h832 : 832 = 768 + 32 + 32 := rfl

/-- The logits of entity `i`: the 832-long contraction of the joined row [features | in | out] against row `c` of the
    wide weight splits into its three column ranges, each read from its own piece of the row. -/
theorem logit_at (i : Fin 65536) (c : Fin 32) :
    val_main_v58 (F := Ideal) x0 x1 x2 x3 x4 x5 x6 x22 x23 x24 x25 x26 x27 x28 (ix2 i c)
      = Cert.Spec.logit (fun k => x6 (ix2 i k)) (aggOf x0 x1 x2 x22 i) (aggOf x3 x4 x5 x22 i)
          (fun j k => x23 (ix2 k j)) (fun k => x24 (ix1 k)) (fun j k => x25 (ix2 k j)) (fun k => x26 (ix1 k))
          (fun k c => x27 (ix2 c (Cert.Spec.colFeat k))) (fun k c => x27 (ix2 c (Cert.Spec.colIn k)))
          (fun k c => x27 (ix2 c (Cert.Spec.colOut k))) (fun c => x28 (ix1 c)) c := by
  rw [val_main_v58_apply, val_main_v55_apply, val_main_v57_apply, val_main_v56_apply,
    idx1_eq (idx_main_v56 (idx_main_v57 (ix2 i c))) c rfl, Ideal.addf_def, SumSplit.sum_three h832]
  unfold Cert.Spec.logit
  refine congrArg (· + x28 (ix1 c)) (congrArg₂ (· + ·) (congrArg₂ (· + ·) ?_ ?_) ?_)
  · refine Finset.sum_congr rfl fun k _ => ?_
    rw [val_main_v54_apply, idx2_eq (lidx_main_v55 (ix2 i c) (SumSplit.lo h832 k)) i ⟨k.val, by omega⟩ rfl rfl,
      idx2_eq (idx_main_v54 (ridx_main_v55 (ix2 i c) (SumSplit.lo h832 k))) c (Cert.Spec.colFeat k) rfl rfl]
    unfold val_main_v53
    rw [IdxConcat.concat3_fst]
  · refine Finset.sum_congr rfl fun k _ => ?_
    rw [val_main_v54_apply, idx2_eq (lidx_main_v55 (ix2 i c) (SumSplit.mid h832 k)) i ⟨768 + k.val, by omega⟩ rfl rfl,
      idx2_eq (idx_main_v54 (ridx_main_v55 (ix2 i c) (SumSplit.mid h832 k))) c (Cert.Spec.colIn k) rfl rfl]
    unfold val_main_v53
    rw [IdxConcat.concat3_snd, lin_at]
  · refine Finset.sum_congr rfl fun k _ => ?_
    rw [val_main_v54_apply, idx2_eq (lidx_main_v55 (ix2 i c) (SumSplit.hi h832 k)) i ⟨768 + 32 + k.val, by omega⟩ rfl rfl,
      idx2_eq (idx_main_v54 (ridx_main_v55 (ix2 i c) (SumSplit.hi h832 k))) c (Cert.Spec.colOut k) rfl rfl]
    unfold val_main_v53
    rw [IdxConcat.concat3_thd, outLin_stage, lin_at]

/-! ## The normalisation (operations %59 … %63, and %12 … %16 for the relation) -/

/-- An entity's logits divided by the larger of their Euclidean norm and the literal. -/
theorem sideNorm_at (i : Fin 65536) (c : Fin 32) :
    val_main_v63 (F := Ideal) x0 x1 x2 x3 x4 x5 x6 x22 x23 x24 x25 x26 x27 x28 (ix2 i c)
      = Cert.Spec.l2n (fun c' => val_main_v58 (F := Ideal) x0 x1 x2 x3 x4 x5 x6 x22 x23 x24 x25 x26 x27 x28 (ix2 i c')) c := by
  rw [val_main_v63_apply, val_main_v62_apply, val_main_v61_apply, val_main_v59_apply, val_main_v60_apply,
    val_main_cst_7_apply, val_main_call1_v2_apply, val_main_call1_v1_apply, val_main_call1_cst_apply]
  simp only [Ideal.hostDivf_def, Ideal.maximumf_def, Ideal.hostUnary_sqrt_def, Ideal.ofBits_def, Ideal.ofBits_zero_f32,
    zero_add]
  unfold Cert.Spec.l2n Cert.Spec.eps
  refine congrArg (fun s => Ideal.div _ (max (Ideal.sqrt s) _)) (Finset.sum_congr rfl fun k _ => ?_)
  rw [val_main_call1_v0_apply, Ideal.mulf_def,
    idx2_eq (idx_main_call1_v1 (idx_main_call1_v2 (idx_main_v62 (ix2 i c))) k) i k rfl rfl]

/-- One side's embedding is the specification's. -/
theorem side_at (i : Fin 65536) (c : Fin 32) :
    val_main_v63 (F := Ideal) x0 x1 x2 x3 x4 x5 x6 x22 x23 x24 x25 x26 x27 x28 (ix2 i c) = embOf x0 x1 x2 x3 x4 x5 x6 x22 x23 x24 x25 x26 x27 x28 i c := by
  rw [sideNorm_at]
  unfold embOf Cert.Spec.emb
  exact congrArg (Cert.Spec.l2n · c) (funext fun c' => logit_at x0 x1 x2 x3 x4 x5 x6 x22 x23 x24 x25 x26 x27 x28 i c')

/-- The two tail sides are embedded by the same operations as the head side. -/
theorem posTail_stage : val_main_v110 (F := Ideal) = val_main_v63 (F := Ideal) := rfl
theorem negTail_stage : val_main_v157 (F := Ideal) = val_main_v63 (F := Ideal) := rfl

/-! ## The relation embedding (operations %0 … %16) -/

/-- The relation word of triple `i`, wrapped once if negative. -/
theorem relWord_at (i : Fin 65536) :
    val_main_v5 (F := Ideal) x21 (ix2 i (0 : Fin 1)) = Cert.Spec.wrap (x21 (ix1 i)) := by
  rw [val_main_v5_apply, val_main_v4_apply, val_main_v1_apply, val_main_v3_apply, val_main_v0_apply, val_main_v2_apply,
    val_main_c_apply, val_main_c_0_apply, idx1_eq (idx_main_v5 (ix2 i (0 : Fin 1))) i rfl]
  rfl

/-- The gathered row of triple `i`. -/
theorem relGather_at (i : Fin 65536) (k : Fin 32) :
    val_main_v6 (F := Ideal) x21 x22 (ix2 i k) = x22 (ix2 (Cert.Spec.rowOf (x21 (ix1 i))) k) := by
  unfold val_main_v6
  refine (RowGather.rowGather_apply gather_S1315x32_S65536x1_S65536x32_1_0_n_n_0_1_132 rfl rfl rfl rfl rfl x22
    (val_main_v5 (F := Ideal) x21) i k (by decide)).trans ?_
  refine congrArg (fun r => x22 (ix2 r k)) (Fin.ext ?_)
  show min (val_main_v5 (F := Ideal) x21 (ix2 i (0 : Fin 1))).toInt.toNat (1315 - 1) = _
  rw [relWord_at]
  rfl

/-- The relation's logits: the gathered row through the relation layer. -/
theorem relLogit_at (i : Fin 65536) (c : Fin 32) :
    val_main_v11 (F := Ideal) x21 x22 x29 x30 (ix2 i c) = relLogit x21 x22 x29 x30 i c := by
  rw [val_main_v11_apply, val_main_v8_apply, val_main_v10_apply, val_main_v9_apply,
    idx1_eq (idx_main_v9 (idx_main_v10 (ix2 i c))) c rfl, Ideal.addf_def]
  unfold relLogit
  refine congrArg (· + x30 (ix1 c)) (Finset.sum_congr rfl fun k _ => ?_)
  rw [val_main_v7_apply, idx2_eq (lidx_main_v8 (ix2 i c) k) i k rfl rfl, relGather_at,
    idx2_eq (idx_main_v7 (ridx_main_v8 (ix2 i c) k)) c k rfl rfl]

/-- The relation's logits normalised. -/
theorem rel_at (i : Fin 65536) (c : Fin 32) :
    val_main_v16 (F := Ideal) x21 x22 x29 x30 (ix2 i c) = Cert.Spec.l2n (relLogit x21 x22 x29 x30 i) c := by
  rw [val_main_v16_apply, val_main_v15_apply, val_main_v14_apply, val_main_v12_apply, val_main_v13_apply,
    val_main_cst_apply, val_main_call0_v2_apply, val_main_call0_v1_apply, val_main_call0_cst_apply]
  simp only [Ideal.hostDivf_def, Ideal.maximumf_def, Ideal.hostUnary_sqrt_def, Ideal.ofBits_def, Ideal.ofBits_zero_f32,
    zero_add]
  unfold Cert.Spec.l2n Cert.Spec.eps
  rw [relLogit_at]
  refine congrArg (fun s => Ideal.div _ (max (Ideal.sqrt s) _)) (Finset.sum_congr rfl fun k _ => ?_)
  rw [val_main_call0_v0_apply, Ideal.mulf_def,
    idx2_eq (idx_main_call0_v1 (idx_main_call0_v2 (idx_main_v15 (ix2 i c))) k) i k rfl rfl, relLogit_at]

/-! ## The two scores (operations %158 … %163) -/

/-- The positive score of triple `i`. -/
theorem posScore_at (i : Fin 65536) :
    val_main_v160 (F := Ideal) x0 x1 x2 x3 x4 x5 x6 y0 y1 y2 y3 y4 y5 y6 x21 x22 x23 x24 x25 x26 x27 x28 x29 x30 (ix1 i)
      = Cert.Spec.score (embOf x0 x1 x2 x3 x4 x5 x6 x22 x23 x24 x25 x26 x27 x28 i) (Cert.Spec.l2n (relLogit x21 x22 x29 x30 i)) (embOf y0 y1 y2 y3 y4 y5 y6 x22 x23 x24 x25 x26 x27 x28 i) := by
  rw [val_main_v160_apply, val_main_call4_v1_apply, val_main_call4_cst_apply]
  simp only [Ideal.hostUnary_sqrt_def, Ideal.ofBits_def, Ideal.ofBits_zero_f32, zero_add]
  unfold Cert.Spec.score
  refine congrArg Ideal.sqrt (Finset.sum_congr rfl fun c _ => ?_)
  rw [val_main_call4_v0_apply, val_main_v159_apply, val_main_v158_apply, idx2_eq (idx_main_call4_v1 (ix1 i) c) i c rfl rfl,
    posTail_stage, side_at, side_at, rel_at]
  rfl

/-- The negative score of triple `i`. -/
theorem negScore_at (i : Fin 65536) :
    val_main_v163 (F := Ideal) x0 x1 x2 x3 x4 x5 x6 z0 z1 z2 z3 z4 z5 z6 x21 x22 x23 x24 x25 x26 x27 x28 x29 x30 (ix1 i)
      = Cert.Spec.score (embOf x0 x1 x2 x3 x4 x5 x6 x22 x23 x24 x25 x26 x27 x28 i) (Cert.Spec.l2n (relLogit x21 x22 x29 x30 i)) (embOf z0 z1 z2 z3 z4 z5 z6 x22 x23 x24 x25 x26 x27 x28 i) := by
  rw [val_main_v163_apply, val_main_call5_v1_apply, val_main_call5_cst_apply]
  simp only [Ideal.hostUnary_sqrt_def, Ideal.ofBits_def, Ideal.ofBits_zero_f32, zero_add]
  unfold Cert.Spec.score
  refine congrArg Ideal.sqrt (Finset.sum_congr rfl fun c _ => ?_)
  rw [val_main_call5_v0_apply, val_main_v162_apply, val_main_v161_apply, idx2_eq (idx_main_call5_v1 (ix1 i) c) i c rfl rfl,
    negTail_stage, side_at, side_at, rel_at]
  rfl

end Stages

/-! ## The run -/

variable (m : (ℓ : Loc nD τ sig) → Buf (Elt Ideal) ℓ) (ρ : Dev nD → PrngReg)

/-- The first result is the specification's positive scores of the argument arrays. -/
theorem pos_eq (c : Dev nD) : Cert.ReferenceIdeal.Value.res_main_v160 m c = Cert.Spec.posArr (args m c) := by
  rw [Read.val_main_v160_eq]
  funext y
  obtain ⟨i, rfl⟩ : ∃ i : Fin 65536, y = ix1 i :=
    ⟨⟨(y 0).val, (y 0).isLt⟩, funext fun d => match d with | ⟨0, _⟩ => rfl⟩
  rw [posScore_at]
  rfl

/-- The second result is the specification's negative scores of the argument arrays. -/
theorem neg_eq (c : Dev nD) : Cert.ReferenceIdeal.Value.res_main_v163 m c = Cert.Spec.negArr (args m c) := by
  rw [Read.val_main_v163_eq]
  funext y
  obtain ⟨i, rfl⟩ : ∃ i : Fin 65536, y = ix1 i :=
    ⟨⟨(y 0).val, (y 0).isLt⟩, funext fun d => match d with | ⟨0, _⟩ => rfl⟩
  rw [negScore_at]
  rfl

/-- The reference's run with both results named and the arguments kept. -/
theorem run_value :
    θ_run defs (onTc (τ := τ) (main (F := Ideal))) ⟨m, fun _ => 0, ρ⟩ (fun r => ∀ c : Dev nD,
      r.2.mem ((c.tc : Thread nD τ).loc main_v160) = Cert.Spec.posArr (args m c)
      ∧ r.2.mem ((c.tc : Thread nD τ).loc main_v163) = Cert.Spec.negArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono
    (fun r h c => ⟨(h c).1.trans (pos_eq m c), (h c).2.1.trans (neg_eq m c), (h c).2.2⟩)
    (Cert.ReferenceIdeal.Value.run (F := Ideal) m ρ)

end Cert.ReferenceIdeal.Val

end
-- ==== Proof.lean ====
/-
  The certificate's five claims, assembled.

  The kernel program fuses six sparse aggregations into one scatter-add by shifting the row words of list `s` by
  `65536 s`, packs the results, gathers a normalised relation table, and then one pipelined region computes three entity
  embeddings per block of 1024 entities and the two norms of (head + relation) - tail. The reference does the same
  arithmetic array by array. Under the precondition — float arguments finite and every row word in `[0, 65536)`, which is
  what makes the shifted lists land in disjoint slabs — both end with the same two score arrays: each side is shown equal,
  entry by entry over the extended reals, to one specification (`Cert.Spec.posArr`, `Cert.Spec.negArr` of the argument
  arrays), so the two sides meet there. The three frames are the region's frame run at the word-level instance and at the
  ideal instance, and the reference's run with its results dropped; the ideal pass rewrote nothing, so there is nothing to
  preserve.
-/
import proofs.«402564_j1056561954978_2_alg».proof.Defs
import proofs.«402564_j1056561954978_2_alg».proof.Proof.Gen.Kernel
import proofs.«402564_j1056561954978_2_alg».proof.Proof.Gen.KernelIdeal
import proofs.«402564_j1056561954978_2_alg».proof.Proof.Gen.ReferenceIdeal
import proofs.«402564_j1056561954978_2_alg».proof.Proof.Gen.ReferenceIdeal.Run
import proofs.«402564_j1056561954978_2_alg».proof.Proof.Gen.ReferenceIdeal.Read
import proofs.«402564_j1056561954978_2_alg».proof.Proof.Gen.Pre_finite_inputs
import proofs.«402564_j1056561954978_2_alg».proof.Proof.KFrame
import proofs.«402564_j1056561954978_2_alg».proof.Proof.KIFrame
import proofs.«402564_j1056561954978_2_alg».proof.Proof.KIValue
import proofs.«402564_j1056561954978_2_alg».proof.Proof.PreDecode
import proofs.«402564_j1056561954978_2_alg».proof.Proof.RefValue
import Idealize.ShloMosaic.Adequacy
import Idealize.ShloMosaic.Init

noncomputable section

namespace Cert.Proof

open Idealize.ShloMosaic Idealize.SL.Sem

/-- The word-level program runs and keeps its arguments: the region's frame run at the word-level instance. -/
theorem frame_kernel : Cert.frame_Kernel := fun m ρ _ => Cert.Kernel.Fr.frame m ρ

/-- The idealized program runs and keeps its arguments: the same frame run at the ideal instance. -/
theorem frame_kernelIdeal : Cert.frame_KernelIdeal := fun m ρ _ => Cert.KernelIdeal.Fr.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Two argument bundles with the same thirty-one arrays are the same bundle. -/
theorem args_ext (a b : Cert.Spec.Args)
    (h0 : a.hInRows = b.hInRows)
    (h1 : a.hInCols = b.hInCols)
    (h2 : a.hInVals = b.hInVals)
    (h3 : a.hOutRows = b.hOutRows)
    (h4 : a.hOutCols = b.hOutCols)
    (h5 : a.hOutVals = b.hOutVals)
    (h6 : a.hFeat = b.hFeat)
    (h7 : a.pInRows = b.pInRows)
    (h8 : a.pInCols = b.pInCols)
    (h9 : a.pInVals = b.pInVals)
    (h10 : a.pOutRows = b.pOutRows)
    (h11 : a.pOutCols = b.pOutCols)
    (h12 : a.pOutVals = b.pOutVals)
    (h13 : a.pFeat = b.pFeat)
    (h14 : a.nInRows = b.nInRows)
    (h15 : a.nInCols = b.nInCols)
    (h16 : a.nInVals = b.nInVals)
    (h17 : a.nOutRows = b.nOutRows)
    (h18 : a.nOutCols = b.nOutCols)
    (h19 : a.nOutVals = b.nOutVals)
    (h20 : a.nFeat = b.nFeat)
    (h21 : a.eid = b.eid)
    (h22 : a.rel = b.rel)
    (h23 : a.Win = b.Win)
    (h24 : a.bin = b.bin)
    (h25 : a.Wout = b.Wout)
    (h26 : a.bout = b.bout)
    (h27 : a.Went = b.Went)
    (h28 : a.bent = b.bent)
    (h29 : a.Wrel = b.Wrel)
    (h30 : a.brel = b.brel) : a = b := by
  cases a; cases b
  simp only at h0 h1 h2 h3 h4 h5 h6 h7 h8 h9 h10 h11 h12 h13 h14 h15 h16 h17 h18 h19 h20 h21 h22 h23 h24 h25 h26 h27 h28 h29 h30
  subst h0 h1 h2 h3 h4 h5 h6 h7 h8 h9 h10 h11 h12 h13 h14 h15 h16 h17 h18 h19 h20 h21 h22 h23 h24 h25 h26 h27 h28 h29 h30
  rfl

/-- Memories that agree on the arguments have the same argument bundle. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.Val.args m' c = Cert.KernelIdeal.Val.args m c :=
  args_ext _ _ h0 h1 h2 h3 h4 h5 h6 h7 h8 h9 h10 h11 h12 h13 h14 h15 h16 h17 h18 h19 h20 h21 h22 h23 h24 h25 h26 h27 h28 h29 h30

/-- Both idealized programs, from memories agreeing on the arguments, end with the specification's two score arrays of
    those arguments: the kernel program under the precondition's row-range conjuncts, the reference always. -/
theorem algebraic : Cert.algebraic_KernelIdeal_ReferenceIdeal := by
  intro m ρ m' ρ' hpre hagree
  refine ⟨fun c => Cert.Spec.posArr (Cert.KernelIdeal.Val.args m c), fun c => Cert.Spec.negArr (Cert.KernelIdeal.Val.args m c),
    Cert.KernelIdeal.Val.run_value m ρ (fun c => Cert.KernelIdeal.Val.rows_of_pre m hpre c), ?_⟩
  refine (θ_run Cert.ReferenceIdeal.defs _ _).mono (fun r h c => ?_) (Cert.ReferenceIdeal.Val.run_value m' ρ')
  have ha : Cert.ReferenceIdeal.Val.args m' c = Cert.KernelIdeal.Val.args m c := by
    obtain ⟨h0, h1, h2, h3, h4, h5, h6, h7, h8, h9, h10, h11, h12, h13, h14, h15, h16, h17, h18, h19, h20, h21, h22, h23, h24, h25, h26, h27, h28, h29, h30⟩ := hagree c
    exact args_agree m m' c h0 h1 h2 h3 h4 h5 h6 h7 h8 h9 h10 h11 h12 h13 h14 h15 h16 h17 h18 h19 h20 h21 h22 h23 h24 h25 h26 h27 h28 h29 h30
  have hc := h c
  rw [ha] at hc
  exact hc

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
